-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S_ : Shape := ⟨0, ![]⟩
abbrev S1x640000 : Shape := ⟨2, ![1, 640000]⟩
abbrev S640000 : Shape := ⟨1, ![640000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_c_19 : IVec S_ 1 := constantI S_ 1 1#1
  let main_v53 : IVec S_ 1 := (fun x v => Host.reduce IntOp.andi x v reducesTo_S640000_S_d0 h_S_) main_v52 main_c_19
  let main_v54 : IVec S_ 1 := andi main_v48 main_v53
  let main_v55 : IVec S1x640000 32 := (extractStridedSlice S1x640000 ![0, 0] · slices_S2x640000_S1x640000_0_0) main_arg1
  let main_v56 : IVec S640000 32 := shapeCast S640000 main_v55 shapeCasts_S1x640000_S640000
  let main_c_20 : IVec S_ 32 := constantI S_ 32 100000#32
  let main_v57 : IVec S640000 32 := broadcastInDim S640000 ![] bcast_S_S640000 main_c_20
  let main_v58 : IVec S640000 1 := cmpi .slt main_v56 main_v57
  let main_c_21 : IVec S_ 1 := constantI S_ 1 1#1
  let main_v59 : IVec S_ 1 := (fun x v => Host.reduce IntOp.andi x v reducesTo_S640000_S_d0 h_S_) main_v58 main_c_21
  let main_v60 : IVec S_ 1 := andi main_v54 main_v59
  main_v60

def fn_part2 {F : FTy → Type} [FloatOps F] (main_arg1 : IVec S2x640000 32) (main_arg8 : FVec F S2x128 .f32) (main_arg9 : FVec F S128x1 .f32) (main_arg10 : FVec F S1 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x640000 32 := (extractStridedSlice S1x640000 ![0, 0] · slices_S2x640000_S1x640000_0_0) main_arg1
  let main_v50 : IVec S640000 32 := shapeCast S640000 main_v49 shapeCasts_S1x640000_S640000
  let main_c_18 : IVec S_ 32 := constantI S_ 32 0#32
  fn_part3 (F := F) main_arg1 main_v48 main_v50 main_c_18

def fn_part1 {F : FTy → Type} [FloatOps F] (main_arg1 : IVec S2x640000 32) (main_arg5 : FVec F S2x128 .f32) (main_arg6 : FVec F S2x128x128 .f32) (main_arg7 : FVec F S2x128 .f32) (main_arg8 : FVec F S2x128 .f32) (main_arg9 : FVec F S128x1 .f32) (main_arg10 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg5
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x128 .f32 := Host.absf main_arg6
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x256 .f32) (main_arg1 : IVec S2x640000 32) (main_arg2 : FVec F S256x128 .f32) (main_arg3 : FVec F S128 .f32) (main_arg4 : FVec F S2x128x128 .f32) (main_arg5 : FVec F S2x128 .f32) (main_arg6 : FVec F S2x128x128 .f32) (main_arg7 : FVec F S2x128 .f32) (main_arg8 : FVec F S2x128 .f32) (main_arg9 : FVec F S128x1 .f32) (main_arg10 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg1 main_arg5 main_arg6 main_arg7 main_arg8 main_arg9 main_arg10 main_v13 main_v16
-- ==== Kernel.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1x1 : Shape := ⟨2, ![1, 1]⟩
abbrev S640000x128 : Shape := ⟨2, ![640000, 128]⟩
abbrev S1x128x128 : Shape := ⟨3, ![1, 128, 128]⟩
abbrev S128x128 : Shape := ⟨2, ![128, 128]⟩
abbrev S5000x1 : Shape := ⟨2, ![5000, 1]⟩

abbrev nBuf : Space → Nat
  | .hbm => 141
  | .vmem => 50
  | .smem => 0
  | _ => 0

abbrev hbmTy0_0 (i : Nat) : BufTy := match i % 128 with
  | 0 => ⟨S100000x256, .f32⟩
  | 1 => ⟨S2x640000, .i32⟩
  | 2 => ⟨S256x128, .f32⟩
  | 3 => ⟨S128, .f32⟩
  | 4 => ⟨S2x128x128, .f32⟩
  | 5 => ⟨S2x128, .f32⟩
  | 6 => ⟨S2x128x128, .f32⟩
  | 7 => ⟨S2x128, .f32⟩
  | 8 => ⟨S2x128, .f32⟩
  | 9 => ⟨S128x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S100000, .f32⟩
  | 19 => ⟨S640000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S1x128, .f32⟩
  | 29 => ⟨S100000x128, .f32⟩
  | 30 => ⟨S_, .i32⟩
  | 31 => ⟨S640000, .i32⟩
  | 32 => ⟨S640000, .i1⟩
  | 33 => ⟨S_, .i32⟩
  | 34 => ⟨S640000, .i32⟩
  | 35 => ⟨S640000, .i32⟩
  | 36 => ⟨S640000, .i32⟩
  | 37 => ⟨S640000x1, .i32⟩
  | 38 => ⟨S1, .i32⟩
  | 39 => ⟨S_, .i32⟩
  | 40 => ⟨S640000x1, .i32⟩
  | 41 => ⟨S640000x1, .i1⟩
  | 42 => ⟨S1x1, .i32⟩
  | 43 => ⟨S640000x1, .i32⟩
  | 44 => ⟨S640000x1, .i1⟩
  | 45 => ⟨S640000x1, .i1⟩
  | 46 => ⟨S_, .i1⟩
  | 47 => ⟨S640000, .i1⟩
  | 48 => ⟨S640000x128, .f32⟩
  | 49 => ⟨S640000x128, .i1⟩
  | 50 => ⟨S_, .f32⟩
  | 51 => ⟨S640000x128, .f32⟩
  | 52 => ⟨S640000x128, .f32⟩
  | 53 => ⟨S_, .f32⟩
  | 54 => ⟨S100000x128, .f32⟩
  | 55 => ⟨S640000x1, .i32⟩
  | 56 => ⟨S100000x128, .f32⟩
  | 57 => ⟨S100000x128, .f32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S1x128x128, .f32⟩
  | 65 => ⟨S128x128, .f32⟩
  | 66 => ⟨S100000x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S100000x128, .f32⟩
  | 84 => ⟨S_, .i32⟩
  | 85 => ⟨S640000, .i32⟩
  | 86 => ⟨S640000, .i1⟩
  | 87 => ⟨S_, .i32⟩
  | 88 => ⟨S640000, .i32⟩
  | 89 => ⟨S640000, .i32⟩
  | 90 => ⟨S640000, .i32⟩
  | 91 => ⟨S640000x1, .i32⟩
  | 92 => ⟨S1, .i32⟩
  | 93 => ⟨S_, .i32⟩
  | 94 => ⟨S640000x1, .i32⟩
  | 95 => ⟨S640000x1, .i1⟩
  | 96 => ⟨S1x1, .i32⟩
  | 97 => ⟨S640000x1, .i32⟩
  | 98 => ⟨S640000x1, .i1⟩
  | 99 => ⟨S640000x1, .i1⟩
  | 100 => ⟨S_, .i1⟩
  | 101 => ⟨S640000, .i1⟩
  | 102 => ⟨S640000x128, .f32⟩
  | 103 => ⟨S640000x128, .i1⟩
  | 104 => ⟨S_, .f32⟩
  | 105 => ⟨S640000x128, .f32⟩
  | 106 => ⟨S640000x128, .f32⟩
  | 107 => ⟨S_, .f32⟩
  | 108 => ⟨S100000x128, .f32⟩
  | 109 => ⟨S640000x1, .i32⟩
  | 110 => ⟨S100000x128, .f32⟩
  | 111 => ⟨S100000x128, .f32⟩
  | 112 => ⟨S100000x128, .f32⟩
  | 113 => ⟨S1x128x128, .f32⟩
  | 114 => ⟨S128x128, .f32⟩
  | 115 => ⟨S1x128, .f32⟩
  | 116 => ⟨S128, .f32⟩
  | 117 => ⟨S1x128, .f32⟩
  | 118 => ⟨S1x128x128, .f32⟩
  | 119 => ⟨S128x128, .f32⟩
  | 120 => ⟨S100000x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S_, .f32⟩
  | 127 => ⟨S1x128, .f32⟩
  | _ => ⟨S100000x256, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S128, .f32⟩
  | 5 => ⟨S1x128, .f32⟩
  | 6 => ⟨S1x128, .f32⟩
  | 7 => ⟨S128, .f32⟩
  | 8 => ⟨S1x128, .f32⟩
  | 9 => ⟨S100000x128, .f32⟩
  | 10 => ⟨S1x1, .f32⟩
  | 11 => ⟨S100000x1, .f32⟩
  | 12 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x1, .f32⟩
  | .local _ .vmem, ⟨47, _⟩ => ⟨S1x1, .f32⟩
  | .local _ .vmem, ⟨48, _⟩ => ⟨S5000x1, .f32⟩
  | .local _ .vmem, ⟨49, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v15 : Ref sig .tc := ⟨.hbm, 52, rfl⟩
abbrev main_cst_3 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28_0 : Ref sig .tc := ⟨.hbm, 66, rfl⟩
abbrev main_v28_1 : Ref sig .tc := ⟨.hbm, 67, rfl⟩
abbrev main_v28_2 : Ref sig .tc := ⟨.hbm, 68, rfl⟩
abbrev main_cst_4 : Ref sig .tc := ⟨.hbm, 69, rfl⟩
abbrev main_v29 : Ref sig .tc := ⟨.hbm, 70, rfl⟩
abbrev main_v30 : Ref sig .tc := ⟨.hbm, 71, rfl⟩
abbrev main_cst_5 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call1_c : Ref sig .tc := ⟨.hbm, 84, rfl⟩
abbrev main_call1_v0 : Ref sig .tc := ⟨.hbm, 85, rfl⟩
abbrev main_call1_v1 : Ref sig .tc := ⟨.hbm, 86, rfl⟩
abbrev main_call1_c_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_c_1 : Ref sig .tc := ⟨.hbm, 92, rfl⟩
abbrev main_call1_c_2 : Ref sig .tc := ⟨.hbm, 93, rfl⟩
abbrev main_call1_v6 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_c_3 : Ref sig .tc := ⟨.hbm, 100, rfl⟩
abbrev main_call1_v12 : Ref sig .tc := ⟨.hbm, 101, rfl⟩
abbrev main_call1_v13 : Ref sig .tc := ⟨.hbm, 102, rfl⟩
abbrev main_call1_v14 : Ref sig .tc := ⟨.hbm, 103, rfl⟩
abbrev main_call1_cst : Ref sig .tc := ⟨.hbm, 104, rfl⟩
abbrev main_call1_v15 : Ref sig .tc := ⟨.hbm, 105, rfl⟩
abbrev main_v42 : Ref sig .tc := ⟨.hbm, 106, rfl⟩
abbrev main_cst_6 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55_0 : Ref sig .tc := ⟨.hbm, 120, rfl⟩
abbrev main_v55_1 : Ref sig .tc := ⟨.hbm, 121, rfl⟩
abbrev main_v55_2 : Ref sig .tc := ⟨.hbm, 122, rfl⟩
abbrev main_cst_7 : Ref sig .tc := ⟨.hbm, 123, rfl⟩
abbrev main_v56 : Ref sig .tc := ⟨.hbm, 124, rfl⟩
abbrev main_v57 : Ref sig .tc := ⟨.hbm, 125, rfl⟩
abbrev main_cst_8 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg7_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem7_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S128 : S5000x128.Reduces [0] S128
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S640000x1_S640000_n_0_0_1_wf : ScatterDims.WF S100000 S640000x1 S640000 [] [0] [0] 1
  dot_S5000x256_S256x128_S5000x128_1_0_0_1_n_n_wf : DotDims.WF S5000x256 S256x128 S5000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v28_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v55_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v55_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v55_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v68) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v68) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S5000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x640000 : Shape := ⟨2, ![2, 640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S100000x128 : Shape := ⟨2, ![100000, 128]⟩
abbrev S1x128 : Shape := ⟨2, ![1, 128]⟩
abbrev S640000x128 : Shape := ⟨2, ![640000, 128]⟩
abbrev S1x128x128 : Shape := ⟨3, ![1, 128, 128]⟩
abbrev S128x128 : Shape := ⟨2, ![128, 128]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S100000x256, .f32⟩
  | 1 => ⟨S2x640000, .i32⟩
  | 2 => ⟨S256x128, .f32⟩
  | 3 => ⟨S128, .f32⟩
  | 4 => ⟨S2x128x128, .f32⟩
  | 5 => ⟨S2x128, .f32⟩
  | 6 => ⟨S2x128x128, .f32⟩
  | 7 => ⟨S2x128, .f32⟩
  | 8 => ⟨S2x128, .f32⟩
  | 9 => ⟨S128x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S640000, .f32⟩
  | 17 => ⟨S_, .f32⟩
  | 18 => ⟨S100000, .f32⟩
  | 19 => ⟨S640000x1, .i32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .f32⟩
  | 45 => ⟨S100000x128, .f32⟩
  | 46 => ⟨S640000x1, .i32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128x128, .f32⟩
  | 59 => ⟨S128x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S128, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S_, .f32⟩
  | 123 => ⟨S100000x128, .f32⟩
  | 124 => ⟨S640000x1, .i32⟩
  | 125 => ⟨S100000x128, .f32⟩
  | 126 => ⟨S100000x128, .f32⟩
  | 127 => ⟨S100000x128, .f32⟩
  | _ => ⟨S100000x256, .f32⟩

abbrev hbmTy0_1 (i : Nat) : BufTy := match i % 128 with
  | 0 => ⟨S1x128x128, .f32⟩
  | 1 => ⟨S128x128, .f32⟩
  | 2 => ⟨S100000x128, .f32⟩
  | 3 => ⟨S1x128, .f32⟩
  | 4 => ⟨S128, .f32⟩
  | 5 => ⟨S1x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128, .f32⟩
  | 50 => ⟨S128, .f32⟩
  | 51 => ⟨S128, .f32⟩
  | 52 => ⟨S1x128, .f32⟩
  | 53 => ⟨S100000x128, .f32⟩
  | 54 => ⟨S100000x128, .f32⟩
  | 55 => ⟨S1x128, .f32⟩
  | 56 => ⟨S128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x1, .f32⟩
  | 64 => ⟨S1x1, .f32⟩
  | 65 => ⟨S100000x1, .f32⟩
  | 66 => ⟨S100000x1, .f32⟩
  | 67 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_cst_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_8 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_call2_cst : Ref sig .tc := ⟨.hbm, 110, rfl⟩
abbrev main_call2_v0 : Ref sig .tc := ⟨.hbm, 111, rfl⟩
abbrev main_v65 : Ref sig .tc := ⟨.hbm, 112, rfl⟩
abbrev main_c_9 : Ref sig .tc := ⟨.hbm, 113, rfl⟩
abbrev main_v66 : Ref sig .tc := ⟨.hbm, 114, rfl⟩
abbrev main_v67 : Ref sig .tc := ⟨.hbm, 115, rfl⟩
abbrev main_c_10 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_11 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_12 : Ref sig .tc := ⟨.hbm, 140, rfl⟩
abbrev main_v90 : Ref sig .tc := ⟨.hbm, 141, rfl⟩
abbrev main_cst_13 : Ref sig .tc := ⟨.hbm, 142, rfl⟩
abbrev main_v91 : Ref sig .tc := ⟨.hbm, 143, rfl⟩
abbrev main_v92 : Ref sig .tc := ⟨.hbm, 144, rfl⟩
abbrev main_c_14 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_v7 : Ref sig .tc := ⟨.hbm, 155, rfl⟩
abbrev main_call3_cst_1 : Ref sig .tc := ⟨.hbm, 156, rfl⟩
abbrev main_call3_v8 : Ref sig .tc := ⟨.hbm, 157, rfl⟩
abbrev main_call3_cst_2 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_cst_3 : Ref sig .tc := ⟨.hbm, 162, rfl⟩
abbrev main_call3_v12 : Ref sig .tc := ⟨.hbm, 163, rfl⟩
abbrev main_call3_cst_4 : Ref sig .tc := ⟨.hbm, 164, rfl⟩
abbrev main_call3_call0_v0 : Ref sig .tc := ⟨.hbm, 165, rfl⟩
abbrev main_call3_call0_v1 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_15 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_call4_cst : Ref sig .tc := ⟨.hbm, 188, rfl⟩
abbrev main_call4_v0 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_1_0_0 : S2x128x128.Slices ![1, 0, 0] S1x128x128
  slices_S2x128_S1x128_1_0 : S2x128.Slices ![1, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S640000x1_S640000_n_0_0_1_wf : ScatterDims.WF S100000 S640000x1 S640000 [] [0] [0] 1
  dot_S100000x256_S256x128_S100000x128_1_0_0_1_n_n_wf : DotDims.WF S100000x256 S256x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RefRun.lean ====
/-
  The reference program's run. Its @main is a straight line of StableHLO operations once every call is
  replaced by the callee's body over that call's own buffers: @relu is three operations (the zero, its
  broadcast, the maximum), @_var nineteen (the column sums of x, the mean row, the centred and squared
  array, the divisor n - ddof, the column sums of the squares, their quotient, the test n - ddof > 0 and
  the not-a-number scalar) followed by @_where's three (the scalar converted to its own type, broadcast,
  the select). The printed windows of @main become three lists of operations, ops0, ops1 and ops2, of
  83, 83 and 19 operations; @main is the straight line over their concatenation, so every weakly fair
  execution terminates with each buffer at the fold of the operations' results over the launch contents.
  No operation writes an argument's buffer, so the eleven arguments end as they were launched.
-/
import proofs.«431466_j18562848654083_1_alg».proof.ReferenceIdeal
import proofs.«431466_j18562848654083_1_alg».proof.Proof.Gen.ReferenceIdeal
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

/-! ## The operations, window by window -/

/-- The operations of @main's statements 1 to 60: fifty-eight of its own, @relu's three at the first call (over `main_call0`) and @_var's twenty-two at the second (over `main_call1`, @_where's over `main_call1.call0`). -/
abbrev ops0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_1 (constant S_ .f32 0x3F800000#32),
    StableHlo.unary main_cst_1 main_v8 (broadcastInDim S100000 ![] bcast_S_S100000 : (⟨S_, .f32⟩ : BufTy).Contents (Elt F) → (⟨S100000, .f32⟩ : BufTy).Contents (Elt F)),
    StableHlo.binary main_v7 main_v8 main_v9 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x3F800000#32),
    StableHlo.unary main_cst_2 main_v10 (broadcastInDim S100000 ![] bcast_S_S100000 : (⟨S_, .f32⟩ : BufTy).Contents (Elt F) → (⟨S100000, .f32⟩ : BufTy).Contents (Elt F)),
    StableHlo.binary main_v10 main_v9 main_v11 (Host.divf : (⟨S100000, .f32⟩ : BufTy).Contents (Elt F) → (⟨S100000, .f32⟩ : BufTy).Contents (Elt F) → (⟨S100000, .f32⟩ : BufTy).Contents (Elt F)),
    StableHlo.unary main_v11 main_v12 (broadcastInDim S100000x1 ![0] bcast_S100000_S100000x1_0 : (⟨S100000, .f32⟩ : BufTy).Contents (Elt F) → (⟨S100000x1, .f32⟩ : BufTy).Contents (Elt F)),
    StableHlo.binary main_arg0 main_arg2 main_v13 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg3 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S100000x128 ![0, 1] bcast_S1x128_S100000x128_0_1 : (⟨S1x128, .f32⟩ : BufTy).Contents (Elt F) → (⟨S100000x128, .f32⟩ : BufTy).Contents (Elt F)),
    StableHlo.binary main_v13 main_v15 main_v16 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v16 : StableHlo.TRef sig ⟨S100000x128, .f32⟩) main_call0.v0 main_call0.v1 maximumf,
    StableHlo.nullary main_c (constantI S_ 32 0#32),
    StableHlo.unary main_c main_v18 (broadcastInDim S640000 ![] bcast_S_S640000 : (⟨S_, .i32⟩ : BufTy).Contents (Elt F) → (⟨S640000, .i32⟩ : BufTy).Contents (Elt F)),
    StableHlo.binary main_v1 main_v18 main_v19 (cmpi .slt : (⟨S640000, .i32⟩ : BufTy).Contents (Elt F) → (⟨S640000, .i32⟩ : BufTy).Contents (Elt F) → (⟨S640000, .i1⟩ : BufTy).Contents (Elt F)),
    StableHlo.nullary main_c_3 (constantI S_ 32 100000#32),
    StableHlo.unary main_c_3 main_v20 (broadcastInDim S640000 ![] bcast_S_S640000 : (⟨S_, .i32⟩ : BufTy).Contents (Elt F) → (⟨S640000, .i32⟩ : BufTy).Contents (Elt F)),
    StableHlo.binary main_v1 main_v20 main_v21 (addi : (⟨S640000, .i32⟩ : BufTy).Contents (Elt F) → (⟨S640000, .i32⟩ : BufTy).Contents (Elt F) → (⟨S640000, .i32⟩ : BufTy).Contents (Elt F)),
    StableHlo.ternary main_v19 main_v21 main_v1 main_v22 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v22 main_v23 (broadcastInDim S640000x1 ![0] bcast_S640000_S640000x1_0 : (⟨S640000, .i32⟩ : BufTy).Contents (Elt F) → (⟨S640000x1, .i32⟩ : BufTy).Contents (Elt F)),
    StableHlo.binary main_v17 main_v23 main_v24 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_4 (constant S_ .f32 0x00000000#32),
    StableHlo.unary main_cst_4 main_v25 (broadcastInDim S100000x128 ![] bcast_S_S100000x128 : (⟨S_, .f32⟩ : BufTy).Contents (Elt F) → (⟨S100000x128, .f32⟩ : BufTy).Contents (Elt F)),
    StableHlo.unary main_v3 main_v26 (broadcastInDim S640000x1 ![0] bcast_S640000_S640000x1_0 : (⟨S640000, .i32⟩ : BufTy).Contents (Elt F) → (⟨S640000x1, .i32⟩ : BufTy).Contents (Elt F)),
    StableHlo.ternary main_v25 main_v26 main_v24 main_v27 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_v12 main_v28 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v28 main_v29 (mulf : (⟨S100000x128, .f32⟩ : BufTy).Contents (Elt F) → (⟨S100000x128, .f32⟩ : BufTy).Contents (Elt F) → (⟨S100000x128, .f32⟩ : BufTy).Contents (Elt F)),
    StableHlo.unary main_arg4 main_v30 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v30 main_v31 rfl shapeCasts_S1x128x128_S128x128,
    StableHlo.binary main_v29 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v33 ((extractStridedSlice S1x128 ![0, 0] · slices_S2x128_S1x128_0_0) : (⟨S2x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v36 main_v37 (addf : (⟨S100000x128, .f32⟩ : BufTy).Contents (Elt F) → (⟨S100000x128, .f32⟩ : BufTy).Contents (Elt F) → (⟨S100000x128, .f32⟩ : BufTy).Contents (Elt F)),
    StableHlo.unary main_arg6 main_v38 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v38 main_v39 rfl shapeCasts_S1x128x128_S128x128,
    StableHlo.binary main_v17 main_v39 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v37 main_v40 main_v41 (addf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x00000000#32),
    StableHlo.binary main_v41 main_cst_5 main_v42 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v43 (broadcastInDim S128 ![] bcast_S_S128 : (⟨S_, .f32⟩ : BufTy).Contents (Elt F) → (⟨S128, .f32⟩ : BufTy).Contents (Elt F)),
    StableHlo.binary main_v42 main_v43 main_v44 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call1.cst (constant S_ .f32 0x00000000#32),
    StableHlo.TRef.binary (.of main_v41 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v41 : StableHlo.TRef sig ⟨S100000x128, .f32⟩) main_call1.v4 main_call1.v5 subf,
    StableHlo.TRef.binary main_call1.v5 main_call1.v5 main_call1.v6 mulf,
    StableHlo.TRef.unary (.of main_c_7 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_arg7 main_v46 ((extractStridedSlice S1x128 ![0, 0] · slices_S2x128_S1x128_0_0) : (⟨S2x128, .f32⟩ : BufTy).Contents (Elt F) → (⟨S1x128, .f32⟩ : BufTy).Contents (Elt F)),
    StableHlo.reshape main_v46 main_v47 rfl shapeCasts_S1x128_S128,
    StableHlo.unary main_v44 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)) ]

/-- The operations of @main's statements 61 to 120: fifty-eight of its own, @relu's three (over `main_call2`) and @_var's twenty-two (over `main_call3`, @_where's over `main_call3.call0`). -/
abbrev ops1 : List (HloOp τ sig (Elt F)) :=
  [ StableHlo.binary main_v41 main_v49 main_v50 (subf : (⟨S100000x128, .f32⟩ : BufTy).Contents (Elt F) → (⟨S100000x128, .f32⟩ : BufTy).Contents (Elt F) → (⟨S100000x128, .f32⟩ : BufTy).Contents (Elt F)),
    StableHlo.unary main_v47 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v50 main_v53 (mulf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v54 (broadcastInDim S128 ![] bcast_S_S128 : (⟨S_, .f32⟩ : BufTy).Contents (Elt F) → (⟨S128, .f32⟩ : BufTy).Contents (Elt F)),
    StableHlo.binary main_v45 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_arg8 main_v60 ((extractStridedSlice S1x128 ![0, 0] · slices_S2x128_S1x128_0_0) : (⟨S2x128, .f32⟩ : BufTy).Contents (Elt F) → (⟨S1x128, .f32⟩ : BufTy).Contents (Elt F)),
    StableHlo.reshape main_v60 main_v61 rfl shapeCasts_S1x128_S128,
    StableHlo.unary main_v61 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v64 : StableHlo.TRef sig ⟨S100000x128, .f32⟩) main_call2.v0 main_call2.v1 maximumf,
    StableHlo.nullary main_c_9 (constantI S_ 32 0#32),
    StableHlo.unary main_c_9 main_v66 (broadcastInDim S640000 ![] bcast_S_S640000 : (⟨S_, .i32⟩ : BufTy).Contents (Elt F) → (⟨S640000, .i32⟩ : BufTy).Contents (Elt F)),
    StableHlo.binary main_v1 main_v66 main_v67 (cmpi .slt : (⟨S640000, .i32⟩ : BufTy).Contents (Elt F) → (⟨S640000, .i32⟩ : BufTy).Contents (Elt F) → (⟨S640000, .i1⟩ : BufTy).Contents (Elt F)),
    StableHlo.nullary main_c_10 (constantI S_ 32 100000#32),
    StableHlo.unary main_c_10 main_v68 (broadcastInDim S640000 ![] bcast_S_S640000 : (⟨S_, .i32⟩ : BufTy).Contents (Elt F) → (⟨S640000, .i32⟩ : BufTy).Contents (Elt F)),
    StableHlo.binary main_v1 main_v68 main_v69 (addi : (⟨S640000, .i32⟩ : BufTy).Contents (Elt F) → (⟨S640000, .i32⟩ : BufTy).Contents (Elt F) → (⟨S640000, .i32⟩ : BufTy).Contents (Elt F)),
    StableHlo.ternary main_v67 main_v69 main_v1 main_v70 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v70 main_v71 (broadcastInDim S640000x1 ![0] bcast_S640000_S640000x1_0 : (⟨S640000, .i32⟩ : BufTy).Contents (Elt F) → (⟨S640000x1, .i32⟩ : BufTy).Contents (Elt F)),
    StableHlo.binary main_v65 main_v71 main_v72 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_11 (constant S_ .f32 0x00000000#32),
    StableHlo.unary main_cst_11 main_v73 (broadcastInDim S100000x128 ![] bcast_S_S100000x128 : (⟨S_, .f32⟩ : BufTy).Contents (Elt F) → (⟨S100000x128, .f32⟩ : BufTy).Contents (Elt F)),
    StableHlo.unary main_v3 main_v74 (broadcastInDim S640000x1 ![0] bcast_S640000_S640000x1_0 : (⟨S640000, .i32⟩ : BufTy).Contents (Elt F) → (⟨S640000x1, .i32⟩ : BufTy).Contents (Elt F)),
    StableHlo.ternary main_v73 main_v74 main_v72 main_v75 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.unary main_v12 main_v76 (broadcastInDim S100000x128 ![0, 1] bcast_S100000x1_S100000x128_0_1 : (⟨S100000x1, .f32⟩ : BufTy).Contents (Elt F) → (⟨S100000x128, .f32⟩ : BufTy).Contents (Elt F)),
    StableHlo.binary main_v75 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg4 main_v78 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v78 main_v79 rfl shapeCasts_S1x128x128_S128x128,
    StableHlo.binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v81 ((extractStridedSlice S1x128 ![1, 0] · slices_S2x128_S1x128_1_0) : (⟨S2x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v84 main_v85 (addf : (⟨S100000x128, .f32⟩ : BufTy).Contents (Elt F) → (⟨S100000x128, .f32⟩ : BufTy).Contents (Elt F) → (⟨S100000x128, .f32⟩ : BufTy).Contents (Elt F)),
    StableHlo.unary main_arg6 main_v86 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v86 main_v87 rfl shapeCasts_S1x128x128_S128x128,
    StableHlo.binary main_v65 main_v87 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v85 main_v88 main_v89 (addf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x00000000#32),
    StableHlo.binary main_v89 main_cst_12 main_v90 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_13 (constant S_ .f32 0x47C35000#32),
    StableHlo.unary main_cst_13 main_v91 (broadcastInDim S128 ![] bcast_S_S128 : (⟨S_, .f32⟩ : BufTy).Contents (Elt F) → (⟨S128, .f32⟩ : BufTy).Contents (Elt F)),
    StableHlo.binary main_v90 main_v91 main_v92 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call3.cst (constant S_ .f32 0x00000000#32),
    StableHlo.TRef.binary (.of main_v89 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v89 : StableHlo.TRef sig ⟨S100000x128, .f32⟩) main_call3.v4 main_call3.v5 subf,
    StableHlo.TRef.binary main_call3.v5 main_call3.v5 main_call3.v6 mulf,
    StableHlo.TRef.unary (.of main_c_14 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_arg7 main_v94 ((extractStridedSlice S1x128 ![1, 0] · slices_S2x128_S1x128_1_0) : (⟨S2x128, .f32⟩ : BufTy).Contents (Elt F) → (⟨S1x128, .f32⟩ : BufTy).Contents (Elt F)),
    StableHlo.reshape main_v94 main_v95 rfl shapeCasts_S1x128_S128,
    StableHlo.unary main_v92 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v97 main_v98 (subf : (⟨S100000x128, .f32⟩ : BufTy).Contents (Elt F) → (⟨S100000x128, .f32⟩ : BufTy).Contents (Elt F) → (⟨S100000x128, .f32⟩ : BufTy).Contents (Elt F)),
    StableHlo.unary main_v95 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v100 main_v98 main_v101 (mulf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x3727C5AC#32) ]

/-- The operations of @main's statements 121 to 137: sixteen of its own and @relu's three (over `main_call4`); statement 138 is the return. -/
abbrev ops2 : List (HloOp τ sig (Elt F)) :=
  [ StableHlo.unary main_cst_15 main_v102 (broadcastInDim S128 ![] bcast_S_S128 : (⟨S_, .f32⟩ : BufTy).Contents (Elt F) → (⟨S128, .f32⟩ : BufTy).Contents (Elt F)),
    StableHlo.binary main_v93 main_v102 main_v103 (addf : (⟨S128, .f32⟩ : BufTy).Contents (Elt F) → (⟨S128, .f32⟩ : BufTy).Contents (Elt F) → (⟨S128, .f32⟩ : BufTy).Contents (Elt F)),
    StableHlo.unary main_v103 main_v104 (Host.rsqrt : (⟨S128, .f32⟩ : BufTy).Contents (Elt F) → (⟨S128, .f32⟩ : BufTy).Contents (Elt F)),
    StableHlo.unary main_v104 main_v105 (broadcastInDim S1x128 ![1] bcast_S128_S1x128_1 : (⟨S128, .f32⟩ : BufTy).Contents (Elt F) → (⟨S1x128, .f32⟩ : BufTy).Contents (Elt F)),
    StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v106 main_v107 (mulf : (⟨S100000x128, .f32⟩ : BufTy).Contents (Elt F) → (⟨S100000x128, .f32⟩ : BufTy).Contents (Elt F) → (⟨S100000x128, .f32⟩ : BufTy).Contents (Elt F)),
    StableHlo.unary main_arg8 main_v108 ((extractStridedSlice S1x128 ![1, 0] · slices_S2x128_S1x128_1_0) : (⟨S2x128, .f32⟩ : BufTy).Contents (Elt F) → (⟨S1x128, .f32⟩ : BufTy).Contents (Elt F)),
    StableHlo.reshape main_v108 main_v109 rfl shapeCasts_S1x128_S128,
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v107 main_v111 main_v112 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v112 : StableHlo.TRef sig ⟨S100000x128, .f32⟩) main_call4.v0 main_call4.v1 maximumf,
    StableHlo.binary main_v113 main_arg9 main_v114 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg10 main_v115 (broadcastInDim S1x1 ![1] bcast_S1_S1x1_1 : (⟨S1, .f32⟩ : BufTy).Contents (Elt F) → (⟨S1x1, .f32⟩ : BufTy).Contents (Elt F)),
    StableHlo.unary main_v115 main_v116 (broadcastInDim S100000x1 ![0, 1] bcast_S1x1_S100000x1_0_1 : (⟨S1x1, .f32⟩ : BufTy).Contents (Elt F) → (⟨S100000x1, .f32⟩ : BufTy).Contents (Elt F)),
    StableHlo.binary main_v114 main_v116 main_v117 (addf : (⟨S100000x1, .f32⟩ : BufTy).Contents (Elt F) → (⟨S100000x1, .f32⟩ : BufTy).Contents (Elt F) → (⟨S100000x1, .f32⟩ : BufTy).Contents (Elt F)),
    StableHlo.reshape main_v117 main_v118 rfl shapeCasts_S100000x1_S100000 ]

/-- @main's 185 operations in order, every call replaced by its callee's body. -/
abbrev ops : List (HloOp τ sig (Elt F)) := ops0 ++ (ops1 ++ ops2)

/-! ## @main is the straight line over them

Each window is a chain of binds; unfolding the callees at their calls nests a chain inside the chain, and
re-associating the binds (and dropping each callee's closing return) leaves one chain, which is the
straight line over the window's list. -/

set_option maxRecDepth 8192 in
theorem main_part0_eq (c : Dev nD) : main_part0 (F := F) c = seq ops0 := by
  simp only [main_part0, fn_relu.body, fn_var.body, fn_where.body, seq, bind_assoc, pure_bind]
  rfl

set_option maxRecDepth 8192 in
theorem main_part1_eq (c : Dev nD) : main_part1 (F := F) c = seq ops1 := by
  simp only [main_part1, fn_relu.body, fn_var.body, fn_where.body, seq, bind_assoc, pure_bind]
  rfl

set_option maxRecDepth 8192 in
theorem main_part2_eq (c : Dev nD) : main_part2 (F := F) c = seq ops2 := by
  simp only [main_part2, fn_relu.body, seq, bind_assoc, pure_bind]

/-- @main runs its three windows in order, and a straight line over a concatenation is the straight
    lines one after the other. -/
theorem main_eq (c : Dev nD) : main (F := F) c = seq ops := by
  have e : main (F := F) c = (main_part0 c >>= fun _ => main_part1 c >>= fun _ => main_part2 c) := rfl
  rw [e, main_part0_eq, main_part1_eq, main_part2_eq, ← seq_append, ← seq_append]

/-! ## What the straight line touches

The signature scopes no TensorCore buffer and no semaphore; every operation touches TensorCore references
only and determines what it writes. Each is checked on a window's list and carried to the concatenation by
splitting a membership in it. -/

theorem scopedRefs_eq : (Finset.univ.filter fun b : Ref sig .tc => b.isScoped) = ∅ := by decide
theorem scopedSems_eq : (Finset.univ.filter fun sm : SemLoc sig => sm.isScoped .tc) = ∅ := by decide

/-- A property of every operation of the three windows holds of every operation of @main. -/
theorem forall_ops {p : HloOp τ sig (Elt F) → Prop} (h0 : ∀ op ∈ (ops0 : List (HloOp τ sig (Elt F))), p op)
    (h1 : ∀ op ∈ (ops1 : List (HloOp τ sig (Elt F))), p op) (h2 : ∀ op ∈ (ops2 : List (HloOp τ sig (Elt F))), p op) :
    ∀ op ∈ (ops : List (HloOp τ sig (Elt F))), p op := fun op h =>
  (List.mem_append.mp h).elim (h0 op) fun h => (List.mem_append.mp h).elim (h1 op) (h2 op)

theorem ops0_sub : ∀ op ∈ (ops0 : List (HloOp τ sig (Elt F))), op.bufs ⊆ tcRefs τ sig :=
  List.forall_iff_forall_mem.mp (by
    simp only [ops0, List.Forall, nullary_bufs_sub, unary_bufs_sub, binary_bufs_sub, ternary_bufs_sub, reshape_bufs_sub, and_self])
theorem ops1_sub : ∀ op ∈ (ops1 : List (HloOp τ sig (Elt F))), op.bufs ⊆ tcRefs τ sig :=
  List.forall_iff_forall_mem.mp (by
    simp only [ops1, List.Forall, nullary_bufs_sub, unary_bufs_sub, binary_bufs_sub, ternary_bufs_sub, reshape_bufs_sub, and_self])
theorem ops2_sub : ∀ op ∈ (ops2 : List (HloOp τ sig (Elt F))), op.bufs ⊆ tcRefs τ sig :=
  List.forall_iff_forall_mem.mp (by
    simp only [ops2, List.Forall, nullary_bufs_sub, unary_bufs_sub, binary_bufs_sub, ternary_bufs_sub, reshape_bufs_sub, and_self])
theorem ops_sub : (ops : List (HloOp τ sig (Elt F))).Forall fun op => op.bufs ⊆ tcRefs τ sig :=
  List.forall_iff_forall_mem.mpr (forall_ops ops0_sub ops1_sub ops2_sub)

theorem ops0_fresh : ∀ op ∈ (ops0 : List (HloOp τ sig (Elt F))), op.fresh = ∅ :=
  List.forall_iff_forall_mem.mp (by
    simp only [ops0, List.Forall]
    repeat' apply And.intro
    all_goals rfl)
theorem ops1_fresh : ∀ op ∈ (ops1 : List (HloOp τ sig (Elt F))), op.fresh = ∅ :=
  List.forall_iff_forall_mem.mp (by
    simp only [ops1, List.Forall]
    repeat' apply And.intro
    all_goals rfl)
theorem ops2_fresh : ∀ op ∈ (ops2 : List (HloOp τ sig (Elt F))), op.fresh = ∅ :=
  List.forall_iff_forall_mem.mp (by
    simp only [ops2, List.Forall]
    repeat' apply And.intro
    all_goals rfl)
theorem ops_fresh : ∀ op ∈ (ops : List (HloOp τ sig (Elt F))), op.fresh = ∅ := forall_ops ops0_fresh ops1_fresh ops2_fresh

/-- The fold over a concatenation is the folds one after the other. -/
theorem after_concat : ∀ (l₁ l₂ : List (HloOp τ sig (Elt F))) (V : Valuation τ sig (Elt F)),
    after (l₁ ++ l₂) V = after l₂ (after l₁ V)
  | [], _, _ => rfl
  | op :: l₁, l₂, V => after_concat l₁ l₂ (op.result V)

/-- The contents after @main are the contents after its third window, from those after its second, from those
    after its first. -/
theorem after_ops (V : Valuation τ sig (Elt F)) : after ops V = after ops2 (after ops1 (after ops0 V)) := by
  rw [show (ops : List (HloOp τ sig (Elt F))) = ops0 ++ (ops1 ++ ops2) from rfl, after_concat, after_concat]

/-! ## The run -/

/-- At the compiled mesh, for any float values, from any memory with zero counters: every weakly fair execution of
    @main terminates with every TensorCore buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The arguments end as launched

Every operation writes one buffer, and it is never one of the eleven arguments': at a reference among the
arguments no operation's write set holds it, so the fold leaves it alone. -/

/-- The references of @main's eleven arguments. -/
abbrev argRefs : List (Ref sig .tc) :=
  [main_arg0, main_arg1, main_arg2, main_arg3, main_arg4, main_arg5, main_arg6, main_arg7, main_arg8, main_arg9, main_arg10]

theorem ops0_notArg {r : Ref sig .tc} (hr : r ∈ argRefs) :
    ∀ op ∈ (ops0 : List (HloOp τ sig (Elt F))), Proc.devRef (τ := τ) .tc r ∉ op.writes :=
  List.forall_iff_forall_mem.mp (by
    simp only [ops0, List.Forall, nullary_writes, unary_writes, binary_writes, ternary_writes, reshape_writes, Finset.mem_singleton]
    repeat' apply And.intro
    all_goals (refine devRef_ne_of_ne ?_; rintro rfl; exact absurd hr (by decide)))
theorem ops1_notArg {r : Ref sig .tc} (hr : r ∈ argRefs) :
    ∀ op ∈ (ops1 : List (HloOp τ sig (Elt F))), Proc.devRef (τ := τ) .tc r ∉ op.writes :=
  List.forall_iff_forall_mem.mp (by
    simp only [ops1, List.Forall, nullary_writes, unary_writes, binary_writes, ternary_writes, reshape_writes, Finset.mem_singleton]
    repeat' apply And.intro
    all_goals (refine devRef_ne_of_ne ?_; rintro rfl; exact absurd hr (by decide)))
theorem ops2_notArg {r : Ref sig .tc} (hr : r ∈ argRefs) :
    ∀ op ∈ (ops2 : List (HloOp τ sig (Elt F))), Proc.devRef (τ := τ) .tc r ∉ op.writes :=
  List.forall_iff_forall_mem.mp (by
    simp only [ops2, List.Forall, nullary_writes, unary_writes, binary_writes, ternary_writes, reshape_writes, Finset.mem_singleton]
    repeat' apply And.intro
    all_goals (refine devRef_ne_of_ne ?_; rintro rfl; exact absurd hr (by decide)))

/-- An argument's buffer holds after @main what it held before. -/
theorem arg_keep {r : Ref sig .tc} (hr : r ∈ argRefs) (V : Valuation τ sig (Elt F)) :
    after ops V (r : DevRef τ sig) = V (r : DevRef τ sig) :=
  after_of_forall_not_mem ops V (forall_ops (ops0_notArg hr) (ops1_notArg hr) (ops2_notArg hr))

theorem arg0_eq (V : Valuation τ sig (Elt F)) : after ops V (main_arg0 : DevRef τ sig) = V (main_arg0 : DevRef τ sig) :=
  arg_keep (by decide) V
theorem arg1_eq (V : Valuation τ sig (Elt F)) : after ops V (main_arg1 : DevRef τ sig) = V (main_arg1 : DevRef τ sig) :=
  arg_keep (by decide) V
theorem arg2_eq (V : Valuation τ sig (Elt F)) : after ops V (main_arg2 : DevRef τ sig) = V (main_arg2 : DevRef τ sig) :=
  arg_keep (by decide) V
theorem arg3_eq (V : Valuation τ sig (Elt F)) : after ops V (main_arg3 : DevRef τ sig) = V (main_arg3 : DevRef τ sig) :=
  arg_keep (by decide) V
theorem arg4_eq (V : Valuation τ sig (Elt F)) : after ops V (main_arg4 : DevRef τ sig) = V (main_arg4 : DevRef τ sig) :=
  arg_keep (by decide) V
theorem arg5_eq (V : Valuation τ sig (Elt F)) : after ops V (main_arg5 : DevRef τ sig) = V (main_arg5 : DevRef τ sig) :=
  arg_keep (by decide) V
theorem arg6_eq (V : Valuation τ sig (Elt F)) : after ops V (main_arg6 : DevRef τ sig) = V (main_arg6 : DevRef τ sig) :=
  arg_keep (by decide) V
theorem arg7_eq (V : Valuation τ sig (Elt F)) : after ops V (main_arg7 : DevRef τ sig) = V (main_arg7 : DevRef τ sig) :=
  arg_keep (by decide) V
theorem arg8_eq (V : Valuation τ sig (Elt F)) : after ops V (main_arg8 : DevRef τ sig) = V (main_arg8 : DevRef τ sig) :=
  arg_keep (by decide) V
theorem arg9_eq (V : Valuation τ sig (Elt F)) : after ops V (main_arg9 : DevRef τ sig) = V (main_arg9 : DevRef τ sig) :=
  arg_keep (by decide) V
theorem arg10_eq (V : Valuation τ sig (Elt F)) : after ops V (main_arg10 : DevRef τ sig) = V (main_arg10 : DevRef τ sig) :=
  arg_keep (by decide) V

/-- @main runs (every weakly fair execution terminates, none faults) and its eleven argument arrays end unchanged. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _),
       (h c main_arg9).trans (arg9_eq _),
       (h c main_arg10).trans (arg10_eq _)⟩)
    (run_main m g)

end Cert.ReferenceIdeal.Hand

end
-- ==== Proof.Spec.lean ====
/-
  The mathematics of the two programs, free of any program text: a two-layer mean-aggregation graph network over
  100000 nodes — a dense layer with a rectifier, then twice (neighbour aggregation, a linear combination of the
  aggregate and the node's own features, a normalisation of every column by its mean and variance over the nodes, a
  rectifier), then a dense head — written over plain index types `Fin a → Fin b → EReal`.
  The aggregation (a gather of rows by the edges' sources, a sum into the edges' targets, a scaling by the inverse
  in-degree) enters only as an abstract map `Agg` of node features to node features that keeps every entry finite.
  Two spellings of the column variance appear: the mean of the squares minus the square of the mean (`varK`), and the mean
  of the squared deviations (`varR`). On finite entries they are one number; that is the only algebra of the
  equivalence, and it is why finiteness of every intermediate has to be carried through both layers.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals over plain index types. -/
abbrev Mat (a b : Nat) := Fin a → Fin b → EReal

/-- A rank-2 array read as a matrix. -/
def mat {a b : Nat} (x : (⟨2, ![a, b]⟩ : Shape).Idx → EReal) : Mat a b := fun p q => x (ix2 p q)
/-- A matrix as a rank-2 array. -/
def unmat {a b : Nat} (f : Mat a b) : (⟨2, ![a, b]⟩ : Shape).Idx → EReal := fun i => f (i 0) (i 1)
/-- A rank-1 array read as a vector. -/
def vec {a : Nat} (x : (⟨1, ![a]⟩ : Shape).Idx → EReal) : Fin a → EReal := fun p => x (ix1 p)
/-- A vector as a rank-1 array. -/
def unvec {a : Nat} (f : Fin a → EReal) : (⟨1, ![a]⟩ : Shape).Idx → EReal := fun i => f (i 0)

theorem unmat_mat {a b : Nat} (x : (⟨2, ![a, b]⟩ : Shape).Idx → EReal) : unmat (mat x) = x :=
  funext fun i => congrArg x (eq_ix2 i).symm
theorem mat_unmat {a b : Nat} (f : Mat a b) : mat (unmat f) = f := rfl
theorem unvec_vec {a : Nat} (x : (⟨1, ![a]⟩ : Shape).Idx → EReal) : unvec (vec x) = x :=
  funext fun i => congrArg x (eq_ix1 i).symm
theorem vec_unvec {a : Nat} (f : Fin a → EReal) : vec (unvec f) = f := rfl

/-- Neither infinity. -/
def IsFin (x : EReal) : Prop := x ≠ ⊥ ∧ x ≠ ⊤

/-- The node count as the float constant both programs divide by: the word 0x47C35000 denotes 100000. -/
def cN : EReal := Ideal.ofBits .f32 0x47C35000#32
/-- The variance offset both programs add: the word 0x3727C5AC, the single-precision neighbour of 1e-5. -/
def eps : EReal := Ideal.ofBits .f32 0x3727C5AC#32

/-- `x · W + b`: row `p` of `x` against column `j` of `W`, plus the bias of column `j`. -/
def dense {n k m : Nat} (x : Mat n k) (W : Mat k m) (b : Fin m → EReal) : Mat n m :=
  fun p j => (∑ q : Fin k, x p q * W q j) + b j
/-- The rectifier. -/
def relu {n m : Nat} (x : Mat n m) : Mat n m := fun p j => max (x p j) 0
/-- The linear combination of a layer: `agg · Wl + bl + h · Wr`. -/
def lin {n k m : Nat} (agg h : Mat n k) (Wl : Mat k m) (bl : Fin m → EReal) (Wr : Mat k m) : Mat n m :=
  fun p j => ((∑ q : Fin k, agg p q * Wl q j) + bl j) + ∑ q : Fin k, h p q * Wr q j
/-- The sum of a column over the rows. -/
def colSum {n m : Nat} (x : Mat n m) : Fin m → EReal := fun j => ∑ p : Fin n, x p j
/-- The sum of a column's squares over the rows. -/
def colSumSq {n m : Nat} (x : Mat n m) : Fin m → EReal := fun j => ∑ p : Fin n, x p j * x p j
/-- The column mean: the column sum divided by the node-count constant. -/
def mean {n m : Nat} (x : Mat n m) : Fin m → EReal := fun j => Ideal.div (colSum x j) cN
/-- The column variance as mean of squares minus squared mean. -/
def varK {n m : Nat} (x : Mat n m) : Fin m → EReal :=
  fun j => Ideal.div (colSumSq x j) cN - mean x j * mean x j
/-- The column variance as mean of the squared deviations from the mean. -/
def varR {n m : Nat} (x : Mat n m) : Fin m → EReal :=
  fun j => Ideal.div (∑ p : Fin n, (x p j - mean x j) * (x p j - mean x j)) cN
/-- Column normalisation with scale `g`, shift `be`, then the rectifier:
    `max (g · (x − μ) · rsqrt (v + ε) + be) 0`. -/
def bn {n m : Nat} (x : Mat n m) (mu v g be : Fin m → EReal) : Mat n m :=
  fun p j => max (g j * (x p j - mu j) * Ideal.rsqrt (v j + eps) + be j) 0

/-- One layer, with the variance spelt by `var`: aggregate, combine, normalise, rectify. -/
def layer (var : Mat 100000 128 → Fin 128 → EReal) (Agg : Mat 100000 128 → Mat 100000 128)
    (h : Mat 100000 128) (Wl : Mat 128 128) (bl : Fin 128 → EReal) (Wr : Mat 128 128) (g be : Fin 128 → EReal) :
    Mat 100000 128 :=
  bn (lin (Agg h) h Wl bl Wr) (mean (lin (Agg h) h Wl bl Wr)) (var (lin (Agg h) h Wl bl Wr)) g be

/-- The node features after both layers, with the variance spelt by `var`. -/
def feat (var : Mat 100000 128 → Fin 128 → EReal) (Agg : Mat 100000 128 → Mat 100000 128)
    (x : Mat 100000 256) (Wp : Mat 256 128) (bp : Fin 128 → EReal)
    (Wl0 : Mat 128 128) (bl0 : Fin 128 → EReal) (Wr0 : Mat 128 128) (g0 be0 : Fin 128 → EReal)
    (Wl1 : Mat 128 128) (bl1 : Fin 128 → EReal) (Wr1 : Mat 128 128) (g1 be1 : Fin 128 → EReal) : Mat 100000 128 :=
  layer var Agg (layer var Agg (relu (dense x Wp bp)) Wl0 bl0 Wr0 g0 be0) Wl1 bl1 Wr1 g1 be1

/-! ## The algebra (statements; proved in `SpecLaws`) -/

end Cert.Spec

end
-- ==== Proof.AggDef.lean ====
/-
  The neighbour aggregation both programs share, as one function of the edge list and the node features, written
  once over shapes and dimension records of its own: the edges' sources index rows of the features (a negative index
  counted from the end), the rows are summed into the edges' targets, and every node's sum is scaled by the inverse
  of its in-degree clamped below by one. Two spellings of the row gather appear in the programs: the plain gather
  (`aggR`), and the gather whose out-of-range rows are replaced by a fill value (`aggK`); where every source is a
  valid row they agree.
-/
import Idealize.ShloMosaic.PureOps.Ideal
import Idealize.ShloMosaic.PureOps.Contract
import Idealize.ShloMosaic.PureOps.ShapeOps
import Idealize.ShloMosaic.Lib.ValueIdx
import proofs.«431466_j18562848654083_1_alg».proof.Proof.Spec

noncomputable section

namespace Cert.AggDef

open Idealize.ShloMosaic Idealize.ShloMosaic.ValueIdx Cert.Spec

abbrev S0 : Shape := ⟨0, ![]⟩
abbrev S1' : Shape := ⟨1, ![1]⟩
abbrev S1x1 : Shape := ⟨2, ![1, 1]⟩
abbrev SE : Shape := ⟨1, ![640000]⟩
abbrev SEx1 : Shape := ⟨2, ![640000, 1]⟩
abbrev S1xE : Shape := ⟨2, ![1, 640000]⟩
abbrev S2xE : Shape := ⟨2, ![2, 640000]⟩
abbrev SEx128 : Shape := ⟨2, ![640000, 128]⟩
abbrev SN : Shape := ⟨1, ![100000]⟩
abbrev SNx1 : Shape := ⟨2, ![100000, 1]⟩
abbrev SNx128 : Shape := ⟨2, ![100000, 128]⟩

/-- Rows of the features gathered by one index per edge. -/
def gd : GatherDims SNx128 SEx1 SEx128 where
  offsetDims := [1]
  collapsedSliceDims := [0]
  operandBatchingDims := []
  startIndicesBatchingDims := []
  startIndexMap := [0]
  indexVectorDim := 1
  sliceSizes := ![1, 128]
  wf := by decide
/-- One unit per edge summed into the edge's target node. -/
def sd1 : ScatterDims SN SEx1 SE where
  updateWindowDims := []
  insertedWindowDims := [0]
  scatterDimsToOperandDims := [0]
  indexVectorDim := 1
  wf := by decide
/-- One feature row per edge summed into the edge's target node. -/
def sd : ScatterDims SNx128 SEx1 SEx128 where
  updateWindowDims := [1]
  insertedWindowDims := [0]
  scatterDimsToOperandDims := [0]
  indexVectorDim := 1
  wf := by decide

/-- The edges' sources: row 0 of the edge list. -/
def srcOf (e : IVec S2xE 32) : IVec SE 32 :=
  shapeCast SE (extractStridedSlice S1xE ![0, 0] e (by decide)) (by decide)
/-- The edges' targets: row 1 of the edge list. -/
def dstOf (e : IVec S2xE 32) : IVec SE 32 :=
  shapeCast SE (extractStridedSlice S1xE ![1, 0] e (by decide)) (by decide)
/-- A negative index counted from the end of the 100000 rows. -/
def wrap (s : IVec SE 32) : IVec SE 32 :=
  select (cmpi .slt s (broadcastInDim SE ![] (by decide) (constantI S0 32 0#32)))
    (addi s (broadcastInDim SE ![] (by decide) (constantI S0 32 100000#32))) s
/-- The index column the gather reads. -/
def srcCol (e : IVec S2xE 32) : IVec SEx1 32 := broadcastInDim SEx1 ![0] (by decide) (wrap (srcOf e))
/-- The index column both scatters read. -/
def dstCol (e : IVec S2xE 32) : IVec SEx1 32 := broadcastInDim SEx1 ![0] (by decide) (dstOf e)

/-- The in-degree of every node: one unit per edge summed at its target, from zero. -/
def deg (e : IVec S2xE 32) : FVec Ideal SN .f32 :=
  Host.scatterAdd sd1 (broadcastInDim SN ![] (by decide) (constant S0 .f32 0x00000000#32)) (dstCol e)
    (broadcastInDim SE ![] (by decide) (constant S0 .f32 0x3F800000#32))
/-- One over the in-degree clamped below by one, as a column. -/
def invdeg (e : IVec S2xE 32) : FVec Ideal SNx1 .f32 :=
  broadcastInDim SNx1 ![0] (by decide)
    (Host.divf (broadcastInDim SN ![] (by decide) (constant S0 .f32 0x3F800000#32))
      (maximumf (deg e) (broadcastInDim SN ![] (by decide) (constant S0 .f32 0x3F800000#32))))

/-- The plain row gather by the wrapped sources. -/
def rowsR (e : IVec S2xE 32) (h : FVec Ideal SNx128 .f32) : FVec Ideal SEx128 .f32 :=
  Host.gather gd h (srcCol e)
/-- Which edges' wrapped source lies in `[0, 99999]`. -/
def inRange (e : IVec S2xE 32) : IVec SE 1 :=
  Host.reduce IntOp.andi
    (andi (cmpi .sge (srcCol e) (broadcastInDim SEx1 ![] (by decide) (constantI S0 32 0#32)))
      (cmpi .sle (srcCol e) (broadcastInDim SEx1 ![0, 1] (by decide) (broadcastInDim S1x1 ![1] (by decide) (constantI S1' 32 99999#32)))))
    (constantI S0 1 1#1) (by decide : SEx1.ReducesTo [1] SE) (by decide)
/-- The row gather whose out-of-range rows are the fill value (the word 0x7FC00000). -/
def rowsK (e : IVec S2xE 32) (h : FVec Ideal SNx128 .f32) : FVec Ideal SEx128 .f32 :=
  select (broadcastInDim SEx128 ![0] (by decide) (inRange e)) (Host.gather gd h (srcCol e))
    (broadcastInDim SEx128 ![] (by decide) (constant S0 .f32 0x7FC00000#32))

/-- The rows summed into the targets from zero, scaled by the inverse in-degree. -/
def aggOf (rows : FVec Ideal SEx128 .f32) (e : IVec S2xE 32) : FVec Ideal SNx128 .f32 :=
  mulf (Host.scatterAdd sd (broadcastInDim SNx128 ![] (by decide) (constant S0 .f32 0x00000000#32)) (dstCol e) rows)
    (broadcastInDim SNx128 ![0, 1] (by decide) (invdeg e))

/-- The aggregation with the plain gather. -/
def aggR (e : IVec S2xE 32) (h : FVec Ideal SNx128 .f32) : FVec Ideal SNx128 .f32 := aggOf (rowsR e h) e
/-- The aggregation with the filled gather. -/
def aggK (e : IVec S2xE 32) (h : FVec Ideal SNx128 .f32) : FVec Ideal SNx128 .f32 := aggOf (rowsK e h) e

/-- The aggregation as a map of matrices (plain gather). -/
def AggR (e : IVec S2xE 32) : Mat 100000 128 → Mat 100000 128 := fun h => mat (aggR e (unmat h))
/-- The aggregation as a map of matrices (filled gather). -/
def AggK (e : IVec S2xE 32) : Mat 100000 128 → Mat 100000 128 := fun h => mat (aggK e (unmat h))

end Cert.AggDef

end
-- ==== Proof.KRegion0.lean ====
/-
  The first kernel region, read as mathematics: the dense layer with a rectifier. Every row of the node features is
  multiplied against the weight matrix, the bias of the column is added and the result is cut off below at zero; the
  rows are worked in twenty groups of five thousand, and the whole output array after the region is that one formula,
  index by index, of the three input arrays as the region finds them.
-/
import proofs.«431466_j18562848654083_1_alg».proof.Proof.Gen.KernelIdeal.Frame
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R0

open Cert.KernelIdeal Cert.KernelIdeal.Gen Cert.Spec Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## The product's operand indices, axis by axis -/

/-- The left operand's row is the output's row. -/
theorem lhs_dense_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- The left operand's column is the contracted coordinate. -/
theorem lhs_dense_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand's row is the contracted coordinate. -/
theorem rhs_dense_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- The right operand's column is the output's column. -/
theorem rhs_dense_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-! ## One group of rows: the body's result at an index -/

/-- The product of a group of rows against the weights, read at row p and column j: the sum over the
    contracted coordinate of the entries' products. -/
theorem dense_matmul_apply (a : FVec Ideal S5000x256 .bf16) (w : FVec Ideal S256x128 .bf16) (p : Fin 5000) (j : Fin 128) :
    matmul dot_S5000x256_S256x128_S5000x128_1_0_0_1_n_n none a w (constant (F := Ideal) S5000x128 .f32 0x00000000#32) (ix2 p j)
      = ∑ k : Fin 256, a (ix2 p k) * w (ix2 k j) := by
  simp only [matmul]
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j)
      ((contrEquiv1 dot_S5000x256_S256x128_S5000x128_1_0_0_1_n_n 256 rfl rfl).symm k) = ix2 p k := funext fun ax => Fin.ext (by
    match ax with
    | ⟨0, _⟩ => exact lhs_dense_0 _ _
    | ⟨1, _⟩ => exact (lhs_dense_1 _ _).trans hk)
  have er : dot_S5000x256_S256x128_S5000x128_1_0_0_1_n_n.rhsIdx (ix2 p j)
      ((contrEquiv1 dot_S5000x256_S256x128_S5000x128_1_0_0_1_n_n 256 rfl rfl).symm k) = ix2 k j := funext fun ax => Fin.ext (by
    match ax with
    | ⟨0, _⟩ => exact (rhs_dense_0 _ _).trans hk
    | ⟨1, _⟩ => exact rhs_dense_1 _ _)
  rw [el, er]

/-- The bias row spread over the rows, read at row p and column j, is the bias of column j. -/
theorem bias_apply (b : FVec Ideal S1x128 .f32) (p : Fin 5000) (j : Fin 128) :
    broadcastTo S5000x128 (shapeCast S1x128 b shapeCasts_S1x128_S1x128) broadcasts_S1x128_S5000x128 (ix2 p j) = b (ix2 0 j) := by
  rw [shapeCast_self]
  refine broadcastTo_apply b broadcasts_S1x128_S5000x128 (ix2 p j) (ix2 0 j) fun a => ?_
  match a with
  | ⟨0, _⟩ => rfl
  | ⟨1, _⟩ => rfl

/-- The body's result for one group of rows, at row p and column j: the row against column j of the weights,
    plus the bias of column j, cut off below at zero. -/
theorem pay_apply (x0 : Vec Ideal S5000x256 .f32) (x1 : Vec Ideal S256x128 .f32) (x2 : Vec Ideal S1x128 .f32)
    (p : Fin 5000) (j : Fin 128) :
    k0_pay1 (F := Ideal) x0 x1 x2 (ix2 p j) = max ((∑ k : Fin 256, x0 (ix2 p k) * x1 (ix2 k j)) + x2 (ix2 0 j)) 0 := by
  unfold k0_pay1
  rw [maximumf_apply, addf_apply, dense_matmul_apply, bias_apply, broadcast_apply]
  simp only [truncf_apply]
  exact congrArg (max _) Ideal.ofBits_zero_f32

/-! ## From the groups of rows to the whole array -/

theorem zero_offsets : (![0, 0] : Fin 2 → Nat) = fun _ => 0 := funext fun a => by
  match a with
  | ⟨0, _⟩ => rfl
  | ⟨1, _⟩ => rfl

/-- What the body leaves in the output's buffer, from the three input blocks, at row p and column j. -/
theorem out_apply (x0 : Vec Ideal S5000x256 .f32) (x1 : Vec Ideal S256x128 .f32) (x2 : Vec Ideal S1x128 .f32)
    (p : Fin 5000) (j : Fin 128) :
    out0_3 (F := Ideal) x0 x1 x2 (ix2 p j) = max ((∑ k : Fin 256, x0 (ix2 p k) * x1 (ix2 k j)) + x2 (ix2 0 j)) 0 := by
  unfold out0_3
  rw [View.canon_unit_zero zero_offsets]
  rw [View.ld_unit_zero (S := S5000x256) zero_offsets, View.ld_unit_zero (S := S256x128) zero_offsets,
    View.ld_unit_zero (S := S1x128) zero_offsets]
  exact pay_apply x0 x1 x2 p j

/-- The whole output array: the dense layer with the rectifier, of the three input arrays. -/
def denseOut (x : FVec Ideal S100000x256 .f32) (w : FVec Ideal S256x128 .f32) (b : FVec Ideal S1x128 .f32) :
    FVec Ideal S100000x128 .f32 :=
  unmat (relu (dense (mat x) (mat w) (fun j => b (ix2 0 j))))

theorem denseOut_apply (x : FVec Ideal S100000x256 .f32) (w : FVec Ideal S256x128 .f32) (b : FVec Ideal S1x128 .f32)
    (r : Fin 100000) (j : Fin 128) :
    denseOut x w b (ix2 r j) = max ((∑ k : Fin 256, x (ix2 r k) * w (ix2 k j)) + b (ix2 0 j)) 0 := rfl

/-- The block indices over the twenty points: the features and the output move down by one group of rows per point,
    the weights and the bias stay in place. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks
variable (V : (c : Dev nD) → (b : Ref sig .tc) → Buf (Elt Ideal) ((c : Thread nD τ).loc b)) (c : Dev nD)

/-- The features' block at point t is rows 5000 t … 5000 t + 4999 of the features. -/
theorem rows_apply (x : FVec Ideal S100000x256 .f32) (e0 : V c (Pipeline.arrRef spec0 0) = x) (t : Fin cfg0.N)
    (p : Fin 5000) (k : Fin 256) (r : Fin 100000) (hr : r.val = t.val * 5000 + p.val) :
    (iblk0 (F := Ideal) V c 0 t : Vec Ideal S5000x256 .f32) (ix2 p k) = x (ix2 r k) := by
  subst e0
  obtain ⟨f0, f1, -⟩ := block_indices t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The weights' block at every point is the weights. -/
theorem weights_apply (w : FVec Ideal S256x128 .f32) (e1 : V c (Pipeline.arrRef spec0 1) = w) (t : Fin cfg0.N)
    (k : Fin 256) (j : Fin 128) :
    (iblk0 (F := Ideal) V c 1 t : Vec Ideal S256x128 .f32) (ix2 k j) = w (ix2 k j) := by
  subst e1
  obtain ⟨-, -, f2, f3, -⟩ := block_indices t
  show V c (Pipeline.arrRef spec0 1) (((cfg0.win 1).blk t).view.emb (ix2 k j)) = V c (Pipeline.arrRef spec0 1) (ix2 k j)
  refine congrArg _ (funext fun a => Fin.ext ?_)
  match a with
  | ⟨0, _⟩ => show win0_1.index t (0 : Fin 2) * 256 + 1 * k.val = k.val; omega
  | ⟨1, _⟩ => show win0_1.index t (1 : Fin 2) * 128 + 1 * j.val = j.val; omega

/-- The bias' block at every point is the bias. -/
theorem bias_blk_apply (b : FVec Ideal S1x128 .f32) (e2 : V c (Pipeline.arrRef spec0 2) = b) (t : Fin cfg0.N)
    (z : Fin 1) (j : Fin 128) :
    (iblk0 (F := Ideal) V c 2 t : Vec Ideal S1x128 .f32) (ix2 z j) = b (ix2 z j) := by
  subst e2
  obtain ⟨-, -, -, -, f4, f5, -⟩ := block_indices t
  show V c (Pipeline.arrRef spec0 2) (((cfg0.win 2).blk t).view.emb (ix2 z j)) = V c (Pipeline.arrRef spec0 2) (ix2 z j)
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * j.val = j.val; omega

/-- What point t writes back is block t of the dense layer's output. -/
theorem flushed_eq (x : FVec Ideal S100000x256 .f32) (w : FVec Ideal S256x128 .f32) (b : FVec Ideal S1x128 .f32)
    (e0 : V c (Pipeline.arrRef spec0 0) = x) (e1 : V c (Pipeline.arrRef spec0 1) = w) (e2 : V c (Pipeline.arrRef spec0 2) = b)
    (t : Fin cfg0.N) :
    (dat0 (F := Ideal) V c).flushed 3 t = ((cfg0.win 3).blk t).view.read (Elt Ideal) (denseOut x w b) := by
  show (cfg0.win 3).cut (grid0.coords t) ((dat0 (F := Ideal) V c).after 3 t) = _
  rw [after0_3]
  obtain ⟨-, -, -, -, -, -, f6, f7⟩ := block_indices t
  have ht : t.val < 20 := t.isLt
  funext y
  obtain ⟨p, j, rfl⟩ : ∃ (p : Fin 5000) (j : Fin 128), y = ix2 p j := ⟨y 0, y 1, eq_ix2 y⟩
  have hi : ((cfg0.win 3).blk t).view.emb (ix2 p j) = ix2 (⟨t.val * 5000 + p.val, by have := p.isLt; omega⟩ : Fin 100000) j := by
    refine funext fun a => Fin.ext ?_
    match a with
    | ⟨0, _⟩ => show win0_3.index t (0 : Fin 2) * 5000 + 1 * p.val = t.val * 5000 + p.val; omega
    | ⟨1, _⟩ => show win0_3.index t (1 : Fin 2) * 128 + 1 * j.val = j.val; omega
  show out0_3 (F := Ideal) (iblk0 V c 0 t) (iblk0 V c 1 t) (iblk0 V c 2 t) (ix2 p j)
    = denseOut x w b (((cfg0.win 3).blk t).view.emb (ix2 p j))
  rw [hi, out_apply, denseOut_apply, bias_blk_apply V c b e2 t 0 j]
  refine congrArg (fun s => max (s + b (ix2 0 j)) 0) (Finset.sum_congr rfl fun k _ => ?_)
  rw [rows_apply V c x e0 t p k ⟨t.val * 5000 + p.val, by have := p.isLt; omega⟩ rfl, weights_apply V c w e1 t k j]

/-- An index of the output is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14).slice (win0_3.rect t)).set ↔ _
  rw [View.set_slice_whole, Rect.mem_set_unit]
  exact Iff.rfl

/-- Every row is in the group of its quotient by five thousand. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hq : (i 0).val / 5000 < 20 := by omega
  obtain ⟨-, -, -, -, -, -, f6, f7⟩ := block_indices ⟨(i 0).val / 5000, hq⟩
  refine ⟨⟨(i 0).val / 5000, hq⟩, flush0_3 _, ?_⟩
  rw [mem_blk]
  intro a
  match a with
  | ⟨0, _⟩ =>
    show win0_3.index ⟨(i 0).val / 5000, hq⟩ (0 : Fin 2) * 5000 ≤ (i 0).val ∧ (i 0).val < win0_3.index ⟨(i 0).val / 5000, hq⟩ (0 : Fin 2) * 5000 + 5000
    rw [f6]; show (i 0).val / 5000 * 5000 ≤ (i 0).val ∧ (i 0).val < (i 0).val / 5000 * 5000 + 5000; omega
  | ⟨1, _⟩ =>
    show win0_3.index ⟨(i 0).val / 5000, hq⟩ (1 : Fin 2) * 128 ≤ (i 1).val ∧ (i 1).val < win0_3.index ⟨(i 0).val / 5000, hq⟩ (1 : Fin 2) * 128 + 128
    rw [f7]; omega

/-- The output array after the region: the dense layer with the rectifier, of the input arrays as the region finds them. -/
theorem region0_value (x : FVec Ideal S100000x256 .f32) (w : FVec Ideal S256x128 .f32) (b : FVec Ideal S1x128 .f32)
    (e0 : V c (Pipeline.arrRef spec0 0) = x) (e1 : V c (Pipeline.arrRef spec0 1) = w) (e2 : V c (Pipeline.arrRef spec0 2) = b) :
    (dat0 (F := Ideal) V c).arrAt 3 cfg0.N = unmat (relu (dense (mat x) (mat w) (fun j => b (ix2 0 j)))) :=
  (dat0 (F := Ideal) V c).arrAt_eq_of_cover 3 (denseOut x w b) (fun t _ => flushed_eq V c x w b e0 e1 e2 t) covered

end Blocks

end Cert.KernelIdeal.Hand.R0

end
-- ==== Proof.KRegion1Pay.lean ====
/-
  The arithmetic of one block of the layer's linear stage, read index by index over the extended reals:
  the block product, the block of `agg · Wl + bl + h · Wr`, and the two column accumulations
  (a running column sum of the block, and of the block's squares).
-/
import proofs.«431466_j18562848654083_1_alg».proof.Proof.Gen.KernelIdeal.Skeleton
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.R1

open Cert.KernelIdeal Cert.KernelIdeal.Gen Cert.Spec Idealize.ShloMosaic Idealize.ShloMosaic.ValueIdx
open scoped BigOperators

/-! ## The block product `[5000,128] · [128,128]`: its operand indices, axis by axis -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `j`: the sum over the 128 contracted positions. -/
theorem mm_apply (x : FVec Ideal S5000x128 .bf16) (w : FVec Ideal S128x128 .bf16) (p : Fin 5000) (j : Fin 128) :
    matmul dot_S5000x128_S128x128_S5000x128_1_0_0_1_n_n none x w (constant (F := Ideal) S5000x128 .f32 0x00000000#32) (ix2 p j)
      = ∑ k : Fin 128, x (ix2 p k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-- A column sum of a `[5000,128]` block, at column `j`: the sum over the block's rows. -/
theorem rowSum_apply (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  exact Finset.sum_congr rfl fun r _ => congrArg src (funext fun a => by
    match a with
    | ⟨0, _⟩ => rfl
    | ⟨1, _⟩ => rfl)

/-! ## The payloads at an index -/

/-- The block of the linear stage at row `p`, column `j`. -/
theorem pay4_apply (a h : Vec Ideal S5000x128 .f32) (wl wr : Vec Ideal S128x128 .f32) (bl : Vec Ideal S1x128 .f32)
    (p : Fin 5000) (j : Fin 128) :
    k1_pay4 (F := Ideal) a h wl wr bl (ix2 p j)
      = ((∑ q : Fin 128, a (ix2 p q) * wl (ix2 q j)) + bl (ix2 0 j)) + ∑ q : Fin 128, h (ix2 p q) * wr (ix2 q j) := by
  unfold k1_pay4
  simp only [shapeCast_self]
  refine (addf_apply _ _ _).trans ?_
  refine congrArg₂ (· + ·) ((addf_apply _ _ _).trans (congrArg₂ (· + ·) ?_ ?_)) ?_
  · exact mm_apply _ _ p j
  · exact broadcastTo_1b_ab_apply bl _ p j
  · exact mm_apply _ _ p j

/-- The running column sum after a block: what it held plus the block's column sum. -/
theorem pay5_apply (a h : Vec Ideal S5000x128 .f32) (wl wr : Vec Ideal S128x128 .f32) (bl acc : Vec Ideal S1x128 .f32)
    (j : Fin 128) :
    k1_pay5 (F := Ideal) a h wl wr bl acc (ix2 0 j)
      = acc (ix2 0 j) + ∑ r : Fin 5000, k1_pay4 (F := Ideal) a h wl wr bl (ix2 r j) := by
  unfold k1_pay5
  simp only [shapeCast_self]
  refine (addf_apply _ _ _).trans (congrArg (acc (ix2 0 j) + ·) ?_)
  refine (shapeCast_a_1a_apply _ _ 0 j).trans ?_
  exact rowSum_apply _ j

/-- The running column sum of squares after a block. -/
theorem pay1_apply (acc : FVec Ideal S1x128 .f32) (sq : FVec Ideal S5000x128 .f32) (j : Fin 128) :
    k1_pay1 (F := Ideal) acc sq (ix2 0 j) = acc (ix2 0 j) + ∑ r : Fin 5000, sq (ix2 r j) := by
  unfold k1_pay1
  refine (addf_apply _ _ _).trans (congrArg (acc (ix2 0 j) + ·) ?_)
  refine (shapeCast_a_1a_apply _ _ 0 j).trans ?_
  exact rowSum_apply _ j

theorem pay6_eq (v : Vec Ideal S1x128 .f32) : k1_pay6 (F := Ideal) v = v := by
  unfold k1_pay6
  exact shapeCast_self _ _

theorem pay7_apply (a h : Vec Ideal S5000x128 .f32) (wl wr : Vec Ideal S128x128 .f32) (bl : Vec Ideal S1x128 .f32)
    (i : S5000x128.Idx) :
    k1_pay7 (F := Ideal) a h wl wr bl i = k1_pay4 (F := Ideal) a h wl wr bl i * k1_pay4 (F := Ideal) a h wl wr bl i := rfl

/-- The reset value of both accumulators is zero everywhere. -/
theorem pay2_apply (i : S1x128.Idx) : (k1_pay2 (F := Ideal)) i = 0 := by
  unfold k1_pay2
  exact Ideal.ofBits_zero_f32

theorem pay3_apply (i : S1x128.Idx) : (k1_pay3 (F := Ideal)) i = 0 := by
  unfold k1_pay3
  exact Ideal.ofBits_zero_f32

end Cert.KernelIdeal.Hand.R1

end
-- ==== Proof.KRegion1Pieces.lean ====
/-
  What each control case of the layer's linear-stage body leaves in its three outputs, as the body's pure
  arithmetic of the blocks it loads (and, past the first point, of the two accumulators as the point before left them).
-/
import proofs.«431466_j18562848654083_1_alg».proof.Proof.Gen.KernelIdeal.Frame
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-! ## What each case of the body leaves in each output's buffer

  The first point resets both accumulators to zero before it updates them; every other point updates what the point
  before left. The block of the linear stage is stored whole at every point. -/

theorem piece_A_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond1_0 i) (x0 : Vec F S5000x128 .f32) (x1 : Vec F S5000x128 .f32) (x2 : Vec F S128x128 .f32) (x3 : Vec F S1x128 .f32) (x4 : Vec F S128x128 .f32) :
    out1_A_5 c i arg1 harg1 arg2 harg2 arg3 harg3 arg4 harg4 arg5 harg5 arg6 harg6 arg7 harg7 arg8 harg8 hc0 x0 x1 x2 x3 x4 = k1_pay4 x0 x1 x2 x4 x3 := by
  unfold out1_A_5
  rw [View.read_writes_eq_canon _ _ _ (cover1_A_5 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond1_0 i) (x0 : Vec F S5000x128 .f32) (x1 : Vec F S5000x128 .f32) (x2 : Vec F S128x128 .f32) (x3 : Vec F S1x128 .f32) (x4 : Vec F S128x128 .f32) :
    out1_A_6 c i arg1 harg1 arg2 harg2 arg3 harg3 arg4 harg4 arg5 harg5 arg6 harg6 arg7 harg7 arg8 harg8 hc0 x0 x1 x2 x3 x4 = k1_pay5 x0 x1 x2 x4 x3 (k1_pay2 (F := F)) := by
  unfold out1_A_6
  rw [View.read_writes_eq_canon _ _ _ (cover1_A_6 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_A_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond1_0 i) (x0 : Vec F S5000x128 .f32) (x1 : Vec F S5000x128 .f32) (x2 : Vec F S128x128 .f32) (x3 : Vec F S1x128 .f32) (x4 : Vec F S128x128 .f32) :
    out1_A_7 c i arg1 harg1 arg2 harg2 arg3 harg3 arg4 harg4 arg5 harg5 arg6 harg6 arg7 harg7 arg8 harg8 hc0 x0 x1 x2 x3 x4 = k1_pay1 (k1_pay6 (k1_pay3 (F := F))) (k1_pay7 x0 x1 x2 x4 x3) := by
  unfold out1_A_7
  rw [View.read_writes_eq_canon _ _ _ (cover1_A_7 c i arg1 harg1 arg2 harg2 arg3 harg3 arg4 harg4 arg5 harg5 arg6 harg6 arg7 harg7 arg8 harg8 hc0 x0 x1 x2 x3 x4)]
  unfold kernelRun1_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_5 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out1_B_5 c i arg1 harg1 arg2 harg2 arg3 harg3 arg4 harg4 arg5 harg5 arg6 harg6 arg7 harg7 arg8 harg8 hc0 x0 x1 x2 x3 x4 xo6 xo7 = k1_pay4 x0 x1 x2 x4 x3 := by
  unfold out1_B_5
  rw [View.read_writes_eq_canon _ _ _ (cover1_B_5 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out1_B_6 c i arg1 harg1 arg2 harg2 arg3 harg3 arg4 harg4 arg5 harg5 arg6 harg6 arg7 harg7 arg8 harg8 hc0 x0 x1 x2 x3 x4 xo6 xo7 = k1_pay5 x0 x1 x2 x4 x3 xo6 := by
  unfold out1_B_6
  rw [View.read_writes_eq_canon _ _ _ (cover1_B_6 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond1_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out1_B_7 c i arg1 harg1 arg2 harg2 arg3 harg3 arg4 harg4 arg5 harg5 arg6 harg6 arg7 harg7 arg8 harg8 hc0 x0 x1 x2 x3 x4 xo6 xo7 = k1_pay1 (k1_pay6 xo7) (k1_pay7 x0 x1 x2 x4 x3) := by
  unfold out1_B_7
  rw [View.read_writes_eq_canon _ _ _ (cover1_B_7 c i arg1 harg1 arg2 harg2 arg3 harg3 arg4 harg4 arg5 harg5 arg6 harg6 arg7 harg7 arg8 harg8 hc0 x0 x1 x2 x3 x4 xo6 xo7)]
  unfold kernelRun1_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

end Cert.KernelIdeal.Hand.R1

end
-- ==== Proof.KRegion1.lean ====
/-
  The value of the layer's linear-stage region: after its twenty points the output array holds
  `agg · Wl + bl + h · Wr` row by row, and the two accumulator arrays hold that matrix's column sums and the
  column sums of its squares. Each point writes one block of 5000 rows and adds that block's column sums to what the
  point before left; the column sum over all 100000 rows is the sum of the twenty blocks' sums taken in order.
-/
import proofs.«431466_j18562848654083_1_alg».proof.Proof.Gen.KernelIdeal.Frame
import proofs.«431466_j18562848654083_1_alg».proof.Proof.Spec
import proofs.«431466_j18562848654083_1_alg».proof.Proof.KRegion1Pay
import proofs.«431466_j18562848654083_1_alg».proof.Proof.KRegion1Pieces
import Idealize.ShloMosaic.Lib.ValueIdx
import Idealize.ShloMosaic.Lib.Pipeline.Value

set_option maxRecDepth 16384

noncomputable section

namespace Cert.KernelIdeal.Hand.R1

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## Sums over the rows, block by block -/

/-- A function of the rows, continued by zero past the last row. -/
def ext (f : Fin 100000 → EReal) (p : ℕ) : EReal := if h : p < 100000 then f ⟨p, h⟩ else 0

theorem ext_of_lt (f : Fin 100000 → EReal) (p : ℕ) (h : p < 100000) : ext f p = f ⟨p, h⟩ := dif_pos h

/-- The sum over the rows of the first `k` blocks of 5000. -/
def pre (f : Fin 100000 → EReal) (k : ℕ) : EReal := ∑ p ∈ Finset.range (5000 * k), ext f p

theorem pre_zero (f : Fin 100000 → EReal) : pre f 0 = 0 := by
  unfold pre
  rw [Nat.mul_zero, Finset.range_zero, Finset.sum_empty]

theorem pre_succ (f : Fin 100000 → EReal) (k : ℕ) :
    pre f (k + 1) = pre f k + ∑ r : Fin 5000, ext f (5000 * k + r.val) := by
  unfold pre
  rw [Nat.mul_succ, Finset.sum_range_add, Fin.sum_univ_eq_sum_range (fun r => ext f (5000 * k + r)) 5000]

/-- Twenty blocks are all the rows. -/
theorem pre_all (f : Fin 100000 → EReal) : pre f 20 = ∑ p : Fin 100000, f p := by
  unfold pre
  rw [show 5000 * 20 = 100000 from rfl, ← Fin.sum_univ_eq_sum_range (ext f) 100000]
  exact Finset.sum_congr rfl fun p _ => ext_of_lt f p.val p.isLt

section Region
variable (V : (c : Dev nD) → (b : Ref sig .tc) → Buf (Elt Ideal) ((c : Thread nD τ).loc b)) (c : Dev nD)

/-! ## The region's input arrays and their blocks, at their literal types -/

abbrev aggArr : FVec Ideal S100000x128 .f32 := V c (Pipeline.arrRef spec1 0)
abbrev hArr : FVec Ideal S100000x128 .f32 := V c (Pipeline.arrRef spec1 1)
abbrev wlArr : FVec Ideal S128x128 .f32 := V c (Pipeline.arrRef spec1 2)
abbrev blArr : FVec Ideal S1x128 .f32 := V c (Pipeline.arrRef spec1 3)
abbrev wrArr : FVec Ideal S128x128 .f32 := V c (Pipeline.arrRef spec1 4)

abbrev aBlk (t : Fin cfg1.N) : Vec Ideal S5000x128 .f32 := iblk1 V c 0 t
abbrev hBlk (t : Fin cfg1.N) : Vec Ideal S5000x128 .f32 := iblk1 V c 1 t
abbrev wlBlk (t : Fin cfg1.N) : Vec Ideal S128x128 .f32 := iblk1 V c 2 t
abbrev blBlk (t : Fin cfg1.N) : Vec Ideal S1x128 .f32 := iblk1 V c 3 t
abbrev wrBlk (t : Fin cfg1.N) : Vec Ideal S128x128 .f32 := iblk1 V c 4 t

/-- The linear stage of the whole arrays. -/
abbrev L1 : Mat 100000 128 :=
  lin (mat (aggArr V c)) (mat (hArr V c)) (mat (wlArr V c)) (fun j => blArr V c (ix2 0 j)) (mat (wrArr V c))

/-- The column sums of the linear stage, and of its squares, as `[1,128]` arrays. -/
abbrev sumArr : FVec Ideal S1x128 .f32 := fun i => colSum (L1 V c) (i 1)
abbrev sumSqArr : FVec Ideal S1x128 .f32 := fun i => colSumSq (L1 V c) (i 1)

/-- The block index maps over the grid: the two row-blocked inputs and the row-blocked output sit at block `t`, the
    weights, the bias and the two accumulators at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-! ## The blocks read off the arrays -/

theorem aBlk_apply (t : Fin cfg1.N) (r : Fin 5000) (q : Fin 128) (hp : 5000 * t.val + r.val < 100000) :
    aBlk V c t (ix2 r q) = aggArr V c (ix2 ⟨5000 * t.val + r.val, hp⟩ q) := by
  show V c (Pipeline.arrRef spec1 0) (((cfg1.win 0).blk t).view.emb (ix2 r q)) = V c (Pipeline.arrRef spec1 0) (ix2 ⟨5000 * t.val + r.val, hp⟩ q)
  obtain ⟨f0, f1, -⟩ := idx_facts1 t
  refine congrArg (V c (Pipeline.arrRef spec1 0)) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * q.val = q.val; omega

theorem hBlk_apply (t : Fin cfg1.N) (r : Fin 5000) (q : Fin 128) (hp : 5000 * t.val + r.val < 100000) :
    hBlk V c t (ix2 r q) = hArr V c (ix2 ⟨5000 * t.val + r.val, hp⟩ q) := by
  show V c (Pipeline.arrRef spec1 1) (((cfg1.win 1).blk t).view.emb (ix2 r q)) = V c (Pipeline.arrRef spec1 1) (ix2 ⟨5000 * t.val + r.val, hp⟩ q)
  obtain ⟨-, -, f0, f1, -⟩ := idx_facts1 t
  refine congrArg (V c (Pipeline.arrRef spec1 1)) (funext fun a => Fin.ext ?_)
  match a with
  | ⟨0, _⟩ => show win1_1.index t (0 : Fin 2) * 5000 + 1 * r.val = 5000 * t.val + r.val; omega
  | ⟨1, _⟩ => show win1_1.index t (1 : Fin 2) * 128 + 1 * q.val = q.val; omega

theorem wlBlk_apply (t : Fin cfg1.N) (q : Fin 128) (j : Fin 128) :
    wlBlk V c t (ix2 q j) = wlArr V c (ix2 q j) := by
  show V c (Pipeline.arrRef spec1 2) (((cfg1.win 2).blk t).view.emb (ix2 q j)) = V c (Pipeline.arrRef spec1 2) (ix2 q j)
  obtain ⟨-, -, -, -, f0, f1, -⟩ := idx_facts1 t
  refine congrArg (V c (Pipeline.arrRef spec1 2)) (funext fun a => Fin.ext ?_)
  match a with
  | ⟨0, _⟩ => show win1_2.index t (0 : Fin 2) * 128 + 1 * q.val = q.val; omega
  | ⟨1, _⟩ => show win1_2.index t (1 : Fin 2) * 128 + 1 * j.val = j.val; omega

theorem blBlk_apply (t : Fin cfg1.N) (j : Fin 128) :
    blBlk V c t (ix2 0 j) = blArr V c (ix2 0 j) := by
  show V c (Pipeline.arrRef spec1 3) (((cfg1.win 3).blk t).view.emb (ix2 0 j)) = V c (Pipeline.arrRef spec1 3) (ix2 0 j)
  obtain ⟨-, -, -, -, -, -, f0, f1, -⟩ := idx_facts1 t
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

theorem wrBlk_apply (t : Fin cfg1.N) (q : Fin 128) (j : Fin 128) :
    wrBlk V c t (ix2 q j) = wrArr V c (ix2 q j) := by
  show V c (Pipeline.arrRef spec1 4) (((cfg1.win 4).blk t).view.emb (ix2 q j)) = V c (Pipeline.arrRef spec1 4) (ix2 q j)
  obtain ⟨-, -, -, -, -, -, -, -, f0, f1, -⟩ := idx_facts1 t
  refine congrArg (V c (Pipeline.arrRef spec1 4)) (funext fun a => Fin.ext ?_)
  match a with
  | ⟨0, _⟩ => show win1_4.index t (0 : Fin 2) * 128 + 1 * q.val = q.val; omega
  | ⟨1, _⟩ => show win1_4.index t (1 : Fin 2) * 128 + 1 * j.val = j.val; omega

/-- The block the body stores at point `t` is rows `5000 t … 5000 t + 4999` of the linear stage. -/
theorem blockLin (t : Fin cfg1.N) (r : Fin 5000) (j : Fin 128) (hp : 5000 * t.val + r.val < 100000) :
    k1_pay4 (F := Ideal) (aBlk V c t) (hBlk V c t) (wlBlk V c t) (wrBlk V c t) (blBlk V c t) (ix2 r j) = L1 V c ⟨5000 * t.val + r.val, hp⟩ j := by
  refine (pay4_apply _ _ _ _ _ r j).trans ?_
  show _ = ((∑ q : Fin 128, aggArr V c (ix2 ⟨5000 * t.val + r.val, hp⟩ q) * wlArr V c (ix2 q j)) + blArr V c (ix2 0 j))
      + ∑ q : Fin 128, hArr V c (ix2 ⟨5000 * t.val + r.val, hp⟩ q) * wrArr V c (ix2 q j)
  refine congrArg₂ (· + ·) (congrArg₂ (· + ·) (Finset.sum_congr rfl fun q _ => ?_) ?_) (Finset.sum_congr rfl fun q _ => ?_)
  · exact congrArg₂ (· * ·) (aBlk_apply V c t r q hp) (wlBlk_apply V c t q j)
  · exact blBlk_apply V c t j
  · exact congrArg₂ (· * ·) (hBlk_apply V c t r q hp) (wrBlk_apply V c t q j)

/-! ## The three outputs' buffers, point by point -/

/-- At the first point: the block, and both accumulators reset to zero and then updated. -/
theorem outs_A (t : Fin cfg1.N) (h0 : t.val % 20 = 0) :
    outsAt1 V c t.val t.isLt
      = (k1_pay4 (F := Ideal) (aBlk V c t) (hBlk V c t) (wlBlk V c t) (wrBlk V c t) (blBlk V c t),
         k1_pay5 (F := Ideal) (aBlk V c t) (hBlk V c t) (wlBlk V c t) (wrBlk V c t) (blBlk V c t) (k1_pay2 (F := Ideal)),
         k1_pay1 (F := Ideal) (k1_pay6 (k1_pay3 (F := Ideal))) (k1_pay7 (aBlk V c t) (hBlk V c t) (wlBlk V c t) (wrBlk V c t) (blBlk V c t))) := by
  rw [outsAt1_A V c t h0,
    piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t),
    piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t),
    piece_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)]

/-- At a later point: the block, and both accumulators updated from what the point before left. -/
theorem outs_B (t : Fin cfg1.N) (h0 : ¬t.val % 20 = 0) :
    outsAt1 V c t.val t.isLt
      = (k1_pay4 (F := Ideal) (aBlk V c t) (hBlk V c t) (wlBlk V c t) (wrBlk V c t) (blBlk V c t),
         k1_pay5 (F := Ideal) (aBlk V c t) (hBlk V c t) (wlBlk V c t) (wrBlk V c t) (blBlk V c t) (outsAt1 V c (t.val - 1) (Nat.lt_of_le_of_lt (Nat.sub_le _ _) t.isLt)).2.1,
         k1_pay1 (F := Ideal) (k1_pay6 (outsAt1 V c (t.val - 1) (Nat.lt_of_le_of_lt (Nat.sub_le _ _) t.isLt)).2.2) (k1_pay7 (aBlk V c t) (hBlk V c t) (wlBlk V c t) (wrBlk V c t) (blBlk V c t))) := by
  rw [outsAt1_B V c t h0,
    piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
    piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2,
    piece_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2]

/-- The column sum of the block at point `t`, and of its squares, as sums of the linear stage's rows. -/
theorem blockSum (t : Fin cfg1.N) (j : Fin 128) :
    ∑ r : Fin 5000, k1_pay4 (F := Ideal) (aBlk V c t) (hBlk V c t) (wlBlk V c t) (wrBlk V c t) (blBlk V c t) (ix2 r j)
      = ∑ r : Fin 5000, ext (fun p => L1 V c p j) (5000 * t.val + r.val) := by
  have hN : t.val < 20 := lt_of_lt_of_eq t.isLt (show cfg1.N = 20 from N_1)
  refine Finset.sum_congr rfl fun r _ => ?_
  have hp : 5000 * t.val + r.val < 100000 := by have := r.isLt; omega
  exact (blockLin V c t r j hp).trans (ext_of_lt (fun p => L1 V c p j) _ hp).symm

theorem blockSumSq (t : Fin cfg1.N) (j : Fin 128) :
    ∑ r : Fin 5000, k1_pay7 (F := Ideal) (aBlk V c t) (hBlk V c t) (wlBlk V c t) (wrBlk V c t) (blBlk V c t) (ix2 r j)
      = ∑ r : Fin 5000, ext (fun p => L1 V c p j * L1 V c p j) (5000 * t.val + r.val) := by
  have hN : t.val < 20 := lt_of_lt_of_eq t.isLt (show cfg1.N = 20 from N_1)
  refine Finset.sum_congr rfl fun r _ => ?_
  have hp : 5000 * t.val + r.val < 100000 := by have := r.isLt; omega
  refine (pay7_apply _ _ _ _ _ (ix2 r j)).trans ?_
  rw [blockLin V c t r j hp]
  exact (ext_of_lt (fun p => L1 V c p j * L1 V c p j) _ hp).symm

/-- After point `n` the first accumulator holds the column sums over the rows of blocks `0 … n`, the second those
    of the squares: by induction on the point. -/
theorem outs_inv : ∀ (n : ℕ) (h : n < cfg1.N),
    (∀ j : Fin 128, (outsAt1 V c n h).2.1 (ix2 0 j) = pre (fun p => L1 V c p j) (n + 1))
    ∧ (∀ j : Fin 128, (outsAt1 V c n h).2.2 (ix2 0 j) = pre (fun p => L1 V c p j * L1 V c p j) (n + 1))
  | 0, h => by
    rw [outs_A V c ⟨0, h⟩ rfl]
    dsimp only
    refine ⟨fun j => ?_, fun j => ?_⟩
    · refine (pay5_apply _ _ _ _ _ _ j).trans ?_
      rw [pay2_apply, zero_add, pre_succ, pre_zero, zero_add]
      exact blockSum V c ⟨0, h⟩ j
    · refine (pay1_apply _ _ j).trans ?_
      rw [pay6_eq, pay3_apply, zero_add, pre_succ, pre_zero, zero_add]
      exact blockSumSq V c ⟨0, h⟩ j
  | n + 1, h => by
    have hN : cfg1.N = 20 := N_1
    have hB : ¬(⟨n + 1, h⟩ : Fin cfg1.N).val % 20 = 0 := by dsimp only; omega
    obtain ⟨ih6, ih7⟩ := outs_inv n (Nat.lt_of_succ_lt h)
    rw [outs_B V c ⟨n + 1, h⟩ hB]
    dsimp only
    refine ⟨fun j => ?_, fun j => ?_⟩
    · refine (pay5_apply _ _ _ _ _ _ j).trans ?_
      rw [pre_succ]
      exact congrArg₂ (· + ·) (ih6 j) (blockSum V c ⟨n + 1, h⟩ j)
    · refine (pay1_apply _ _ j).trans ?_
      rw [pay6_eq, pre_succ]
      exact congrArg₂ (· + ·) (ih7 j) (blockSumSq V c ⟨n + 1, h⟩ j)

/-- The block the body stores at point `t`. -/
theorem outs_blk (t : Fin cfg1.N) :
    (outsAt1 V c t.val t.isLt).1 = k1_pay4 (F := Ideal) (aBlk V c t) (hBlk V c t) (wlBlk V c t) (wrBlk V c t) (blBlk V c t) := by
  by_cases h0 : t.val % 20 = 0
  · rw [outs_A V c t h0]
  · rw [outs_B V c t h0]

/-! ## From the blocks to the arrays -/

/-- What point `t` writes back to the output array is block `t` of the linear stage. -/
theorem flushed5_eq (t : Fin cfg1.N) :
    (dat1 (F := Ideal) V c).flushed 5 t = ((cfg1.win 5).blk t).view.read (Elt Ideal) (unmat (L1 V c)) := by
  have hN : t.val < 20 := lt_of_lt_of_eq t.isLt (show cfg1.N = 20 from N_1)
  show (cfg1.win 5).cut (grid1.coords t) ((dat1 (F := Ideal) V c).after 5 t) = _
  rw [after1_5, outs_blk V c t]
  obtain ⟨-, -, -, -, -, -, -, -, -, -, f0, f1, -⟩ := idx_facts1 t
  funext y
  have h0 : (y 0).val < 5000 := (y 0).isLt
  have h1 : (y 1).val < 128 := (y 1).isLt
  have hp : 5000 * t.val + (y 0).val < 100000 := by omega
  have hx : (cfg1.win 5).xinj (grid1.coords t) y = ix2 ⟨(y 0).val, h0⟩ ⟨(y 1).val, h1⟩ := funext fun a => by
    match a with
    | ⟨0, _⟩ => rfl
    | ⟨1, _⟩ => rfl
  show k1_pay4 (F := Ideal) (aBlk V c t) (hBlk V c t) (wlBlk V c t) (wrBlk V c t) (blBlk V c t) ((cfg1.win 5).xinj (grid1.coords t) y)
      = L1 V c ((((cfg1.win 5).blk t).view.emb y) 0) ((((cfg1.win 5).blk t).view.emb y) 1)
  rw [hx, blockLin V c t ⟨(y 0).val, h0⟩ ⟨(y 1).val, h1⟩ hp]
  refine congrArg₂ (L1 V c) (Fin.ext ?_) (Fin.ext ?_)
  · show 5000 * t.val + (y 0).val = win1_5.index t (0 : Fin 2) * 5000 + 1 * (y 0).val; omega
  · show (y 1).val = win1_5.index t (1 : Fin 2) * 128 + 1 * (y 1).val; omega

/-- An index of the output array is in point `t`'s block iff each coordinate is in the block's range on its axis. -/
theorem mem_blk5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28_0).slice (win1_5.rect t)).set ↔ _
  rw [View.set_slice_whole, Rect.mem_set_unit]
  exact Iff.rfl

/-- The output array after the run: the linear stage, every row (row `p` is in the block of point `p / 5000`). -/
theorem final5 : (dat1 (F := Ideal) V c).arrAt 5 cfg1.N = unmat (L1 V c) :=
  (dat1 (F := Ideal) V c).arrAt_eq_of_cover 5 (unmat (L1 V c)) (fun t _ => flushed5_eq V c t) fun i => by
    have hi0 : (i 0).val < 100000 := (i 0).isLt
    have hi1 : (i 1).val < 128 := (i 1).isLt
    have hN : cfg1.N = 20 := N_1
    have ht : (i 0).val / 5000 < cfg1.N := by rw [hN]; omega
    obtain ⟨-, -, -, -, -, -, -, -, -, -, f0, f1, -⟩ := idx_facts1 ⟨(i 0).val / 5000, ht⟩
    refine ⟨⟨(i 0).val / 5000, ht⟩, flush1_5 _, ?_⟩
    rw [mem_blk5]
    intro a
    match a with
    | ⟨0, _⟩ =>
      show win1_5.index ⟨(i 0).val / 5000, ht⟩ (0 : Fin 2) * 5000 ≤ (i 0).val ∧ (i 0).val < win1_5.index ⟨(i 0).val / 5000, ht⟩ (0 : Fin 2) * 5000 + 5000
      rw [f0]
      show (i 0).val / 5000 * 5000 ≤ (i 0).val ∧ (i 0).val < (i 0).val / 5000 * 5000 + 5000
      omega
    | ⟨1, _⟩ =>
      show win1_5.index ⟨(i 0).val / 5000, ht⟩ (1 : Fin 2) * 128 ≤ (i 1).val ∧ (i 1).val < win1_5.index ⟨(i 0).val / 5000, ht⟩ (1 : Fin 2) * 128 + 128
      omega

theorem sumArr_apply (j : Fin 128) : sumArr V c (ix2 0 j) = colSum (L1 V c) j := rfl
theorem sumSqArr_apply (j : Fin 128) : sumSqArr V c (ix2 0 j) = colSumSq (L1 V c) j := rfl

/-- A block of an accumulator's array reads the array at the block's embedded index. -/
theorem read_blk6 (G : FVec Ideal S1x128 .f32) (t : Fin cfg1.N) (y : ((cfg1.win 6).xblock (grid1.coords t)).Idx) :
    ((cfg1.win 6).blk t).view.read (Elt Ideal) G y = G (((cfg1.win 6).blk t).view.emb y) := rfl

theorem read_blk7 (G : FVec Ideal S1x128 .f32) (t : Fin cfg1.N) (y : ((cfg1.win 7).xblock (grid1.coords t)).Idx) :
    ((cfg1.win 7).blk t).view.read (Elt Ideal) G y = G (((cfg1.win 7).blk t).view.emb y) := rfl

/-- The one write-back of the first accumulator, at the last point, writes the column sums over all the rows. -/
theorem flushed6_eq (t : Fin cfg1.N) (hf : (cfg1.win 6).flush t = true) :
    (dat1 (F := Ideal) V c).flushed 6 t = ((cfg1.win 6).blk t).view.read (Elt Ideal) (sumArr V c) := by
  have hN : cfg1.N = 20 := N_1
  have h19 : t.val = 19 := by have := (flush1_6 t).mp hf; have := t.isLt; omega
  show (cfg1.win 6).cut (grid1.coords t) ((dat1 (F := Ideal) V c).after 6 t) = _
  rw [after1_6]
  obtain ⟨-, -, -, -, -, -, -, -, -, -, -, -, f0, f1, -⟩ := idx_facts1 t
  funext y
  have h0 : (y 0).val < 1 := (y 0).isLt
  have h1 : (y 1).val < 128 := (y 1).isLt
  have hx : (cfg1.win 6).xinj (grid1.coords t) y = ix2 0 ⟨(y 1).val, h1⟩ := funext fun a => Fin.ext (by
    match a with
    | ⟨0, _⟩ => show (y 0).val = 0; omega
    | ⟨1, _⟩ => rfl)
  have he : ((cfg1.win 6).blk t).view.emb y = ix2 0 ⟨(y 1).val, h1⟩ := funext fun a => Fin.ext (by
    match a with
    | ⟨0, _⟩ => show win1_6.index t (0 : Fin 2) * 1 + 1 * (y 0).val = 0; omega
    | ⟨1, _⟩ => show win1_6.index t (1 : Fin 2) * 128 + 1 * (y 1).val = (y 1).val; omega)
  have hR1 : ((cfg1.win 6).blk t).view.read (Elt Ideal) (sumArr V c) y = sumArr V c (((cfg1.win 6).blk t).view.emb y) :=
    read_blk6 (sumArr V c) t y
  have hR2 : sumArr V c (((cfg1.win 6).blk t).view.emb y) = sumArr V c (ix2 0 ⟨(y 1).val, h1⟩) := congrArg (sumArr V c) he
  have hL : (cfg1.win 6).cut (grid1.coords t) (outsAt1 V c t.val t.isLt).2.1 y
      = (outsAt1 V c t.val t.isLt).2.1 (ix2 0 ⟨(y 1).val, h1⟩) :=
    congrArg (outsAt1 V c t.val t.isLt).2.1 hx
  rw [hR1, hR2, sumArr_apply V c ⟨(y 1).val, h1⟩, hL, (outs_inv V c t.val t.isLt).1 ⟨(y 1).val, h1⟩, h19]
  exact pre_all _

/-- The first accumulator array after the run: the linear stage's column sums. -/
theorem final6 : (dat1 (F := Ideal) V c).arrAt 6 cfg1.N = sumArr V c :=
  (dat1 (F := Ideal) V c).arrAt_eq_of_cover 6 (sumArr V c) (flushed6_eq V c) fun i => by
    have hi0 : (i 0).val < 1 := (i 0).isLt
    have hi1 : (i 1).val < 128 := (i 1).isLt
    have hN : cfg1.N = 20 := N_1
    have ht : 19 < cfg1.N := by rw [hN]; omega
    obtain ⟨-, -, -, -, -, -, -, -, -, -, -, -, f0, f1, -⟩ := idx_facts1 ⟨19, ht⟩
    refine ⟨⟨19, ht⟩, (flush1_6 ⟨19, ht⟩).mpr rfl, ?_⟩
    show i ∈ ((View.whole main_v28_1).slice (win1_6.rect ⟨19, ht⟩)).set
    rw [View.set_slice_whole, Rect.mem_set_unit]
    intro a
    match a with
    | ⟨0, _⟩ =>
      show win1_6.index ⟨19, ht⟩ (0 : Fin 2) * 1 ≤ (i 0).val ∧ (i 0).val < win1_6.index ⟨19, ht⟩ (0 : Fin 2) * 1 + 1
      omega
    | ⟨1, _⟩ =>
      show win1_6.index ⟨19, ht⟩ (1 : Fin 2) * 128 ≤ (i 1).val ∧ (i 1).val < win1_6.index ⟨19, ht⟩ (1 : Fin 2) * 128 + 128
      omega

/-- The one write-back of the second accumulator, at the last point, writes the column sums of squares over all the rows. -/
theorem flushed7_eq (t : Fin cfg1.N) (hf : (cfg1.win 7).flush t = true) :
    (dat1 (F := Ideal) V c).flushed 7 t = ((cfg1.win 7).blk t).view.read (Elt Ideal) (sumSqArr V c) := by
  have hN : cfg1.N = 20 := N_1
  have h19 : t.val = 19 := by have := (flush1_7 t).mp hf; have := t.isLt; omega
  show (cfg1.win 7).cut (grid1.coords t) ((dat1 (F := Ideal) V c).after 7 t) = _
  rw [after1_7]
  obtain ⟨-, -, -, -, -, -, -, -, -, -, -, -, -, -, f0, f1⟩ := idx_facts1 t
  funext y
  have h0 : (y 0).val < 1 := (y 0).isLt
  have h1 : (y 1).val < 128 := (y 1).isLt
  have hx : (cfg1.win 7).xinj (grid1.coords t) y = ix2 0 ⟨(y 1).val, h1⟩ := funext fun a => Fin.ext (by
    match a with
    | ⟨0, _⟩ => show (y 0).val = 0; omega
    | ⟨1, _⟩ => rfl)
  have he : ((cfg1.win 7).blk t).view.emb y = ix2 0 ⟨(y 1).val, h1⟩ := funext fun a => Fin.ext (by
    match a with
    | ⟨0, _⟩ => show win1_7.index t (0 : Fin 2) * 1 + 1 * (y 0).val = 0; omega
    | ⟨1, _⟩ => show win1_7.index t (1 : Fin 2) * 128 + 1 * (y 1).val = (y 1).val; omega)
  have hR1 : ((cfg1.win 7).blk t).view.read (Elt Ideal) (sumSqArr V c) y = sumSqArr V c (((cfg1.win 7).blk t).view.emb y) :=
    read_blk7 (sumSqArr V c) t y
  have hR2 : sumSqArr V c (((cfg1.win 7).blk t).view.emb y) = sumSqArr V c (ix2 0 ⟨(y 1).val, h1⟩) := congrArg (sumSqArr V c) he
  have hL : (cfg1.win 7).cut (grid1.coords t) (outsAt1 V c t.val t.isLt).2.2 y
      = (outsAt1 V c t.val t.isLt).2.2 (ix2 0 ⟨(y 1).val, h1⟩) :=
    congrArg (outsAt1 V c t.val t.isLt).2.2 hx
  rw [hR1, hR2, sumSqArr_apply V c ⟨(y 1).val, h1⟩, hL, (outs_inv V c t.val t.isLt).2 ⟨(y 1).val, h1⟩, h19]
  exact pre_all _

/-- The second accumulator array after the run: the column sums of the linear stage's squares. -/
theorem final7 : (dat1 (F := Ideal) V c).arrAt 7 cfg1.N = sumSqArr V c :=
  (dat1 (F := Ideal) V c).arrAt_eq_of_cover 7 (sumSqArr V c) (flushed7_eq V c) fun i => by
    have hi0 : (i 0).val < 1 := (i 0).isLt
    have hi1 : (i 1).val < 128 := (i 1).isLt
    have hN : cfg1.N = 20 := N_1
    have ht : 19 < cfg1.N := by rw [hN]; omega
    obtain ⟨-, -, -, -, -, -, -, -, -, -, -, -, -, -, f0, f1⟩ := idx_facts1 ⟨19, ht⟩
    refine ⟨⟨19, ht⟩, (flush1_7 ⟨19, ht⟩).mpr rfl, ?_⟩
    show i ∈ ((View.whole main_v28_2).slice (win1_7.rect ⟨19, ht⟩)).set
    rw [View.set_slice_whole, Rect.mem_set_unit]
    intro a
    match a with
    | ⟨0, _⟩ =>
      show win1_7.index ⟨19, ht⟩ (0 : Fin 2) * 1 ≤ (i 0).val ∧ (i 0).val < win1_7.index ⟨19, ht⟩ (0 : Fin 2) * 1 + 1
      omega
    | ⟨1, _⟩ =>
      show win1_7.index ⟨19, ht⟩ (1 : Fin 2) * 128 ≤ (i 1).val ∧ (i 1).val < win1_7.index ⟨19, ht⟩ (1 : Fin 2) * 128 + 128
      omega

end Region

/-- THE REGION'S VALUE: each of its three output arrays after the run, as one function of its five input arrays as the
    region finds them. -/
theorem region1_value (V : (c : Dev nD) → (b : Ref sig .tc) → Buf (Elt Ideal) ((c : Thread nD τ).loc b)) (c : Dev nD)
    (agg h : FVec Ideal S100000x128 .f32) (wl : FVec Ideal S128x128 .f32) (bl : FVec Ideal S1x128 .f32) (wr : FVec Ideal S128x128 .f32)
    (e0 : V c (Pipeline.arrRef spec1 0) = agg) (e1 : V c (Pipeline.arrRef spec1 1) = h) (e2 : V c (Pipeline.arrRef spec1 2) = wl) (e3 : V c (Pipeline.arrRef spec1 3) = bl) (e4 : V c (Pipeline.arrRef spec1 4) = wr) :
    (dat1 (F := Ideal) V c).arrAt 5 cfg1.N = unmat (lin (mat agg) (mat h) (mat wl) (fun j => bl (ix2 0 j)) (mat wr))
    ∧ (dat1 (F := Ideal) V c).arrAt 6 cfg1.N = (fun i => colSum (lin (mat agg) (mat h) (mat wl) (fun j => bl (ix2 0 j)) (mat wr)) (i 1) : FVec Ideal S1x128 .f32)
    ∧ (dat1 (F := Ideal) V c).arrAt 7 cfg1.N = (fun i => colSumSq (lin (mat agg) (mat h) (mat wl) (fun j => bl (ix2 0 j)) (mat wr)) (i 1) : FVec Ideal S1x128 .f32) := by
  subst e0 e1 e2 e3 e4
  exact ⟨final5 V c, final6 V c, final7 V c⟩

end Cert.KernelIdeal.Hand.R1

end
-- ==== Proof.KRegion2.lean ====
/-
  The value of the column-normalisation region: twenty blocks of 5000 rows of a 100000 × 128 array `x`, each
  normalised against four whole row vectors (mean `μ`, variance `v`, scale `g`, shift `β`) by
  `max (g · (x − μ) · rsqrt (v + ε) + β) 0`, written back block by block. First the body's arithmetic at one entry
  of a block; then where each block sits in its array (block `t` is rows `5000 t … 5000 t + 4999`, the row vectors
  are whole at every point); then the blocks fill the array (row `r` is in block `r / 5000`), so the array after
  the run is the normalised array entry by entry.
-/
import proofs.«431466_j18562848654083_1_alg».proof.Proof.Gen.KernelIdeal.Frame
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R2

open Cert.KernelIdeal Cert.KernelIdeal.Gen Cert.Spec Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole-buffer access, as the constant function. -/
theorem zeroOff : (![0, 0] : Fin 2 → Nat) = fun _ => 0 := funext fun a => by fin_cases a <;> rfl

/-- A row vector spread over the rows of a block reads, at row `p` and column `q`, its entry of column `q`. -/
theorem rowSpread_apply (r : FVec Ideal S1x128 .f32) (h : S1x128.Broadcasts S5000x128) (p : Fin 5000) (q : Fin 128) :
    broadcastTo S5000x128 r h (ix2 p q) = r (ix2 0 q) :=
  broadcastTo_apply r h (ix2 p q) (ix2 0 q) (fun a => by
    match a with
    | ⟨0, _⟩ => rfl
    | ⟨1, _⟩ => rfl)

/-- The body's arithmetic at row `p`, column `q` of a block: the scale times the deviation from the mean, times the
    inverse root of the offset variance, plus the shift, rectified. -/
theorem normBlock_apply (x0 : Vec Ideal S5000x128 .f32) (g mu v be : Vec Ideal S1x128 .f32) (p : Fin 5000) (q : Fin 128) :
    k2_pay1 x0 g mu v be (ix2 p q)
      = max (g (ix2 0 q) * (x0 (ix2 p q) - mu (ix2 0 q)) * Ideal.rsqrt (v (ix2 0 q) + eps) + be (ix2 0 q)) 0 := by
  unfold k2_pay1
  simp only [shapeCast_self]
  rw [maximumf_apply, addf_apply, mulf_apply, mulf_apply, subf_apply, rowSpread_apply, rowSpread_apply, rowSpread_apply,
    rowSpread_apply]
  show max (g (ix2 0 q) * (x0 (ix2 p q) - mu (ix2 0 q)) * Ideal.rsqrt (v (ix2 0 q) + Ideal.ofBits .f32 0x3727C5AC#32)
      + be (ix2 0 q)) (Ideal.ofBits .f32 0x00000000#32) = _
  rw [Ideal.ofBits_zero_f32]
  rfl

/-- What the body leaves in the output's buffer, as one function of the five input blocks: the block of deviations
    scaled, shifted and rectified, row by row against the four row vectors. -/
theorem normBlock_eq (x0 : Vec Ideal S5000x128 .f32) (x1 x2 x3 x4 : Vec Ideal S1x128 .f32) :
    out2_5 x0 x1 x2 x3 x4 = fun j => max (x3 (ix2 0 (j 1)) * (x0 j - x1 (ix2 0 (j 1))) * Ideal.rsqrt (x2 (ix2 0 (j 1)) + eps)
      + x4 (ix2 0 (j 1))) 0 := by
  unfold out2_5
  rw [View.canon_unit_zero zeroOff]
  simp only [View.ld_unit_zero (S := S5000x128) zeroOff, View.ld_unit_zero (S := S1x128) zeroOff]
  funext j
  obtain ⟨p, q, rfl⟩ : ∃ (p : Fin 5000) (q : Fin 128), j = ix2 p q := ⟨j 0, j 1, eq_ix2 j⟩
  exact normBlock_apply x0 x3 x1 x2 x4 p q

/-- The normalised array: every column of `x` shifted by its mean, scaled, shifted and rectified. -/
abbrev normArr (x : FVec Ideal S100000x128 .f32) (mu v g be : FVec Ideal S1x128 .f32) : FVec Ideal S100000x128 .f32 :=
  unmat (bn (mat x) (fun j => mu (ix2 0 j)) (fun j => v (ix2 0 j)) (fun j => g (ix2 0 j)) (fun j => be (ix2 0 j)))

/-- The index maps over the grid: the block of rows moves with the point, the row vectors stay whole, the output's block
    is the input's. -/
theorem blockIdx : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `p` of block `t` is a row of the array. -/
theorem rowOf_lt (t : Fin cfg2.N) (p : Fin 5000) : t.val * 5000 + p.val < 100000 := by
  have ht : t.val < 20 := lt_of_lt_of_eq t.isLt (show cfg2.N = 20 from N_2)
  have hp : p.val < 5000 := p.isLt
  omega

/-- The output's block at point `t` sits at rows `5000 t … 5000 t + 4999`, all columns. -/
theorem outBlock_emb (t : Fin cfg2.N) (p : Fin 5000) (q : Fin 128) :
    ((cfg2.win 5).blk t).view.emb (ix2 p q) = ix2 (⟨t.val * 5000 + p.val, rowOf_lt t p⟩ : Fin 100000) q := by
  obtain ⟨f50, f51, -⟩ := blockIdx t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-- So does the input's block of `x`. -/
theorem inBlock_emb (t : Fin cfg2.N) (p : Fin 5000) (q : Fin 128) :
    ((cfg2.win 0).blk t).view.emb (ix2 p q) = ix2 (⟨t.val * 5000 + p.val, rowOf_lt t p⟩ : Fin 100000) q := by
  obtain ⟨-, -, f00, f01, -⟩ := blockIdx t
  funext a; apply Fin.ext
  match a with
  | ⟨0, _⟩ => show win2_0.index t (0 : Fin 2) * 5000 + 1 * p.val = t.val * 5000 + p.val; omega
  | ⟨1, _⟩ => show win2_0.index t (1 : Fin 2) * 128 + 1 * q.val = q.val; omega

/-- The mean's block at every point is the whole row vector … -/
theorem row1_emb (t : Fin cfg2.N) (q : Fin 128) : ((cfg2.win 1).blk t).view.emb (ix2 0 q) = ix2 (0 : Fin 1) q := by
  obtain ⟨-, -, -, -, f10, f11, -⟩ := blockIdx t
  funext a; apply Fin.ext
  match a with
  | ⟨0, _⟩ => show win2_1.index t (0 : Fin 2) * 1 + 1 * 0 = 0; omega
  | ⟨1, _⟩ => show win2_1.index t (1 : Fin 2) * 128 + 1 * q.val = q.val; omega

/-- … and so are the variance's … -/
theorem row2_emb (t : Fin cfg2.N) (q : Fin 128) : ((cfg2.win 2).blk t).view.emb (ix2 0 q) = ix2 (0 : Fin 1) q := by
  obtain ⟨-, -, -, -, -, -, f20, f21, -⟩ := blockIdx t
  funext a; apply Fin.ext
  match a with
  | ⟨0, _⟩ => show win2_2.index t (0 : Fin 2) * 1 + 1 * 0 = 0; omega
  | ⟨1, _⟩ => show win2_2.index t (1 : Fin 2) * 128 + 1 * q.val = q.val; omega

/-- … the scale's … -/
theorem row3_emb (t : Fin cfg2.N) (q : Fin 128) : ((cfg2.win 3).blk t).view.emb (ix2 0 q) = ix2 (0 : Fin 1) q := by
  obtain ⟨-, -, -, -, -, -, -, -, f30, f31, -⟩ := blockIdx t
  funext a; apply Fin.ext
  match a with
  | ⟨0, _⟩ => show win2_3.index t (0 : Fin 2) * 1 + 1 * 0 = 0; omega
  | ⟨1, _⟩ => show win2_3.index t (1 : Fin 2) * 128 + 1 * q.val = q.val; omega

/-- … and the shift's. -/
theorem row4_emb (t : Fin cfg2.N) (q : Fin 128) : ((cfg2.win 4).blk t).view.emb (ix2 0 q) = ix2 (0 : Fin 1) q := by
  obtain ⟨-, -, -, -, -, -, -, -, -, -, f40, f41⟩ := blockIdx t
  funext a; apply Fin.ext
  match a with
  | ⟨0, _⟩ => show win2_4.index t (0 : Fin 2) * 1 + 1 * 0 = 0; omega
  | ⟨1, _⟩ => show win2_4.index t (1 : Fin 2) * 128 + 1 * q.val = q.val; omega

section
variable (V : (c : Dev nD) → (b : Ref sig .tc) → Buf (Elt Ideal) ((c : Thread nD τ).loc b)) (c : Dev nD)
  (x : FVec Ideal S100000x128 .f32) (mu v g be : FVec Ideal S1x128 .f32)
  (e0 : V c (Pipeline.arrRef spec2 0) = x) (e1 : V c (Pipeline.arrRef spec2 1) = mu)
  (e2 : V c (Pipeline.arrRef spec2 2) = v) (e3 : V c (Pipeline.arrRef spec2 3) = g)
  (e4 : V c (Pipeline.arrRef spec2 4) = be)

include e0 e1 e2 e3 e4 in
/-- What point `t` writes back is block `t` of the normalised array. -/
theorem flushed_eq (t : Fin cfg2.N) :
    (dat2 (F := Ideal) V c).flushed 5 t = ((cfg2.win 5).blk t).view.read (Elt Ideal) (normArr x mu v g be) := by
  show (cfg2.win 5).cut (grid2.coords t) ((dat2 (F := Ideal) V c).after 5 t) = _
  rw [after2_5, normBlock_eq]
  unfold iblk2
  rw [e0, e1, e2, e3, e4]
  refine funext fun (j : S5000x128.Idx) => ?_
  obtain ⟨p, q, rfl⟩ : ∃ (p : Fin 5000) (q : Fin 128), j = ix2 p q := ⟨j 0, j 1, eq_ix2 j⟩
  show max (g (((cfg2.win 3).blk t).view.emb (ix2 0 q))
        * (x (((cfg2.win 0).blk t).view.emb (ix2 p q)) - mu (((cfg2.win 1).blk t).view.emb (ix2 0 q)))
        * Ideal.rsqrt (v (((cfg2.win 2).blk t).view.emb (ix2 0 q)) + eps)
        + be (((cfg2.win 4).blk t).view.emb (ix2 0 q))) 0
      = normArr x mu v g be (((cfg2.win 5).blk t).view.emb (ix2 p q))
  rw [row3_emb, inBlock_emb, row1_emb, row2_emb, row4_emb, outBlock_emb]
  rfl

end

/-- An index of the array is in point `t`'s block iff each coordinate is in the block's range on its axis. -/
theorem mem_outBlock (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v41).slice (win2_5.rect t)).set ↔ _
  rw [View.set_slice_whole, Rect.mem_set_unit]
  exact Iff.rfl

/-- Every row `r` of the array is in the block of point `r / 5000`: the twenty blocks of 5000 rows fill the 100000. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨f50, f51, -⟩ := blockIdx ⟨(i 0).val / 5000, ht⟩
  have f50' : win2_5.index ⟨(i 0).val / 5000, ht⟩ (0 : Fin 2) = (i 0).val / 5000 := f50
  refine ⟨⟨(i 0).val / 5000, ht⟩, flush2_5 _, ?_⟩
  rw [mem_outBlock]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-- THE VALUE OF THE REGION: the output array after the run is the input array normalised column by column with the
    four row vectors the region is handed — `max (g · (x − μ) · rsqrt (v + ε) + β) 0` at every entry. -/
theorem region2_value (V : (c : Dev nD) → (b : Ref sig .tc) → Buf (Elt Ideal) ((c : Thread nD τ).loc b)) (c : Dev nD)
    (x : FVec Ideal S100000x128 .f32) (mu v g be : FVec Ideal S1x128 .f32)
    (e0 : V c (Pipeline.arrRef spec2 0) = x) (e1 : V c (Pipeline.arrRef spec2 1) = mu)
    (e2 : V c (Pipeline.arrRef spec2 2) = v) (e3 : V c (Pipeline.arrRef spec2 3) = g)
    (e4 : V c (Pipeline.arrRef spec2 4) = be) :
    (dat2 (F := Ideal) V c).arrAt 5 cfg2.N
      = unmat (bn (mat x) (fun j => mu (ix2 0 j)) (fun j => v (ix2 0 j)) (fun j => g (ix2 0 j)) (fun j => be (ix2 0 j))) :=
  (dat2 (F := Ideal) V c).arrAt_eq_of_cover 5 (normArr x mu v g be)
    (fun t _ => flushed_eq V c x mu v g be e0 e1 e2 e3 e4 t) covered

end Cert.KernelIdeal.Hand.R2

end
-- ==== Proof.KRegion3Pay.lean ====
/-
  The arithmetic of one block of the layer's linear stage, read index by index over the extended reals:
  the block product, the block of `agg · Wl + bl + h · Wr`, and the two column accumulations
  (a running column sum of the block, and of the block's squares).
-/
import proofs.«431466_j18562848654083_1_alg».proof.Proof.Gen.KernelIdeal.Skeleton
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.R3

open Cert.KernelIdeal Cert.KernelIdeal.Gen Cert.Spec Idealize.ShloMosaic Idealize.ShloMosaic.ValueIdx
open scoped BigOperators

/-! ## The block product `[5000,128] · [128,128]`: its operand indices, axis by axis -/

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at row `p` and column `j`: the sum over the 128 contracted positions. -/
theorem mm_apply (x : FVec Ideal S5000x128 .bf16) (w : FVec Ideal S128x128 .bf16) (p : Fin 5000) (j : Fin 128) :
    matmul dot_S5000x128_S128x128_S5000x128_1_0_0_1_n_n none x w (constant (F := Ideal) S5000x128 .f32 0x00000000#32) (ix2 p j)
      = ∑ k : Fin 128, x (ix2 p k) * w (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_mm_0 _ _).trans hk
    | ⟨1, _⟩ => exact rhs_mm_1 _ _)
  rw [el, er]

/-- A column sum of a `[5000,128]` block, at column `j`: the sum over the block's rows. -/
theorem rowSum_apply (src : FVec Ideal S5000x128 .f32) (j : Fin 128) :
    multiReduction (F := Ideal) .add [0] S128 src 0x00000000#32 reduces_S5000x128_S128 (.inl rfl) rfl (ix1 j)
      = ∑ r : Fin 5000, src (ix2 r j) := by
  refine (Ideal.multiReduction_add_single src 0x00000000#32 reduces_S5000x128_S128 (.inl rfl) rfl (ix1 j)).trans ?_
  exact Finset.sum_congr rfl fun r _ => congrArg src (funext fun a => by
    match a with
    | ⟨0, _⟩ => rfl
    | ⟨1, _⟩ => rfl)

/-! ## The payloads at an index -/

/-- The block of the linear stage at row `p`, column `j`. -/
theorem pay4_apply (a h : Vec Ideal S5000x128 .f32) (wl wr : Vec Ideal S128x128 .f32) (bl : Vec Ideal S1x128 .f32)
    (p : Fin 5000) (j : Fin 128) :
    k3_pay4 (F := Ideal) a h wl wr bl (ix2 p j)
      = ((∑ q : Fin 128, a (ix2 p q) * wl (ix2 q j)) + bl (ix2 0 j)) + ∑ q : Fin 128, h (ix2 p q) * wr (ix2 q j) := by
  unfold k3_pay4
  simp only [shapeCast_self]
  refine (addf_apply _ _ _).trans ?_
  refine congrArg₂ (· + ·) ((addf_apply _ _ _).trans (congrArg₂ (· + ·) ?_ ?_)) ?_
  · exact mm_apply _ _ p j
  · exact broadcastTo_1b_ab_apply bl _ p j
  · exact mm_apply _ _ p j

/-- The running column sum after a block: what it held plus the block's column sum. -/
theorem pay5_apply (a h : Vec Ideal S5000x128 .f32) (wl wr : Vec Ideal S128x128 .f32) (bl acc : Vec Ideal S1x128 .f32)
    (j : Fin 128) :
    k3_pay5 (F := Ideal) a h wl wr bl acc (ix2 0 j)
      = acc (ix2 0 j) + ∑ r : Fin 5000, k3_pay4 (F := Ideal) a h wl wr bl (ix2 r j) := by
  unfold k3_pay5
  simp only [shapeCast_self]
  refine (addf_apply _ _ _).trans (congrArg (acc (ix2 0 j) + ·) ?_)
  refine (shapeCast_a_1a_apply _ _ 0 j).trans ?_
  exact rowSum_apply _ j

/-- The running column sum of squares after a block. -/
theorem pay1_apply (acc : FVec Ideal S1x128 .f32) (sq : FVec Ideal S5000x128 .f32) (j : Fin 128) :
    k3_pay1 (F := Ideal) acc sq (ix2 0 j) = acc (ix2 0 j) + ∑ r : Fin 5000, sq (ix2 r j) := by
  unfold k3_pay1
  refine (addf_apply _ _ _).trans (congrArg (acc (ix2 0 j) + ·) ?_)
  refine (shapeCast_a_1a_apply _ _ 0 j).trans ?_
  exact rowSum_apply _ j

theorem pay6_eq (v : Vec Ideal S1x128 .f32) : k3_pay6 (F := Ideal) v = v := by
  unfold k3_pay6
  exact shapeCast_self _ _

theorem pay7_apply (a h : Vec Ideal S5000x128 .f32) (wl wr : Vec Ideal S128x128 .f32) (bl : Vec Ideal S1x128 .f32)
    (i : S5000x128.Idx) :
    k3_pay7 (F := Ideal) a h wl wr bl i = k3_pay4 (F := Ideal) a h wl wr bl i * k3_pay4 (F := Ideal) a h wl wr bl i := rfl

/-- The reset value of both accumulators is zero everywhere. -/
theorem pay2_apply (i : S1x128.Idx) : (k3_pay2 (F := Ideal)) i = 0 := by
  unfold k3_pay2
  exact Ideal.ofBits_zero_f32

theorem pay3_apply (i : S1x128.Idx) : (k3_pay3 (F := Ideal)) i = 0 := by
  unfold k3_pay3
  exact Ideal.ofBits_zero_f32

end Cert.KernelIdeal.Hand.R3

end
-- ==== Proof.KRegion3Pieces.lean ====
/-
  What each control case of the layer's linear-stage body leaves in its three outputs, as the body's pure
  arithmetic of the blocks it loads (and, past the first point, of the two accumulators as the point before left them).
-/
import proofs.«431466_j18562848654083_1_alg».proof.Proof.Gen.KernelIdeal.Frame
import Idealize.ShloMosaic.Lib.Pipeline.Value

set_option maxRecDepth 16384

noncomputable section

namespace Cert.KernelIdeal.Hand.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-! ## What each case of the body leaves in each output's buffer

  The first point resets both accumulators to zero before it updates them; every other point updates what the point
  before left. The block of the linear stage is stored whole at every point. -/

theorem piece_A_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond3_0 i) (x0 : Vec F S5000x128 .f32) (x1 : Vec F S5000x128 .f32) (x2 : Vec F S128x128 .f32) (x3 : Vec F S1x128 .f32) (x4 : Vec F S128x128 .f32) :
    out3_A_5 c i arg1 harg1 arg2 harg2 arg3 harg3 arg4 harg4 arg5 harg5 arg6 harg6 arg7 harg7 arg8 harg8 hc0 x0 x1 x2 x3 x4 = k3_pay4 x0 x1 x2 x4 x3 := by
  unfold out3_A_5
  rw [View.read_writes_eq_canon _ _ _ (cover3_A_5 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_A_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond3_0 i) (x0 : Vec F S5000x128 .f32) (x1 : Vec F S5000x128 .f32) (x2 : Vec F S128x128 .f32) (x3 : Vec F S1x128 .f32) (x4 : Vec F S128x128 .f32) :
    out3_A_6 c i arg1 harg1 arg2 harg2 arg3 harg3 arg4 harg4 arg5 harg5 arg6 harg6 arg7 harg7 arg8 harg8 hc0 x0 x1 x2 x3 x4 = k3_pay5 x0 x1 x2 x4 x3 (k3_pay2 (F := F)) := by
  unfold out3_A_6
  rw [View.read_writes_eq_canon _ _ _ (cover3_A_6 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_A_7 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : cond3_0 i) (x0 : Vec F S5000x128 .f32) (x1 : Vec F S5000x128 .f32) (x2 : Vec F S128x128 .f32) (x3 : Vec F S1x128 .f32) (x4 : Vec F S128x128 .f32) :
    out3_A_7 c i arg1 harg1 arg2 harg2 arg3 harg3 arg4 harg4 arg5 harg5 arg6 harg6 arg7 harg7 arg8 harg8 hc0 x0 x1 x2 x3 x4 = k3_pay1 (k3_pay6 (k3_pay3 (F := F))) (k3_pay7 x0 x1 x2 x4 x3) := by
  unfold out3_A_7
  rw [View.read_writes_eq_canon _ _ _ (cover3_A_7 c i arg1 harg1 arg2 harg2 arg3 harg3 arg4 harg4 arg5 harg5 arg6 harg6 arg7 harg7 arg8 harg8 hc0 x0 x1 x2 x3 x4)]
  unfold kernelRun3_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_5 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond3_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out3_B_5 c i arg1 harg1 arg2 harg2 arg3 harg3 arg4 harg4 arg5 harg5 arg6 harg6 arg7 harg7 arg8 harg8 hc0 x0 x1 x2 x3 x4 xo6 xo7 = k3_pay4 x0 x1 x2 x4 x3 := by
  unfold out3_B_5
  rw [View.read_writes_eq_canon _ _ _ (cover3_B_5 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_6 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond3_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out3_B_6 c i arg1 harg1 arg2 harg2 arg3 harg3 arg4 harg4 arg5 harg5 arg6 harg6 arg7 harg7 arg8 harg8 hc0 x0 x1 x2 x3 x4 xo6 xo7 = k3_pay5 x0 x1 x2 x4 x3 xo6 := by
  unfold out3_B_6
  rw [View.read_writes_eq_canon _ _ _ (cover3_B_6 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

theorem piece_B_7 (c : Dev nD) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (hc0 : ¬cond3_0 i) (x0 : Vec F S5000x128 .f32) (x1 : Vec F S5000x128 .f32) (x2 : Vec F S128x128 .f32) (x3 : Vec F S1x128 .f32) (x4 : Vec F S128x128 .f32) (xo6 : Vec F S1x128 .f32) (xo7 : Vec F S1x128 .f32) :
    out3_B_7 c i arg1 harg1 arg2 harg2 arg3 harg3 arg4 harg4 arg5 harg5 arg6 harg6 arg7 harg7 arg8 harg8 hc0 x0 x1 x2 x3 x4 xo6 xo7 = k3_pay1 (k3_pay6 xo7) (k3_pay7 x0 x1 x2 x4 x3) := by
  unfold out3_B_7
  rw [View.read_writes_eq_canon _ _ _ (cover3_B_7 c i arg1 harg1 arg2 harg2 arg3 harg3 arg4 harg4 arg5 harg5 arg6 harg6 arg7 harg7 arg8 harg8 hc0 x0 x1 x2 x3 x4 xo6 xo7)]
  unfold kernelRun3_B
  dsimp only
  sl_unfold_words
  rw [View.canon_unit_zero hz2]
  simp only [View.readAt_eq_ld, harg1.read_unread, harg2.read_unread, harg3.read_unread, harg4.read_unread, harg5.read_unread, harg7.read_unread, harg8.read_unread, View.ld_unit_zero (S := S5000x128) hz2, View.ld_unit_zero (S := S128x128) hz2, View.ld_unit_zero (S := S1x128) hz2]

end Cert.KernelIdeal.Hand.R3

end
-- ==== Proof.KRegion3.lean ====
/-
  The value of the layer's linear-stage region: after its twenty points the output array holds
  `agg · Wl + bl + h · Wr` row by row, and the two accumulator arrays hold that matrix's column sums and the
  column sums of its squares. Each point writes one block of 5000 rows and adds that block's column sums to what the
  point before left; the column sum over all 100000 rows is the sum of the twenty blocks' sums taken in order.
-/
import proofs.«431466_j18562848654083_1_alg».proof.Proof.Gen.KernelIdeal.Frame
import proofs.«431466_j18562848654083_1_alg».proof.Proof.Spec
import proofs.«431466_j18562848654083_1_alg».proof.Proof.KRegion3Pay
import proofs.«431466_j18562848654083_1_alg».proof.Proof.KRegion3Pieces
import Idealize.ShloMosaic.Lib.ValueIdx
import Idealize.ShloMosaic.Lib.Pipeline.Value

set_option maxRecDepth 16384

noncomputable section

namespace Cert.KernelIdeal.Hand.R3

open Cert.KernelIdeal Cert.KernelIdeal.Gen Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## Sums over the rows, block by block -/

/-- A function of the rows, continued by zero past the last row. -/
def ext (f : Fin 100000 → EReal) (p : ℕ) : EReal := if h : p < 100000 then f ⟨p, h⟩ else 0

theorem ext_of_lt (f : Fin 100000 → EReal) (p : ℕ) (h : p < 100000) : ext f p = f ⟨p, h⟩ := dif_pos h

/-- The sum over the rows of the first `k` blocks of 5000. -/
def pre (f : Fin 100000 → EReal) (k : ℕ) : EReal := ∑ p ∈ Finset.range (5000 * k), ext f p

theorem pre_zero (f : Fin 100000 → EReal) : pre f 0 = 0 := by
  unfold pre
  rw [Nat.mul_zero, Finset.range_zero, Finset.sum_empty]

theorem pre_succ (f : Fin 100000 → EReal) (k : ℕ) :
    pre f (k + 1) = pre f k + ∑ r : Fin 5000, ext f (5000 * k + r.val) := by
  unfold pre
  rw [Nat.mul_succ, Finset.sum_range_add, Fin.sum_univ_eq_sum_range (fun r => ext f (5000 * k + r)) 5000]

/-- Twenty blocks are all the rows. -/
theorem pre_all (f : Fin 100000 → EReal) : pre f 20 = ∑ p : Fin 100000, f p := by
  unfold pre
  rw [show 5000 * 20 = 100000 from rfl, ← Fin.sum_univ_eq_sum_range (ext f) 100000]
  exact Finset.sum_congr rfl fun p _ => ext_of_lt f p.val p.isLt

section Region
variable (V : (c : Dev nD) → (b : Ref sig .tc) → Buf (Elt Ideal) ((c : Thread nD τ).loc b)) (c : Dev nD)

/-! ## The region's input arrays and their blocks, at their literal types -/

abbrev aggArr : FVec Ideal S100000x128 .f32 := V c (Pipeline.arrRef spec3 0)
abbrev hArr : FVec Ideal S100000x128 .f32 := V c (Pipeline.arrRef spec3 1)
abbrev wlArr : FVec Ideal S128x128 .f32 := V c (Pipeline.arrRef spec3 2)
abbrev blArr : FVec Ideal S1x128 .f32 := V c (Pipeline.arrRef spec3 3)
abbrev wrArr : FVec Ideal S128x128 .f32 := V c (Pipeline.arrRef spec3 4)

abbrev aBlk (t : Fin cfg3.N) : Vec Ideal S5000x128 .f32 := iblk3 V c 0 t
abbrev hBlk (t : Fin cfg3.N) : Vec Ideal S5000x128 .f32 := iblk3 V c 1 t
abbrev wlBlk (t : Fin cfg3.N) : Vec Ideal S128x128 .f32 := iblk3 V c 2 t
abbrev blBlk (t : Fin cfg3.N) : Vec Ideal S1x128 .f32 := iblk3 V c 3 t
abbrev wrBlk (t : Fin cfg3.N) : Vec Ideal S128x128 .f32 := iblk3 V c 4 t

/-- The linear stage of the whole arrays. -/
abbrev L3 : Mat 100000 128 :=
  lin (mat (aggArr V c)) (mat (hArr V c)) (mat (wlArr V c)) (fun j => blArr V c (ix2 0 j)) (mat (wrArr V c))

/-- The column sums of the linear stage, and of its squares, as `[1,128]` arrays. -/
abbrev sumArr : FVec Ideal S1x128 .f32 := fun i => colSum (L3 V c) (i 1)
abbrev sumSqArr : FVec Ideal S1x128 .f32 := fun i => colSumSq (L3 V c) (i 1)

/-- The block index maps over the grid: the two row-blocked inputs and the row-blocked output sit at block `t`, the
    weights, the bias and the two accumulators at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-! ## The blocks read off the arrays -/

theorem aBlk_apply (t : Fin cfg3.N) (r : Fin 5000) (q : Fin 128) (hp : 5000 * t.val + r.val < 100000) :
    aBlk V c t (ix2 r q) = aggArr V c (ix2 ⟨5000 * t.val + r.val, hp⟩ q) := by
  show V c (Pipeline.arrRef spec3 0) (((cfg3.win 0).blk t).view.emb (ix2 r q)) = V c (Pipeline.arrRef spec3 0) (ix2 ⟨5000 * t.val + r.val, hp⟩ q)
  obtain ⟨f0, f1, -⟩ := idx_facts3 t
  refine congrArg (V c (Pipeline.arrRef spec3 0)) (funext fun a => Fin.ext ?_)
  match a with
  | ⟨0, _⟩ => show win3_0.index t (0 : Fin 2) * 5000 + 1 * r.val = 5000 * t.val + r.val; omega
  | ⟨1, _⟩ => show win3_0.index t (1 : Fin 2) * 128 + 1 * q.val = q.val; omega

theorem hBlk_apply (t : Fin cfg3.N) (r : Fin 5000) (q : Fin 128) (hp : 5000 * t.val + r.val < 100000) :
    hBlk V c t (ix2 r q) = hArr V c (ix2 ⟨5000 * t.val + r.val, hp⟩ q) := by
  show V c (Pipeline.arrRef spec3 1) (((cfg3.win 1).blk t).view.emb (ix2 r q)) = V c (Pipeline.arrRef spec3 1) (ix2 ⟨5000 * t.val + r.val, hp⟩ q)
  obtain ⟨-, -, f0, f1, -⟩ := idx_facts3 t
  refine congrArg (V c (Pipeline.arrRef spec3 1)) (funext fun a => Fin.ext ?_)
  match a with
  | ⟨0, _⟩ => show win3_1.index t (0 : Fin 2) * 5000 + 1 * r.val = 5000 * t.val + r.val; omega
  | ⟨1, _⟩ => show win3_1.index t (1 : Fin 2) * 128 + 1 * q.val = q.val; omega

theorem wlBlk_apply (t : Fin cfg3.N) (q : Fin 128) (j : Fin 128) :
    wlBlk V c t (ix2 q j) = wlArr V c (ix2 q j) := by
  show V c (Pipeline.arrRef spec3 2) (((cfg3.win 2).blk t).view.emb (ix2 q j)) = V c (Pipeline.arrRef spec3 2) (ix2 q j)
  obtain ⟨-, -, -, -, f0, f1, -⟩ := idx_facts3 t
  refine congrArg (V c (Pipeline.arrRef spec3 2)) (funext fun a => Fin.ext ?_)
  match a with
  | ⟨0, _⟩ => show win3_2.index t (0 : Fin 2) * 128 + 1 * q.val = q.val; omega
  | ⟨1, _⟩ => show win3_2.index t (1 : Fin 2) * 128 + 1 * j.val = j.val; omega

theorem blBlk_apply (t : Fin cfg3.N) (j : Fin 128) :
    blBlk V c t (ix2 0 j) = blArr V c (ix2 0 j) := by
  show V c (Pipeline.arrRef spec3 3) (((cfg3.win 3).blk t).view.emb (ix2 0 j)) = V c (Pipeline.arrRef spec3 3) (ix2 0 j)
  obtain ⟨-, -, -, -, -, -, f0, f1, -⟩ := idx_facts3 t
  refine congrArg (V c (Pipeline.arrRef spec3 3)) (funext fun a => Fin.ext ?_)
  match a with
  | ⟨0, _⟩ => show win3_3.index t (0 : Fin 2) * 1 + 1 * 0 = 0; omega
  | ⟨1, _⟩ => show win3_3.index t (1 : Fin 2) * 128 + 1 * j.val = j.val; omega

theorem wrBlk_apply (t : Fin cfg3.N) (q : Fin 128) (j : Fin 128) :
    wrBlk V c t (ix2 q j) = wrArr V c (ix2 q j) := by
  show V c (Pipeline.arrRef spec3 4) (((cfg3.win 4).blk t).view.emb (ix2 q j)) = V c (Pipeline.arrRef spec3 4) (ix2 q j)
  obtain ⟨-, -, -, -, -, -, -, -, f0, f1, -⟩ := idx_facts3 t
  refine congrArg (V c (Pipeline.arrRef spec3 4)) (funext fun a => Fin.ext ?_)
  match a with
  | ⟨0, _⟩ => show win3_4.index t (0 : Fin 2) * 128 + 1 * q.val = q.val; omega
  | ⟨1, _⟩ => show win3_4.index t (1 : Fin 2) * 128 + 1 * j.val = j.val; omega

/-- The block the body stores at point `t` is rows `5000 t … 5000 t + 4999` of the linear stage. -/
theorem blockLin (t : Fin cfg3.N) (r : Fin 5000) (j : Fin 128) (hp : 5000 * t.val + r.val < 100000) :
    k3_pay4 (F := Ideal) (aBlk V c t) (hBlk V c t) (wlBlk V c t) (wrBlk V c t) (blBlk V c t) (ix2 r j) = L3 V c ⟨5000 * t.val + r.val, hp⟩ j := by
  refine (pay4_apply _ _ _ _ _ r j).trans ?_
  show _ = ((∑ q : Fin 128, aggArr V c (ix2 ⟨5000 * t.val + r.val, hp⟩ q) * wlArr V c (ix2 q j)) + blArr V c (ix2 0 j))
      + ∑ q : Fin 128, hArr V c (ix2 ⟨5000 * t.val + r.val, hp⟩ q) * wrArr V c (ix2 q j)
  refine congrArg₂ (· + ·) (congrArg₂ (· + ·) (Finset.sum_congr rfl fun q _ => ?_) ?_) (Finset.sum_congr rfl fun q _ => ?_)
  · exact congrArg₂ (· * ·) (aBlk_apply V c t r q hp) (wlBlk_apply V c t q j)
  · exact blBlk_apply V c t j
  · exact congrArg₂ (· * ·) (hBlk_apply V c t r q hp) (wrBlk_apply V c t q j)

/-! ## The three outputs' buffers, point by point -/

/-- At the first point: the block, and both accumulators reset to zero and then updated. -/
theorem outs_A (t : Fin cfg3.N) (h0 : t.val % 20 = 0) :
    outsAt3 V c t.val t.isLt
      = (k3_pay4 (F := Ideal) (aBlk V c t) (hBlk V c t) (wlBlk V c t) (wrBlk V c t) (blBlk V c t),
         k3_pay5 (F := Ideal) (aBlk V c t) (hBlk V c t) (wlBlk V c t) (wrBlk V c t) (blBlk V c t) (k3_pay2 (F := Ideal)),
         k3_pay1 (F := Ideal) (k3_pay6 (k3_pay3 (F := Ideal))) (k3_pay7 (aBlk V c t) (hBlk V c t) (wlBlk V c t) (wrBlk V c t) (blBlk V c t))) := by
  rw [outsAt3_A V c t h0,
    piece_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t),
    piece_A_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t),
    piece_A_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t)]

/-- At a later point: the block, and both accumulators updated from what the point before left. -/
theorem outs_B (t : Fin cfg3.N) (h0 : ¬t.val % 20 = 0) :
    outsAt3 V c t.val t.isLt
      = (k3_pay4 (F := Ideal) (aBlk V c t) (hBlk V c t) (wlBlk V c t) (wrBlk V c t) (blBlk V c t),
         k3_pay5 (F := Ideal) (aBlk V c t) (hBlk V c t) (wlBlk V c t) (wrBlk V c t) (blBlk V c t) (outsAt3 V c (t.val - 1) (Nat.lt_of_le_of_lt (Nat.sub_le _ _) t.isLt)).2.1,
         k3_pay1 (F := Ideal) (k3_pay6 (outsAt3 V c (t.val - 1) (Nat.lt_of_le_of_lt (Nat.sub_le _ _) t.isLt)).2.2) (k3_pay7 (aBlk V c t) (hBlk V c t) (wlBlk V c t) (wrBlk V c t) (blBlk V c t))) := by
  rw [outsAt3_B V c t h0,
    piece_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2,
    piece_B_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2,
    piece_B_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2]

/-- The column sum of the block at point `t`, and of its squares, as sums of the linear stage's rows. -/
theorem blockSum (t : Fin cfg3.N) (j : Fin 128) :
    ∑ r : Fin 5000, k3_pay4 (F := Ideal) (aBlk V c t) (hBlk V c t) (wlBlk V c t) (wrBlk V c t) (blBlk V c t) (ix2 r j)
      = ∑ r : Fin 5000, ext (fun p => L3 V c p j) (5000 * t.val + r.val) := by
  have hN : t.val < 20 := lt_of_lt_of_eq t.isLt (show cfg3.N = 20 from N_3)
  refine Finset.sum_congr rfl fun r _ => ?_
  have hp : 5000 * t.val + r.val < 100000 := by have := r.isLt; omega
  exact (blockLin V c t r j hp).trans (ext_of_lt (fun p => L3 V c p j) _ hp).symm

theorem blockSumSq (t : Fin cfg3.N) (j : Fin 128) :
    ∑ r : Fin 5000, k3_pay7 (F := Ideal) (aBlk V c t) (hBlk V c t) (wlBlk V c t) (wrBlk V c t) (blBlk V c t) (ix2 r j)
      = ∑ r : Fin 5000, ext (fun p => L3 V c p j * L3 V c p j) (5000 * t.val + r.val) := by
  have hN : t.val < 20 := lt_of_lt_of_eq t.isLt (show cfg3.N = 20 from N_3)
  refine Finset.sum_congr rfl fun r _ => ?_
  have hp : 5000 * t.val + r.val < 100000 := by have := r.isLt; omega
  refine (pay7_apply _ _ _ _ _ (ix2 r j)).trans ?_
  rw [blockLin V c t r j hp]
  exact (ext_of_lt (fun p => L3 V c p j * L3 V c p j) _ hp).symm

/-- After point `n` the first accumulator holds the column sums over the rows of blocks `0 … n`, the second those
    of the squares: by induction on the point. -/
theorem outs_inv : ∀ (n : ℕ) (h : n < cfg3.N),
    (∀ j : Fin 128, (outsAt3 V c n h).2.1 (ix2 0 j) = pre (fun p => L3 V c p j) (n + 1))
    ∧ (∀ j : Fin 128, (outsAt3 V c n h).2.2 (ix2 0 j) = pre (fun p => L3 V c p j * L3 V c p j) (n + 1))
  | 0, h => by
    rw [outs_A V c ⟨0, h⟩ rfl]
    dsimp only
    refine ⟨fun j => ?_, fun j => ?_⟩
    · refine (pay5_apply _ _ _ _ _ _ j).trans ?_
      rw [pay2_apply, zero_add, pre_succ, pre_zero, zero_add]
      exact blockSum V c ⟨0, h⟩ j
    · refine (pay1_apply _ _ j).trans ?_
      rw [pay6_eq, pay3_apply, zero_add, pre_succ, pre_zero, zero_add]
      exact blockSumSq V c ⟨0, h⟩ j
  | n + 1, h => by
    have hN : cfg3.N = 20 := N_3
    have hB : ¬(⟨n + 1, h⟩ : Fin cfg3.N).val % 20 = 0 := by dsimp only; omega
    obtain ⟨ih6, ih7⟩ := outs_inv n (Nat.lt_of_succ_lt h)
    rw [outs_B V c ⟨n + 1, h⟩ hB]
    dsimp only
    refine ⟨fun j => ?_, fun j => ?_⟩
    · refine (pay5_apply _ _ _ _ _ _ j).trans ?_
      rw [pre_succ]
      exact congrArg₂ (· + ·) (ih6 j) (blockSum V c ⟨n + 1, h⟩ j)
    · refine (pay1_apply _ _ j).trans ?_
      rw [pay6_eq, pre_succ]
      exact congrArg₂ (· + ·) (ih7 j) (blockSumSq V c ⟨n + 1, h⟩ j)

/-- The block the body stores at point `t`. -/
theorem outs_blk (t : Fin cfg3.N) :
    (outsAt3 V c t.val t.isLt).1 = k3_pay4 (F := Ideal) (aBlk V c t) (hBlk V c t) (wlBlk V c t) (wrBlk V c t) (blBlk V c t) := by
  by_cases h0 : t.val % 20 = 0
  · rw [outs_A V c t h0]
  · rw [outs_B V c t h0]

/-! ## From the blocks to the arrays -/

/-- What point `t` writes back to the output array is block `t` of the linear stage. -/
theorem flushed5_eq (t : Fin cfg3.N) :
    (dat3 (F := Ideal) V c).flushed 5 t = ((cfg3.win 5).blk t).view.read (Elt Ideal) (unmat (L3 V c)) := by
  have hN : t.val < 20 := lt_of_lt_of_eq t.isLt (show cfg3.N = 20 from N_3)
  show (cfg3.win 5).cut (grid3.coords t) ((dat3 (F := Ideal) V c).after 5 t) = _
  rw [after3_5, outs_blk V c t]
  obtain ⟨-, -, -, -, -, -, -, -, -, -, f0, f1, -⟩ := idx_facts3 t
  funext y
  have h0 : (y 0).val < 5000 := (y 0).isLt
  have h1 : (y 1).val < 128 := (y 1).isLt
  have hp : 5000 * t.val + (y 0).val < 100000 := by omega
  have hx : (cfg3.win 5).xinj (grid3.coords t) y = ix2 ⟨(y 0).val, h0⟩ ⟨(y 1).val, h1⟩ := funext fun a => by
    match a with
    | ⟨0, _⟩ => rfl
    | ⟨1, _⟩ => rfl
  show k3_pay4 (F := Ideal) (aBlk V c t) (hBlk V c t) (wlBlk V c t) (wrBlk V c t) (blBlk V c t) ((cfg3.win 5).xinj (grid3.coords t) y)
      = L3 V c ((((cfg3.win 5).blk t).view.emb y) 0) ((((cfg3.win 5).blk t).view.emb y) 1)
  rw [hx, blockLin V c t ⟨(y 0).val, h0⟩ ⟨(y 1).val, h1⟩ hp]
  refine congrArg₂ (L3 V c) (Fin.ext ?_) (Fin.ext ?_)
  · show 5000 * t.val + (y 0).val = win3_5.index t (0 : Fin 2) * 5000 + 1 * (y 0).val; omega
  · show (y 1).val = win3_5.index t (1 : Fin 2) * 128 + 1 * (y 1).val; omega

/-- An index of the output array is in point `t`'s block iff each coordinate is in the block's range on its axis. -/
theorem mem_blk5 (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v55_0).slice (win3_5.rect t)).set ↔ _
  rw [View.set_slice_whole, Rect.mem_set_unit]
  exact Iff.rfl

/-- The output array after the run: the linear stage, every row (row `p` is in the block of point `p / 5000`). -/
theorem final5 : (dat3 (F := Ideal) V c).arrAt 5 cfg3.N = unmat (L3 V c) :=
  (dat3 (F := Ideal) V c).arrAt_eq_of_cover 5 (unmat (L3 V c)) (fun t _ => flushed5_eq V c t) fun i => by
    have hi0 : (i 0).val < 100000 := (i 0).isLt
    have hi1 : (i 1).val < 128 := (i 1).isLt
    have hN : cfg3.N = 20 := N_3
    have ht : (i 0).val / 5000 < cfg3.N := by rw [hN]; omega
    obtain ⟨-, -, -, -, -, -, -, -, -, -, f0, f1, -⟩ := idx_facts3 ⟨(i 0).val / 5000, ht⟩
    refine ⟨⟨(i 0).val / 5000, ht⟩, flush3_5 _, ?_⟩
    rw [mem_blk5]
    intro a
    match a with
    | ⟨0, _⟩ =>
      show win3_5.index ⟨(i 0).val / 5000, ht⟩ (0 : Fin 2) * 5000 ≤ (i 0).val ∧ (i 0).val < win3_5.index ⟨(i 0).val / 5000, ht⟩ (0 : Fin 2) * 5000 + 5000
      rw [f0]
      show (i 0).val / 5000 * 5000 ≤ (i 0).val ∧ (i 0).val < (i 0).val / 5000 * 5000 + 5000
      omega
    | ⟨1, _⟩ =>
      show win3_5.index ⟨(i 0).val / 5000, ht⟩ (1 : Fin 2) * 128 ≤ (i 1).val ∧ (i 1).val < win3_5.index ⟨(i 0).val / 5000, ht⟩ (1 : Fin 2) * 128 + 128
      omega

theorem sumArr_apply (j : Fin 128) : sumArr V c (ix2 0 j) = colSum (L3 V c) j := rfl
theorem sumSqArr_apply (j : Fin 128) : sumSqArr V c (ix2 0 j) = colSumSq (L3 V c) j := rfl

/-- A block of an accumulator's array reads the array at the block's embedded index. -/
theorem read_blk6 (G : FVec Ideal S1x128 .f32) (t : Fin cfg3.N) (y : ((cfg3.win 6).xblock (grid3.coords t)).Idx) :
    ((cfg3.win 6).blk t).view.read (Elt Ideal) G y = G (((cfg3.win 6).blk t).view.emb y) := rfl

theorem read_blk7 (G : FVec Ideal S1x128 .f32) (t : Fin cfg3.N) (y : ((cfg3.win 7).xblock (grid3.coords t)).Idx) :
    ((cfg3.win 7).blk t).view.read (Elt Ideal) G y = G (((cfg3.win 7).blk t).view.emb y) := rfl

/-- The one write-back of the first accumulator, at the last point, writes the column sums over all the rows. -/
theorem flushed6_eq (t : Fin cfg3.N) (hf : (cfg3.win 6).flush t = true) :
    (dat3 (F := Ideal) V c).flushed 6 t = ((cfg3.win 6).blk t).view.read (Elt Ideal) (sumArr V c) := by
  have hN : cfg3.N = 20 := N_3
  have h19 : t.val = 19 := by have := (flush3_6 t).mp hf; have := t.isLt; omega
  show (cfg3.win 6).cut (grid3.coords t) ((dat3 (F := Ideal) V c).after 6 t) = _
  rw [after3_6]
  obtain ⟨-, -, -, -, -, -, -, -, -, -, -, -, f0, f1, -⟩ := idx_facts3 t
  funext y
  have h0 : (y 0).val < 1 := (y 0).isLt
  have h1 : (y 1).val < 128 := (y 1).isLt
  have hx : (cfg3.win 6).xinj (grid3.coords t) y = ix2 0 ⟨(y 1).val, h1⟩ := funext fun a => Fin.ext (by
    match a with
    | ⟨0, _⟩ => show (y 0).val = 0; omega
    | ⟨1, _⟩ => rfl)
  have he : ((cfg3.win 6).blk t).view.emb y = ix2 0 ⟨(y 1).val, h1⟩ := funext fun a => Fin.ext (by
    match a with
    | ⟨0, _⟩ => show win3_6.index t (0 : Fin 2) * 1 + 1 * (y 0).val = 0; omega
    | ⟨1, _⟩ => show win3_6.index t (1 : Fin 2) * 128 + 1 * (y 1).val = (y 1).val; omega)
  have hR1 : ((cfg3.win 6).blk t).view.read (Elt Ideal) (sumArr V c) y = sumArr V c (((cfg3.win 6).blk t).view.emb y) :=
    read_blk6 (sumArr V c) t y
  have hR2 : sumArr V c (((cfg3.win 6).blk t).view.emb y) = sumArr V c (ix2 0 ⟨(y 1).val, h1⟩) := congrArg (sumArr V c) he
  have hL : (cfg3.win 6).cut (grid3.coords t) (outsAt3 V c t.val t.isLt).2.1 y
      = (outsAt3 V c t.val t.isLt).2.1 (ix2 0 ⟨(y 1).val, h1⟩) :=
    congrArg (outsAt3 V c t.val t.isLt).2.1 hx
  rw [hR1, hR2, sumArr_apply V c ⟨(y 1).val, h1⟩, hL, (outs_inv V c t.val t.isLt).1 ⟨(y 1).val, h1⟩, h19]
  exact pre_all _

/-- The first accumulator array after the run: the linear stage's column sums. -/
theorem final6 : (dat3 (F := Ideal) V c).arrAt 6 cfg3.N = sumArr V c :=
  (dat3 (F := Ideal) V c).arrAt_eq_of_cover 6 (sumArr V c) (flushed6_eq V c) fun i => by
    have hi0 : (i 0).val < 1 := (i 0).isLt
    have hi1 : (i 1).val < 128 := (i 1).isLt
    have hN : cfg3.N = 20 := N_3
    have ht : 19 < cfg3.N := by rw [hN]; omega
    obtain ⟨-, -, -, -, -, -, -, -, -, -, -, -, f0, f1, -⟩ := idx_facts3 ⟨19, ht⟩
    refine ⟨⟨19, ht⟩, (flush3_6 ⟨19, ht⟩).mpr rfl, ?_⟩
    show i ∈ ((View.whole main_v55_1).slice (win3_6.rect ⟨19, ht⟩)).set
    rw [View.set_slice_whole, Rect.mem_set_unit]
    intro a
    match a with
    | ⟨0, _⟩ =>
      show win3_6.index ⟨19, ht⟩ (0 : Fin 2) * 1 ≤ (i 0).val ∧ (i 0).val < win3_6.index ⟨19, ht⟩ (0 : Fin 2) * 1 + 1
      omega
    | ⟨1, _⟩ =>
      show win3_6.index ⟨19, ht⟩ (1 : Fin 2) * 128 ≤ (i 1).val ∧ (i 1).val < win3_6.index ⟨19, ht⟩ (1 : Fin 2) * 128 + 128
      omega

/-- The one write-back of the second accumulator, at the last point, writes the column sums of squares over all the rows. -/
theorem flushed7_eq (t : Fin cfg3.N) (hf : (cfg3.win 7).flush t = true) :
    (dat3 (F := Ideal) V c).flushed 7 t = ((cfg3.win 7).blk t).view.read (Elt Ideal) (sumSqArr V c) := by
  have hN : cfg3.N = 20 := N_3
  have h19 : t.val = 19 := by have := (flush3_7 t).mp hf; have := t.isLt; omega
  show (cfg3.win 7).cut (grid3.coords t) ((dat3 (F := Ideal) V c).after 7 t) = _
  rw [after3_7]
  obtain ⟨-, -, -, -, -, -, -, -, -, -, -, -, -, -, f0, f1⟩ := idx_facts3 t
  funext y
  have h0 : (y 0).val < 1 := (y 0).isLt
  have h1 : (y 1).val < 128 := (y 1).isLt
  have hx : (cfg3.win 7).xinj (grid3.coords t) y = ix2 0 ⟨(y 1).val, h1⟩ := funext fun a => Fin.ext (by
    match a with
    | ⟨0, _⟩ => show (y 0).val = 0; omega
    | ⟨1, _⟩ => rfl)
  have he : ((cfg3.win 7).blk t).view.emb y = ix2 0 ⟨(y 1).val, h1⟩ := funext fun a => Fin.ext (by
    match a with
    | ⟨0, _⟩ => show win3_7.index t (0 : Fin 2) * 1 + 1 * (y 0).val = 0; omega
    | ⟨1, _⟩ => show win3_7.index t (1 : Fin 2) * 128 + 1 * (y 1).val = (y 1).val; omega)
  have hR1 : ((cfg3.win 7).blk t).view.read (Elt Ideal) (sumSqArr V c) y = sumSqArr V c (((cfg3.win 7).blk t).view.emb y) :=
    read_blk7 (sumSqArr V c) t y
  have hR2 : sumSqArr V c (((cfg3.win 7).blk t).view.emb y) = sumSqArr V c (ix2 0 ⟨(y 1).val, h1⟩) := congrArg (sumSqArr V c) he
  have hL : (cfg3.win 7).cut (grid3.coords t) (outsAt3 V c t.val t.isLt).2.2 y
      = (outsAt3 V c t.val t.isLt).2.2 (ix2 0 ⟨(y 1).val, h1⟩) :=
    congrArg (outsAt3 V c t.val t.isLt).2.2 hx
  rw [hR1, hR2, sumSqArr_apply V c ⟨(y 1).val, h1⟩, hL, (outs_inv V c t.val t.isLt).2 ⟨(y 1).val, h1⟩, h19]
  exact pre_all _

/-- The second accumulator array after the run: the column sums of the linear stage's squares. -/
theorem final7 : (dat3 (F := Ideal) V c).arrAt 7 cfg3.N = sumSqArr V c :=
  (dat3 (F := Ideal) V c).arrAt_eq_of_cover 7 (sumSqArr V c) (flushed7_eq V c) fun i => by
    have hi0 : (i 0).val < 1 := (i 0).isLt
    have hi1 : (i 1).val < 128 := (i 1).isLt
    have hN : cfg3.N = 20 := N_3
    have ht : 19 < cfg3.N := by rw [hN]; omega
    obtain ⟨-, -, -, -, -, -, -, -, -, -, -, -, -, -, f0, f1⟩ := idx_facts3 ⟨19, ht⟩
    refine ⟨⟨19, ht⟩, (flush3_7 ⟨19, ht⟩).mpr rfl, ?_⟩
    show i ∈ ((View.whole main_v55_2).slice (win3_7.rect ⟨19, ht⟩)).set
    rw [View.set_slice_whole, Rect.mem_set_unit]
    intro a
    match a with
    | ⟨0, _⟩ =>
      show win3_7.index ⟨19, ht⟩ (0 : Fin 2) * 1 ≤ (i 0).val ∧ (i 0).val < win3_7.index ⟨19, ht⟩ (0 : Fin 2) * 1 + 1
      omega
    | ⟨1, _⟩ =>
      show win3_7.index ⟨19, ht⟩ (1 : Fin 2) * 128 ≤ (i 1).val ∧ (i 1).val < win3_7.index ⟨19, ht⟩ (1 : Fin 2) * 128 + 128
      omega

end Region

/-- THE REGION'S VALUE: each of its three output arrays after the run, as one function of its five input arrays as the
    region finds them. -/
theorem region3_value (V : (c : Dev nD) → (b : Ref sig .tc) → Buf (Elt Ideal) ((c : Thread nD τ).loc b)) (c : Dev nD)
    (agg h : FVec Ideal S100000x128 .f32) (wl : FVec Ideal S128x128 .f32) (bl : FVec Ideal S1x128 .f32) (wr : FVec Ideal S128x128 .f32)
    (e0 : V c (Pipeline.arrRef spec3 0) = agg) (e1 : V c (Pipeline.arrRef spec3 1) = h) (e2 : V c (Pipeline.arrRef spec3 2) = wl) (e3 : V c (Pipeline.arrRef spec3 3) = bl) (e4 : V c (Pipeline.arrRef spec3 4) = wr) :
    (dat3 (F := Ideal) V c).arrAt 5 cfg3.N = unmat (lin (mat agg) (mat h) (mat wl) (fun j => bl (ix2 0 j)) (mat wr))
    ∧ (dat3 (F := Ideal) V c).arrAt 6 cfg3.N = (fun i => colSum (lin (mat agg) (mat h) (mat wl) (fun j => bl (ix2 0 j)) (mat wr)) (i 1) : FVec Ideal S1x128 .f32)
    ∧ (dat3 (F := Ideal) V c).arrAt 7 cfg3.N = (fun i => colSumSq (lin (mat agg) (mat h) (mat wl) (fun j => bl (ix2 0 j)) (mat wr)) (i 1) : FVec Ideal S1x128 .f32) := by
  subst e0 e1 e2 e3 e4
  exact ⟨final5 V c, final6 V c, final7 V c⟩

end Cert.KernelIdeal.Hand.R3

end
-- ==== Proof.KRegion4.lean ====
/-
  The value of the column-normalisation region: twenty blocks of 5000 rows of a 100000 × 128 array `x`, each
  normalised against four whole row vectors (mean `μ`, variance `v`, scale `g`, shift `β`) by
  `max (g · (x − μ) · rsqrt (v + ε) + β) 0`, written back block by block. First the body's arithmetic at one entry
  of a block; then where each block sits in its array (block `t` is rows `5000 t … 5000 t + 4999`, the row vectors
  are whole at every point); then the blocks fill the array (row `r` is in block `r / 5000`), so the array after
  the run is the normalised array entry by entry.
-/
import proofs.«431466_j18562848654083_1_alg».proof.Proof.Gen.KernelIdeal.Frame
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R4

open Cert.KernelIdeal Cert.KernelIdeal.Gen Cert.Spec Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The zero offsets of a whole-buffer access, as the constant function. -/
theorem zeroOff : (![0, 0] : Fin 2 → Nat) = fun _ => 0 := funext fun a => by fin_cases a <;> rfl

/-- A row vector spread over the rows of a block reads, at row `p` and column `q`, its entry of column `q`. -/
theorem rowSpread_apply (r : FVec Ideal S1x128 .f32) (h : S1x128.Broadcasts S5000x128) (p : Fin 5000) (q : Fin 128) :
    broadcastTo S5000x128 r h (ix2 p q) = r (ix2 0 q) :=
  broadcastTo_apply r h (ix2 p q) (ix2 0 q) (fun a => by
    match a with
    | ⟨0, _⟩ => rfl
    | ⟨1, _⟩ => rfl)

/-- The body's arithmetic at row `p`, column `q` of a block: the scale times the deviation from the mean, times the
    inverse root of the offset variance, plus the shift, rectified. -/
theorem normBlock_apply (x0 : Vec Ideal S5000x128 .f32) (g mu v be : Vec Ideal S1x128 .f32) (p : Fin 5000) (q : Fin 128) :
    k4_pay1 x0 g mu v be (ix2 p q)
      = max (g (ix2 0 q) * (x0 (ix2 p q) - mu (ix2 0 q)) * Ideal.rsqrt (v (ix2 0 q) + eps) + be (ix2 0 q)) 0 := by
  unfold k4_pay1
  simp only [shapeCast_self]
  rw [maximumf_apply, addf_apply, mulf_apply, mulf_apply, subf_apply, rowSpread_apply, rowSpread_apply, rowSpread_apply,
    rowSpread_apply]
  show max (g (ix2 0 q) * (x0 (ix2 p q) - mu (ix2 0 q)) * Ideal.rsqrt (v (ix2 0 q) + Ideal.ofBits .f32 0x3727C5AC#32)
      + be (ix2 0 q)) (Ideal.ofBits .f32 0x00000000#32) = _
  rw [Ideal.ofBits_zero_f32]
  rfl

/-- What the body leaves in the output's buffer, as one function of the five input blocks: the block of deviations
    scaled, shifted and rectified, row by row against the four row vectors. -/
theorem normBlock_eq (x0 : Vec Ideal S5000x128 .f32) (x1 x2 x3 x4 : Vec Ideal S1x128 .f32) :
    out4_5 x0 x1 x2 x3 x4 = fun j => max (x3 (ix2 0 (j 1)) * (x0 j - x1 (ix2 0 (j 1))) * Ideal.rsqrt (x2 (ix2 0 (j 1)) + eps)
      + x4 (ix2 0 (j 1))) 0 := by
  unfold out4_5
  rw [View.canon_unit_zero zeroOff]
  simp only [View.ld_unit_zero (S := S5000x128) zeroOff, View.ld_unit_zero (S := S1x128) zeroOff]
  funext j
  obtain ⟨p, q, rfl⟩ : ∃ (p : Fin 5000) (q : Fin 128), j = ix2 p q := ⟨j 0, j 1, eq_ix2 j⟩
  exact normBlock_apply x0 x3 x1 x2 x4 p q

/-- The normalised array: every column of `x` shifted by its mean, scaled, shifted and rectified. -/
abbrev normArr (x : FVec Ideal S100000x128 .f32) (mu v g be : FVec Ideal S1x128 .f32) : FVec Ideal S100000x128 .f32 :=
  unmat (bn (mat x) (fun j => mu (ix2 0 j)) (fun j => v (ix2 0 j)) (fun j => g (ix2 0 j)) (fun j => be (ix2 0 j)))

/-- The index maps over the grid: the block of rows moves with the point, the row vectors stay whole, the output's block
    is the input's. -/
theorem blockIdx : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Row `p` of block `t` is a row of the array. -/
theorem rowOf_lt (t : Fin cfg4.N) (p : Fin 5000) : t.val * 5000 + p.val < 100000 := by
  have ht : t.val < 20 := lt_of_lt_of_eq t.isLt (show cfg4.N = 20 from N_4)
  have hp : p.val < 5000 := p.isLt
  omega

/-- The output's block at point `t` sits at rows `5000 t … 5000 t + 4999`, all columns. -/
theorem outBlock_emb (t : Fin cfg4.N) (p : Fin 5000) (q : Fin 128) :
    ((cfg4.win 5).blk t).view.emb (ix2 p q) = ix2 (⟨t.val * 5000 + p.val, rowOf_lt t p⟩ : Fin 100000) q := by
  obtain ⟨f50, f51, -⟩ := blockIdx t
  funext a; apply Fin.ext
  match a with
  | ⟨0, _⟩ => show win4_5.index t (0 : Fin 2) * 5000 + 1 * p.val = t.val * 5000 + p.val; omega
  | ⟨1, _⟩ => show win4_5.index t (1 : Fin 2) * 128 + 1 * q.val = q.val; omega

/-- So does the input's block of `x`. -/
theorem inBlock_emb (t : Fin cfg4.N) (p : Fin 5000) (q : Fin 128) :
    ((cfg4.win 0).blk t).view.emb (ix2 p q) = ix2 (⟨t.val * 5000 + p.val, rowOf_lt t p⟩ : Fin 100000) q := by
  obtain ⟨-, -, f00, f01, -⟩ := blockIdx t
  funext a; apply Fin.ext
  match a with
  | ⟨0, _⟩ => show win4_0.index t (0 : Fin 2) * 5000 + 1 * p.val = t.val * 5000 + p.val; omega
  | ⟨1, _⟩ => show win4_0.index t (1 : Fin 2) * 128 + 1 * q.val = q.val; omega

/-- The mean's block at every point is the whole row vector … -/
theorem row1_emb (t : Fin cfg4.N) (q : Fin 128) : ((cfg4.win 1).blk t).view.emb (ix2 0 q) = ix2 (0 : Fin 1) q := by
  obtain ⟨-, -, -, -, f10, f11, -⟩ := blockIdx t
  funext a; apply Fin.ext
  match a with
  | ⟨0, _⟩ => show win4_1.index t (0 : Fin 2) * 1 + 1 * 0 = 0; omega
  | ⟨1, _⟩ => show win4_1.index t (1 : Fin 2) * 128 + 1 * q.val = q.val; omega

/-- … and so are the variance's … -/
theorem row2_emb (t : Fin cfg4.N) (q : Fin 128) : ((cfg4.win 2).blk t).view.emb (ix2 0 q) = ix2 (0 : Fin 1) q := by
  obtain ⟨-, -, -, -, -, -, f20, f21, -⟩ := blockIdx t
  funext a; apply Fin.ext
  match a with
  | ⟨0, _⟩ => show win4_2.index t (0 : Fin 2) * 1 + 1 * 0 = 0; omega
  | ⟨1, _⟩ => show win4_2.index t (1 : Fin 2) * 128 + 1 * q.val = q.val; omega

/-- … the scale's … -/
theorem row3_emb (t : Fin cfg4.N) (q : Fin 128) : ((cfg4.win 3).blk t).view.emb (ix2 0 q) = ix2 (0 : Fin 1) q := by
  obtain ⟨-, -, -, -, -, -, -, -, f30, f31, -⟩ := blockIdx t
  funext a; apply Fin.ext
  match a with
  | ⟨0, _⟩ => show win4_3.index t (0 : Fin 2) * 1 + 1 * 0 = 0; omega
  | ⟨1, _⟩ => show win4_3.index t (1 : Fin 2) * 128 + 1 * q.val = q.val; omega

/-- … and the shift's. -/
theorem row4_emb (t : Fin cfg4.N) (q : Fin 128) : ((cfg4.win 4).blk t).view.emb (ix2 0 q) = ix2 (0 : Fin 1) q := by
  obtain ⟨-, -, -, -, -, -, -, -, -, -, f40, f41⟩ := blockIdx t
  funext a; apply Fin.ext
  match a with
  | ⟨0, _⟩ => show win4_4.index t (0 : Fin 2) * 1 + 1 * 0 = 0; omega
  | ⟨1, _⟩ => show win4_4.index t (1 : Fin 2) * 128 + 1 * q.val = q.val; omega

section
variable (V : (c : Dev nD) → (b : Ref sig .tc) → Buf (Elt Ideal) ((c : Thread nD τ).loc b)) (c : Dev nD)
  (x : FVec Ideal S100000x128 .f32) (mu v g be : FVec Ideal S1x128 .f32)
  (e0 : V c (Pipeline.arrRef spec4 0) = x) (e1 : V c (Pipeline.arrRef spec4 1) = mu)
  (e2 : V c (Pipeline.arrRef spec4 2) = v) (e3 : V c (Pipeline.arrRef spec4 3) = g)
  (e4 : V c (Pipeline.arrRef spec4 4) = be)

include e0 e1 e2 e3 e4 in
/-- What point `t` writes back is block `t` of the normalised array. -/
theorem flushed_eq (t : Fin cfg4.N) :
    (dat4 (F := Ideal) V c).flushed 5 t = ((cfg4.win 5).blk t).view.read (Elt Ideal) (normArr x mu v g be) := by
  show (cfg4.win 5).cut (grid4.coords t) ((dat4 (F := Ideal) V c).after 5 t) = _
  rw [after4_5, normBlock_eq]
  unfold iblk4
  rw [e0, e1, e2, e3, e4]
  refine funext fun (j : S5000x128.Idx) => ?_
  obtain ⟨p, q, rfl⟩ : ∃ (p : Fin 5000) (q : Fin 128), j = ix2 p q := ⟨j 0, j 1, eq_ix2 j⟩
  show max (g (((cfg4.win 3).blk t).view.emb (ix2 0 q))
        * (x (((cfg4.win 0).blk t).view.emb (ix2 p q)) - mu (((cfg4.win 1).blk t).view.emb (ix2 0 q)))
        * Ideal.rsqrt (v (((cfg4.win 2).blk t).view.emb (ix2 0 q)) + eps)
        + be (((cfg4.win 4).blk t).view.emb (ix2 0 q))) 0
      = normArr x mu v g be (((cfg4.win 5).blk t).view.emb (ix2 p q))
  rw [row3_emb, inBlock_emb, row1_emb, row2_emb, row4_emb, outBlock_emb]
  rfl

end

/-- An index of the array is in point `t`'s block iff each coordinate is in the block's range on its axis. -/
theorem mem_outBlock (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v68).slice (win4_5.rect t)).set ↔ _
  rw [View.set_slice_whole, Rect.mem_set_unit]
  exact Iff.rfl

/-- Every row `r` of the array is in the block of point `r / 5000`: the twenty blocks of 5000 rows fill the 100000. -/
theorem covered (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  have ht : (i 0).val / 5000 < cfg4.N := by rw [hN]; omega
  obtain ⟨f50, f51, -⟩ := blockIdx ⟨(i 0).val / 5000, ht⟩
  have f50' : win4_5.index ⟨(i 0).val / 5000, ht⟩ (0 : Fin 2) = (i 0).val / 5000 := f50
  refine ⟨⟨(i 0).val / 5000, ht⟩, flush4_5 _, ?_⟩
  rw [mem_outBlock]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

/-- THE VALUE OF THE REGION: the output array after the run is the input array normalised column by column with the
    four row vectors the region is handed — `max (g · (x − μ) · rsqrt (v + ε) + β) 0` at every entry. -/
theorem region4_value (V : (c : Dev nD) → (b : Ref sig .tc) → Buf (Elt Ideal) ((c : Thread nD τ).loc b)) (c : Dev nD)
    (x : FVec Ideal S100000x128 .f32) (mu v g be : FVec Ideal S1x128 .f32)
    (e0 : V c (Pipeline.arrRef spec4 0) = x) (e1 : V c (Pipeline.arrRef spec4 1) = mu)
    (e2 : V c (Pipeline.arrRef spec4 2) = v) (e3 : V c (Pipeline.arrRef spec4 3) = g)
    (e4 : V c (Pipeline.arrRef spec4 4) = be) :
    (dat4 (F := Ideal) V c).arrAt 5 cfg4.N
      = unmat (bn (mat x) (fun j => mu (ix2 0 j)) (fun j => v (ix2 0 j)) (fun j => g (ix2 0 j)) (fun j => be (ix2 0 j))) :=
  (dat4 (F := Ideal) V c).arrAt_eq_of_cover 5 (normArr x mu v g be)
    (fun t _ => flushed_eq V c x mu v g be e0 e1 e2 e3 e4 t) covered

end Cert.KernelIdeal.Hand.R4

end
-- ==== Proof.KRegion5.lean ====
/-
  The value of the head region: the last dense layer of the network, one output column.
  Every block of 5000 rows of the node features is multiplied against the one weight column and the one bias entry is
  added; the change of float format on the way into the product is the identity on extended reals. Read index by
  index, the array the region leaves is the dense layer of the whole feature matrix: row `r` of the result lies in the
  block `r / 5000`, at row `r % 5000` of it, and the blocks tile the 100000 rows.
-/
import proofs.«431466_j18562848654083_1_alg».proof.Proof.Gen.KernelIdeal.Frame
import proofs.«431466_j18562848654083_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R5

open Cert.KernelIdeal Cert.KernelIdeal.Gen Cert.Spec Idealize.ShloMosaic Idealize.ShloMosaic.ValueIdx
open Idealize.ShloMosaic.TcCoe
open Idealize.ShloMosaic.Pipeline (Dat Cfg Window)
open scoped BigOperators

/-! ## The product's operand indices, axis by axis -/

/-- The left operand's row is the output's row. -/
theorem lhs_head_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl

/-- The left operand's column is the contracted coordinate. -/
theorem lhs_head_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q

/-- The right operand's row is the contracted coordinate. -/
theorem rhs_head_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q

/-- The right operand's column is the output's column. -/
theorem rhs_head_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-! ## The body's arithmetic at an index -/

/-- The block product into the zero accumulator, read at row `p`, column `q`: the sum over the 128 contracted
    coordinates of the products of the entries. -/
theorem head_matmul_apply (a : FVec Ideal S5000x128 .bf16) (b : FVec Ideal S128x1 .bf16) (p : Fin 5000) (q : Fin 1) :
    FloatOps.matmul dot_S5000x128_S128x1_S5000x1_1_0_0_1_n_n none a b (constant (F := Ideal) S5000x1 .f32 0x00000000#32) (ix2 p q)
      = ∑ k : Fin 128, a (ix2 p k) * b (ix2 k q) := by
  rw [Ideal.matmul_constant_zero_apply,
    ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q)
      ((contrEquiv1 dot_S5000x128_S128x1_S5000x1_1_0_0_1_n_n 128 rfl rfl).symm k) = ix2 p k := funext fun ax => Fin.ext (by
    match ax with
    | ⟨0, _⟩ => exact lhs_head_0 _ _
    | ⟨1, _⟩ => exact (lhs_head_1 _ _).trans hk)
  have er : dot_S5000x128_S128x1_S5000x1_1_0_0_1_n_n.rhsIdx (ix2 p q)
      ((contrEquiv1 dot_S5000x128_S128x1_S5000x1_1_0_0_1_n_n 128 rfl rfl).symm k) = ix2 k q := funext fun ax => Fin.ext (by
    match ax with
    | ⟨0, _⟩ => exact (rhs_head_0 _ _).trans hk
    | ⟨1, _⟩ => exact rhs_head_1 _ _)
  rw [el, er]

/-- The body's one stored value at row `p`, column `q` of its block: the row of the feature block against the weight
    column, plus the bias entry. -/
theorem head_pay_apply (x0 : Vec Ideal S5000x128 .f32) (x1 : Vec Ideal S128x1 .f32) (x2 : Vec Ideal S1x1 .f32)
    (p : Fin 5000) (q : Fin 1) :
    k5_pay1 (F := Ideal) x0 x1 x2 (ix2 p q) = (∑ k : Fin 128, x0 (ix2 p k) * x1 (ix2 k q)) + x2 (ix2 0 q) := by
  unfold k5_pay1
  rw [addf_apply]
  simp only [matmul]
  rw [head_matmul_apply, broadcastTo_1b_ab_apply, shapeCast_self, shapeCast_self]
  rfl

/-- The body's stored value at row `p`, column `q` of its block is the dense head at an index `i` of the whole output, once
    the three blocks are known to hold the rows, the weight column and the bias entry that `i` reads. -/
theorem head_point (x0 : Vec Ideal S5000x128 .f32) (x1 : Vec Ideal S128x1 .f32) (x2 : Vec Ideal S1x1 .f32)
    (h : FVec Ideal S100000x128 .f32) (wh : FVec Ideal S128x1 .f32) (bh : FVec Ideal S1x1 .f32)
    (p : Fin 5000) (q : Fin 1) (r : Fin 100000) (s : Fin 1)
    (h0 : ∀ k : Fin 128, x0 (ix2 p k) = h (ix2 r k))
    (h1 : ∀ k : Fin 128, x1 (ix2 k q) = wh (ix2 k s))
    (h2 : x2 (ix2 0 q) = bh (ix2 0 s)) :
    k5_pay1 (F := Ideal) x0 x1 x2 (ix2 p q) = unmat (dense (mat h) (mat wh) (fun j => bh (ix2 0 j))) (ix2 r s) := by
  rw [head_pay_apply]
  show _ = (∑ k : Fin 128, h (ix2 r k) * wh (ix2 k s)) + bh (ix2 0 s)
  rw [h2]
  exact congrArg (· + bh (ix2 0 s)) (Finset.sum_congr rfl fun k _ => by rw [h0 k, h1 k])

/-! ## From the blocks to the array -/

theorem head_zero_offsets : (![0, 0] : Fin 2 → Nat) = fun _ => 0 := funext fun a => by fin_cases a <;> rfl

/-- The block indices over the grid: the feature window and the output window sit at block `t` of the rows, the weight
    column and the bias entry at their one block. -/
theorem head_idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b))

/-- What point `t` writes back is block `t` of the dense head of the whole feature matrix. -/
theorem head_flushed_eq (c : Dev nD)
    (h : FVec Ideal S100000x128 .f32) (wh : FVec Ideal S128x1 .f32) (bh : FVec Ideal S1x1 .f32)
    (e0 : V c (Pipeline.arrRef spec5 0) = h) (e1 : V c (Pipeline.arrRef spec5 1) = wh) (e2 : V c (Pipeline.arrRef spec5 2) = bh)
    (t : Fin cfg5.N) :
    (dat5 (F := Ideal) V c).flushed 3 t
      = ((cfg5.win 3).blk t).view.read (Elt Ideal) (unmat (dense (mat h) (mat wh) (fun j => bh (ix2 0 j)))) := by
  show (cfg5.win 3).cut (grid5.coords t) ((dat5 (F := Ideal) V c).after 3 t) = _
  rw [after5_3]
  unfold out5_3
  rw [View.canon_unit_zero head_zero_offsets]
  simp only [View.ld_unit_zero (S := S5000x128) head_zero_offsets, View.ld_unit_zero (S := S128x1) head_zero_offsets,
    View.ld_unit_zero (S := S1x1) head_zero_offsets]
  obtain ⟨f0, f1, f2, f3, f4, f5, f6, f7⟩ := head_idx_facts t
  funext j
  obtain ⟨p, q, rfl⟩ : ∃ (p : Fin 5000) (q : Fin 1), j = ix2 p q := ⟨j 0, j 1, eq_ix2 j⟩
  have ht : t.val < 20 := t.isLt
  have hp : p.val < 5000 := p.isLt
  have hq : q.val < 1 := q.isLt
  have key : ((cfg5.win 3).blk t).view.emb (ix2 p q) = ix2 (⟨t.val * 5000 + p.val, by omega⟩ : Fin 100000) (0 : Fin 1) := by
    funext a; apply Fin.ext
    match a with
    | ⟨0, _⟩ => show win5_3.index t (0 : Fin 2) * 5000 + 1 * p.val = t.val * 5000 + p.val; omega
    | ⟨1, _⟩ => show win5_3.index t (1 : Fin 2) * 1 + 1 * q.val = 0; omega
  show k5_pay1 (F := Ideal) (iblk5 V c 0 t) (iblk5 V c 1 t) (iblk5 V c 2 t) (ix2 p q)
    = unmat (dense (mat h) (mat wh) (fun j => bh (ix2 0 j))) (((cfg5.win 3).blk t).view.emb (ix2 p q))
  rw [key]
  refine head_point _ _ _ h wh bh p q _ _ ?_ ?_ ?_
  · intro k
    show V c (Pipeline.arrRef spec5 0) (((cfg5.win 0).blk t).view.emb (ix2 p k)) = h _
    refine (congrFun e0 _).trans (congrArg h ?_)
    funext a; apply Fin.ext
    match a with
    | ⟨0, _⟩ => show win5_0.index t (0 : Fin 2) * 5000 + 1 * p.val = t.val * 5000 + p.val; omega
    | ⟨1, _⟩ => show win5_0.index t (1 : Fin 2) * 128 + 1 * k.val = k.val; omega
  · intro k
    show V c (Pipeline.arrRef spec5 1) (((cfg5.win 1).blk t).view.emb (ix2 k q)) = wh _
    refine (congrFun e1 _).trans (congrArg wh ?_)
    funext a; apply Fin.ext
    match a with
    | ⟨0, _⟩ => show win5_1.index t (0 : Fin 2) * 128 + 1 * k.val = k.val; omega
    | ⟨1, _⟩ => show win5_1.index t (1 : Fin 2) * 1 + 1 * q.val = 0; omega
  · show V c (Pipeline.arrRef spec5 2) (((cfg5.win 2).blk t).view.emb (ix2 0 q)) = bh _
    refine (congrFun e2 _).trans (congrArg bh ?_)
    funext a; apply Fin.ext
    match a with
    | ⟨0, _⟩ => show win5_2.index t (0 : Fin 2) * 1 + 1 * 0 = 0; omega
    | ⟨1, _⟩ => show win5_2.index t (1 : Fin 2) * 1 + 1 * q.val = 0; omega

/-- An index of the output array is in point `t`'s block iff each coordinate is in the block's range on its axis. -/
theorem head_mem_blk (t : Fin cfg5.N) (i : S100000x1.Idx) :
    i ∈ ((cfg5.win 3).blk t).view.set ↔ ∀ a : Fin 2, win5_3.index t a * S5000x1.size a ≤ (i a).val
      ∧ (i a).val < win5_3.index t a * S5000x1.size a + S5000x1.size a := by
  show i ∈ ((View.whole main_v70).slice (win5_3.rect t)).set ↔ _
  rw [View.set_slice_whole, Rect.mem_set_unit]
  exact Iff.rfl

/-- The blocks tile the rows: row `r` lies in the block of point `r / 5000`. -/
theorem head_cover (i : S100000x1.Idx) :
    ∃ t : Fin cfg5.N, (cfg5.win 3).flush t = true ∧ i ∈ ((cfg5.win 3).blk t).view.set := by
  have hi0 : (i 0).val < 100000 := (i 0).isLt
  have hi1 : (i 1).val < 1 := (i 1).isLt
  have hN : cfg5.N = 20 := by decide
  obtain ⟨t, ht⟩ : ∃ t : Fin cfg5.N, t.val = (i 0).val / 5000 := ⟨⟨(i 0).val / 5000, by rw [hN]; omega⟩, rfl⟩
  obtain ⟨f0, f1, f2, f3, f4, f5, f6, f7⟩ := head_idx_facts t
  refine ⟨t, flush5_3 t, ?_⟩
  rw [head_mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 1 ≤ (i 1).val ∧ (i 1).val < win5_3.index t (1 : Fin 2) * 1 + 1; omega

/-- THE ARRAY the head region leaves: the dense head of the whole feature matrix, whatever the region found in its
    output array. -/
theorem region5_value (c : Dev nD)
    (h : FVec Ideal S100000x128 .f32) (wh : FVec Ideal S128x1 .f32) (bh : FVec Ideal S1x1 .f32)
    (e0 : V c (Pipeline.arrRef spec5 0) = h) (e1 : V c (Pipeline.arrRef spec5 1) = wh) (e2 : V c (Pipeline.arrRef spec5 2) = bh) :
    (dat5 (F := Ideal) V c).arrAt 3 cfg5.N = unmat (dense (mat h) (mat wh) (fun j => bh (ix2 0 j))) :=
  (dat5 (F := Ideal) V c).arrAt_eq_of_cover 3 _ (fun t _ => head_flushed_eq V c h wh bh e0 e1 e2 t) head_cover

end Cert.KernelIdeal.Hand.R5

end
-- ==== Proof.KHostA.lean ====
/-
  What the host operations of the kernel-side program leave in the buffers the first three kernel regions read:
  each window's array at its region's entry, written as a function of the launch contents of the program's arguments
  and of what the preceding regions left in their output arrays. A host stretch that never writes a buffer leaves its
  contents alone, and so does a kernel region none of whose windows is that buffer; an input window's array leaves its
  region as it entered. The one computation of substance is the neighbour aggregation (a row gather with a fill
  value, a sum into the target nodes, a scaling by the inverse in-degree), which is the shared definition `aggK`
  operation for operation.
-/
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«431466_j18562848654083_1_alg».proof.Proof.Gen.KernelIdeal.Frame
import proofs.«431466_j18562848654083_1_alg».proof.Proof.Spec
import proofs.«431466_j18562848654083_1_alg».proof.Proof.AggDef

noncomputable section

namespace Cert.KernelIdeal.Hand.HA

open Idealize.ShloMosaic Idealize.ShloMosaic.TcCoe Idealize.ShloMosaic.Tactic
open Idealize.ShloMosaic.Pipeline (Dat Cfg Window BodyObligation cellOf)
open Cert.KernelIdeal Cert.KernelIdeal.Gen Cert.Spec Cert.AggDef Idealize.ShloMosaic.ValueIdx

variable (m : (ℓ : Loc nD τ sig) → Buf (Elt Ideal) ℓ) (ρ : Dev nD → PrngReg) (c : Dev nD)

/-- A buffer that no operation of a host stretch writes holds afterwards what it held before: the stretch's operations
    are listed, each one's result buffer is read off, and the buffer in question is told apart from every one of them. -/
local macro "host_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, Finset.mem_singleton]
             repeat' apply And.intro
             all_goals exact StableHlo.devRef_ne_of_ne (by decide)))

/-! ## Region 0's entry: the node features, the first weight matrix, and the first bias as a row -/

/-- The node features are the launch contents: the first host stretch writes none of the arguments. -/
theorem e0_x : V1 m ρ c main_arg0 = m ((c : Thread nD τ).loc main_arg0) := by
  show StableHlo.after hostOps0 (W0 m ρ c) (Proc.devRef .tc main_arg0) = W0 m ρ c (Proc.devRef .tc main_arg0)
  host_keeps hostOps0

/-- The first weight matrix is the launch contents. -/
theorem e0_w : V1 m ρ c main_arg2 = m ((c : Thread nD τ).loc main_arg2) := by
  show StableHlo.after hostOps0 (W0 m ρ c) (Proc.devRef .tc main_arg2) = W0 m ρ c (Proc.devRef .tc main_arg2)
  host_keeps hostOps0

/-- The first bias enters as a one-row matrix: the bias vector with a unit axis put in front. -/
theorem e0_b : (fun j : Fin 128 => (V1 m ρ c main_v13 : FVec Ideal S1x128 .f32) (ix2 0 j))
    = vec (m ((c : Thread nD τ).loc main_arg3)) := by
  have e : (V1 m ρ c main_v13 : FVec Ideal S1x128 .f32)
      = shapeCast S1x128 (m ((c : Thread nD τ).loc main_arg3) : FVec Ideal S128 .f32) shapeCasts_S128_S1x128 := by
    show StableHlo.after hostOps0 (W0 m ρ c) (Proc.devRef .tc main_v13) = _
    after_results
    rfl
  funext j
  rw [e]
  exact shapeCast_a_1a_apply _ _ 0 j

/-! ## Buffers carried from the launch: an argument is written by no host operation and is the output of no region -/

/-- The edge list when region 0 is entered is the launch contents. -/
theorem w0_edges : W0 m ρ c (Proc.devRef .tc main_arg1) = m ((c : Thread nD τ).loc main_arg1) := rfl

/-- An argument's contents at region 0's exit are the launch contents: the first host stretch does not write it and it is
    no window of region 0. -/
theorem w2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by host_keeps hostOps0
theorem w2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by host_keeps hostOps0
theorem w2_arg6 : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by host_keeps hostOps0

/-! ## What the first host stretch computes from the edge list -/

/-- The edges' sources: row 0 of the edge list, as a vector. -/
theorem w1_src : (W1 m ρ c (Proc.devRef .tc main_v1) : IVec S640000 32) = srcOf (m ((c : Thread nD τ).loc main_arg1)) := by
  show StableHlo.after hostOps0 (W0 m ρ c) (Proc.devRef .tc main_v1) = _
  after_results
  rfl

/-- The edges' targets: row 1 of the edge list, as a vector. -/
theorem w1_dst : (W1 m ρ c (Proc.devRef .tc main_v3) : IVec S640000 32) = dstOf (m ((c : Thread nD τ).loc main_arg1)) := by
  show StableHlo.after hostOps0 (W0 m ρ c) (Proc.devRef .tc main_v3) = _
  after_results
  rfl

/-- The inverse in-degree column: one unit per edge summed at its target, clamped below by one, inverted. -/
theorem w1_inv : (W1 m ρ c (Proc.devRef .tc main_v12) : FVec Ideal S100000x1 .f32) = invdeg (m ((c : Thread nD τ).loc main_arg1)) := by
  show StableHlo.after hostOps0 (W0 m ρ c) (Proc.devRef .tc main_v12) = _
  after_results
  rfl

/-! ## The same across region 0 (none of whose windows they are) and across the gather's host stretch (which reads, never writes, them) -/

theorem w2_src : (W2 m ρ c (Proc.devRef .tc main_v1) : IVec S640000 32) = srcOf (m ((c : Thread nD τ).loc main_arg1)) :=
  (W2_of_ne m ρ c main_v1 (by decide)).trans (w1_src m ρ c)

theorem w3_dst : (W3 m ρ c (Proc.devRef .tc main_v3) : IVec S640000 32) = dstOf (m ((c : Thread nD τ).loc main_arg1)) :=
  calc W3 m ρ c (Proc.devRef .tc main_v3)
    _ = W2 m ρ c (Proc.devRef .tc main_v3) := by host_keeps hostOps1
    _ = W1 m ρ c (Proc.devRef .tc main_v3) := W2_of_ne m ρ c main_v3 (by decide)
    _ = _ := w1_dst m ρ c

theorem w3_inv : (W3 m ρ c (Proc.devRef .tc main_v12) : FVec Ideal S100000x1 .f32) = invdeg (m ((c : Thread nD τ).loc main_arg1)) :=
  calc W3 m ρ c (Proc.devRef .tc main_v12)
    _ = W2 m ρ c (Proc.devRef .tc main_v12) := by host_keeps hostOps1
    _ = W1 m ρ c (Proc.devRef .tc main_v12) := W2_of_ne m ρ c main_v12 (by decide)
    _ = _ := w1_inv m ρ c

/-! ## The gather with its fill value: the second host stretch -/

/-- The gathered rows: a negative source counted from the end, the row of region 0's output at that index, and the fill
    value in the rows whose index is out of range. -/
theorem w3_rows : (W3 m ρ c (Proc.devRef .tc main_v15) : FVec Ideal S640000x128 .f32)
    = rowsK (m ((c : Thread nD τ).loc main_arg1)) (V2 m ρ c main_v14) := by
  dsimp only [W3]
  after_results_simp
  simp only [StableHlo.TRef.ofBuf, StableHlo.TRef.toBuf, cast_eq]
  rw [w2_src]
  rfl

/-! ## Region 1's entry -/

/-- The third host stretch at the aggregate's buffer, from any contents before it: the rows (read where the gather left
    them) summed into the targets from zero, times the inverse in-degree column spread over the features. -/
theorem agg_step (W : Valuation τ sig (Elt Ideal)) :
    (StableHlo.after hostOps1_1 W (Proc.devRef .tc main_v20) : FVec Ideal S100000x128 .f32)
      = mulf (Host.scatterAdd scatter_S100000x128_S640000x1_S640000x128_1_0_0_1
                (broadcastInDim S100000x128 ![] bcast_S_S100000x128 (constant (F := Ideal) S_ .f32 0x00000000#32))
                (broadcastInDim S640000x1 ![0] bcast_S640000_S640000x1_0 (W (Proc.devRef .tc main_v3) : IVec S640000 32))
                (W (Proc.devRef .tc main_v15) : FVec Ideal S640000x128 .f32))
          (broadcastInDim S100000x128 ![0, 1] bcast_S100000x1_S100000x128_0_1
            (W (Proc.devRef .tc main_v12) : FVec Ideal S100000x1 .f32)) := by
  after_results

/-- The aggregate: the gathered rows summed into the edges' targets from zero, every node's sum scaled by its inverse
    in-degree — the shared definition, read off the launch contents of the edge list and region 0's output. -/
theorem e1_agg : V4 m ρ c main_v20 = aggK (m ((c : Thread nD τ).loc main_arg1)) (V2 m ρ c main_v14) := by
  show StableHlo.after hostOps1_1 (W3 m ρ c) (Proc.devRef .tc main_v20) = _
  rw [agg_step, w3_rows, w3_dst, w3_inv]
  rfl

/-- Region 0's output is still in place: neither host stretch between the two regions writes it. -/
theorem e1_h : V4 m ρ c main_v14 = V2 m ρ c main_v14 :=
  calc W4 m ρ c (Proc.devRef .tc main_v14)
    _ = W3 m ρ c (Proc.devRef .tc main_v14) := by host_keeps hostOps1_1
    _ = W2 m ρ c (Proc.devRef .tc main_v14) := by host_keeps hostOps1

/-- Slice 0 of a stack of two matrices, its unit axis dropped, read at `(k, j)`. -/
theorem slice0_mat (x : FVec Ideal S2x128x128 .f32) (k j : Fin 128) :
    shapeCast S128x128 (extractStridedSlice S1x128x128 ![0, 0, 0] x slices_S2x128x128_S1x128x128_0_0_0)
      shapeCasts_S1x128x128_S128x128 (ix2 k j) = x (ix3 0 k j) := by
  rw [shapeCast_1ab_ab_apply]
  exact extractStridedSlice_apply _ x _ _ _ fun a => match a with
    | ⟨0, _⟩ => rfl
    | ⟨1, _⟩ => (Nat.zero_add _).symm
    | ⟨2, _⟩ => (Nat.zero_add _).symm

/-- Row 0 of a stack of two vectors, flattened and given a unit axis again, read at `(0, j)`. -/
theorem slice0_row (x : FVec Ideal S2x128 .f32) (j : Fin 128) :
    shapeCast S1x128 (shapeCast S128 (extractStridedSlice S1x128 ![0, 0] x slices_S2x128_S1x128_0_0) shapeCasts_S1x128_S128)
      shapeCasts_S128_S1x128 (ix2 0 j) = x (ix2 0 j) := by
  rw [shapeCast_a_1a_apply, shapeCast_1a_a_apply]
  exact extractStridedSlice_apply _ x _ _ _ fun a => match a with
    | ⟨0, _⟩ => rfl
    | ⟨1, _⟩ => (Nat.zero_add _).symm

/-- The first layer's left weight matrix: slice 0 of the stacked left weights. -/
theorem e1_wl : mat (V4 m ρ c main_v22 : FVec Ideal S128x128 .f32)
    = fun k j => (m ((c : Thread nD τ).loc main_arg4) : FVec Ideal S2x128x128 .f32) (ix3 0 k j) := by
  have e : (V4 m ρ c main_v22 : FVec Ideal S128x128 .f32)
      = shapeCast S128x128 (extractStridedSlice S1x128x128 ![0, 0, 0]
          (m ((c : Thread nD τ).loc main_arg4) : FVec Ideal S2x128x128 .f32) slices_S2x128x128_S1x128x128_0_0_0)
          shapeCasts_S1x128x128_S128x128 := by
    show StableHlo.after hostOps1_1 (W3 m ρ c) (Proc.devRef .tc main_v22) = _
    after_results
    rw [w2_arg4]
    rfl
  funext k j
  show (V4 m ρ c main_v22 : FVec Ideal S128x128 .f32) (ix2 k j) = _
  rw [e]
  exact slice0_mat _ k j

/-- The first layer's bias as a row: row 0 of the stacked biases. -/
theorem e1_bl : (fun j : Fin 128 => (V4 m ρ c main_v25 : FVec Ideal S1x128 .f32) (ix2 0 j))
    = fun j => (m ((c : Thread nD τ).loc main_arg5) : FVec Ideal S2x128 .f32) (ix2 0 j) := by
  have e : (V4 m ρ c main_v25 : FVec Ideal S1x128 .f32)
      = shapeCast S1x128 (shapeCast S128 (extractStridedSlice S1x128 ![0, 0]
          (m ((c : Thread nD τ).loc main_arg5) : FVec Ideal S2x128 .f32) slices_S2x128_S1x128_0_0) shapeCasts_S1x128_S128)
          shapeCasts_S128_S1x128 := by
    show StableHlo.after hostOps1_1 (W3 m ρ c) (Proc.devRef .tc main_v25) = _
    after_results
    rw [w2_arg5]
    rfl
  funext j
  rw [e]
  exact slice0_row _ j

/-- The first layer's right weight matrix: slice 0 of the stacked right weights. -/
theorem e1_wr : mat (V4 m ρ c main_v27 : FVec Ideal S128x128 .f32)
    = fun k j => (m ((c : Thread nD τ).loc main_arg6) : FVec Ideal S2x128x128 .f32) (ix3 0 k j) := by
  have e : (V4 m ρ c main_v27 : FVec Ideal S128x128 .f32)
      = shapeCast S128x128 (extractStridedSlice S1x128x128 ![0, 0, 0]
          (m ((c : Thread nD τ).loc main_arg6) : FVec Ideal S2x128x128 .f32) slices_S2x128x128_S1x128x128_0_0_0)
          shapeCasts_S1x128x128_S128x128 := by
    show StableHlo.after hostOps1_1 (W3 m ρ c) (Proc.devRef .tc main_v27) = _
    after_results
    rw [w2_arg6]
    rfl
  funext k j
  show (V4 m ρ c main_v27 : FVec Ideal S128x128 .f32) (ix2 k j) = _
  rw [e]
  exact slice0_mat _ k j

/-! ## Region 2's entry -/

/-- An argument's contents at region 1's exit are the launch contents: no host stretch so far and neither region writes it. -/
theorem w5_arg7 : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := by host_keeps hostOps1_1
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
theorem w5_arg8 : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := by host_keeps hostOps1_1
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0

/-- Region 1's first output is still in place: the host stretch before region 2 does not write it. -/
theorem e2_x : V6 m ρ c main_v28_0 = V5 m ρ c main_v28_0 := by
  show StableHlo.after hostOps2 (W5 m ρ c) (Proc.devRef .tc main_v28_0) = W5 m ρ c (Proc.devRef .tc main_v28_0)
  host_keeps hostOps2

/-- The column means: region 1's column sums divided by the node count. -/
theorem e2_mu : (fun j : Fin 128 => (V6 m ρ c main_v30 : FVec Ideal S1x128 .f32) (ix2 0 j))
    = fun j => Ideal.div ((V5 m ρ c main_v28_1 : FVec Ideal S1x128 .f32) (ix2 0 j)) cN := by
  have e : (V6 m ρ c main_v30 : FVec Ideal S1x128 .f32)
      = Host.divf (V5 m ρ c main_v28_1 : FVec Ideal S1x128 .f32)
          (broadcastInDim S1x128 ![] bcast_S_S1x128 (constant (F := Ideal) S_ .f32 0x47C35000#32)) := by
    show StableHlo.after hostOps2 (W5 m ρ c) (Proc.devRef .tc main_v30) = _
    after_results
  funext j
  rw [e]
  rfl

/-- The column variances: the mean of the squares (region 1's column sums of squares divided by the node count) minus
    the square of the mean. -/
theorem e2_var : (fun j : Fin 128 => (V6 m ρ c main_v34 : FVec Ideal S1x128 .f32) (ix2 0 j))
    = fun j => Ideal.div ((V5 m ρ c main_v28_2 : FVec Ideal S1x128 .f32) (ix2 0 j)) cN
        - Ideal.div ((V5 m ρ c main_v28_1 : FVec Ideal S1x128 .f32) (ix2 0 j)) cN
          * Ideal.div ((V5 m ρ c main_v28_1 : FVec Ideal S1x128 .f32) (ix2 0 j)) cN := by
  have e : (V6 m ρ c main_v34 : FVec Ideal S1x128 .f32)
      = subf (Host.divf (V5 m ρ c main_v28_2 : FVec Ideal S1x128 .f32)
                (broadcastInDim S1x128 ![] bcast_S_S1x128 (constant (F := Ideal) S_ .f32 0x47C35000#32)))
          (mulf (Host.divf (V5 m ρ c main_v28_1 : FVec Ideal S1x128 .f32)
                  (broadcastInDim S1x128 ![] bcast_S_S1x128 (constant (F := Ideal) S_ .f32 0x47C35000#32)))
                (Host.divf (V5 m ρ c main_v28_1 : FVec Ideal S1x128 .f32)
                  (broadcastInDim S1x128 ![] bcast_S_S1x128 (constant (F := Ideal) S_ .f32 0x47C35000#32)))) := by
    show StableHlo.after hostOps2 (W5 m ρ c) (Proc.devRef .tc main_v34) = _
    after_results
  funext j
  rw [e]
  rfl

/-- The first layer's scale as a row: row 0 of the stacked scales. -/
theorem e2_g : (fun j : Fin 128 => (V6 m ρ c main_v37 : FVec Ideal S1x128 .f32) (ix2 0 j))
    = fun j => (m ((c : Thread nD τ).loc main_arg7) : FVec Ideal S2x128 .f32) (ix2 0 j) := by
  have e : (V6 m ρ c main_v37 : FVec Ideal S1x128 .f32)
      = shapeCast S1x128 (shapeCast S128 (extractStridedSlice S1x128 ![0, 0]
          (m ((c : Thread nD τ).loc main_arg7) : FVec Ideal S2x128 .f32) slices_S2x128_S1x128_0_0) shapeCasts_S1x128_S128)
          shapeCasts_S128_S1x128 := by
    show StableHlo.after hostOps2 (W5 m ρ c) (Proc.devRef .tc main_v37) = _
    after_results
    rw [w5_arg7]
    rfl
  funext j
  rw [e]
  exact slice0_row _ j

/-- The first layer's shift as a row: row 0 of the stacked shifts. -/
theorem e2_be : (fun j : Fin 128 => (V6 m ρ c main_v40 : FVec Ideal S1x128 .f32) (ix2 0 j))
    = fun j => (m ((c : Thread nD τ).loc main_arg8) : FVec Ideal S2x128 .f32) (ix2 0 j) := by
  have e : (V6 m ρ c main_v40 : FVec Ideal S1x128 .f32)
      = shapeCast S1x128 (shapeCast S128 (extractStridedSlice S1x128 ![0, 0]
          (m ((c : Thread nD τ).loc main_arg8) : FVec Ideal S2x128 .f32) slices_S2x128_S1x128_0_0) shapeCasts_S1x128_S128)
          shapeCasts_S128_S1x128 := by
    show StableHlo.after hostOps2 (W5 m ρ c) (Proc.devRef .tc main_v40) = _
    after_results
    rw [w5_arg8]
    rfl
  funext j
  rw [e]
  exact slice0_row _ j

end Cert.KernelIdeal.Hand.HA

end
-- ==== Proof.KHostB.lean ====
/-
  The contents of the buffers the later kernel regions read, at each region's entry, as functions of the launch
  contents and of what the earlier regions left: the aggregation of the second layer, the second layer's weights
  and biases, the column mean and variance the normalisation reads, the head's weight and bias, and the final
  reshape of the head's column to a vector.
-/
import proofs.«431466_j18562848654083_1_alg».proof.Proof.Gen.KernelIdeal.Frame
import proofs.«431466_j18562848654083_1_alg».proof.Proof.Spec
import proofs.«431466_j18562848654083_1_alg».proof.Proof.AggDef
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 1276

noncomputable section

namespace Cert.KernelIdeal.Hand.HB

open Cert.KernelIdeal Cert.KernelIdeal.Gen Cert.Spec Idealize.ShloMosaic Idealize.ShloMosaic.TcCoe Idealize.ShloMosaic.ValueIdx
open Cert.AggDef (aggK aggOf rowsK inRange srcCol dstCol invdeg deg wrap srcOf dstOf)

variable (m : (ℓ : Loc nD τ sig) → Buf (Elt Ideal) ℓ) (ρ : Dev nD → PrngReg) (c : Dev nD)

/-- A host stretch leaves a buffer none of its operations writes as it was. -/
macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-! ## Layout reads: a slice of a stack with its unit axis dropped, and a column as a vector -/

/-- The second of two stacked matrices, its unit axis dropped, read at `(k, j)`. -/
theorem stack_mat {α : Type} (x : S2x128x128.Idx → α) (h1 : S2x128x128.Slices ![1, 0, 0] S1x128x128)
    (h2 : S1x128x128.ShapeCasts S128x128) (k j : Fin 128) :
    shapeCast S128x128 (extractStridedSlice S1x128x128 ![1, 0, 0] x h1) h2 (ix2 k j) = x (ix3 1 k j) :=
  (shapeCast_1ab_ab_apply (extractStridedSlice S1x128x128 ![1, 0, 0] x h1) h2 k j).trans
    (extractStridedSlice_apply _ _ _ _ _ (fun a => by
      match a with
      | ⟨0, _⟩ => rfl
      | ⟨1, _⟩ => exact (Nat.zero_add _).symm
      | ⟨2, _⟩ => exact (Nat.zero_add _).symm))

/-- The second of two stacked rows, flattened and given its unit axis back, read at `(0, j)`. -/
theorem stack_row {α : Type} (x : S2x128.Idx → α) (h1 : S2x128.Slices ![1, 0] S1x128) (h2 : S1x128.ShapeCasts S128)
    (h3 : S128.ShapeCasts S1x128) (j : Fin 128) :
    shapeCast S1x128 (shapeCast S128 (extractStridedSlice S1x128 ![1, 0] x h1) h2) h3 (ix2 0 j) = x (ix2 1 j) :=
  (shapeCast_a_1a_apply _ h3 0 j).trans
    ((shapeCast_1a_a_apply _ h2 j).trans (slice2_axis0_apply 1 x h1 0 j 1 rfl))

/-- A one-entry vector given a unit axis, read at `(0, j)`. -/
theorem unit_row {α : Type} (x : S1.Idx → α) (h : S1.ShapeCasts S1x1) (j : Fin 1) :
    shapeCast S1x1 x h (ix2 0 j) = x (ix1 j) :=
  shapeCast_a_1a_apply x h 0 j

/-- A one-column matrix flattened is the vector of its column. -/
theorem col_vec {α : Type} (x : S100000x1.Idx → α) (h : S100000x1.ShapeCasts S100000) (i : S100000.Idx) :
    shapeCast S100000 x h i = x (ix2 (i 0) 0) :=
  shapeCast_apply x h i (ix2 (i 0) 0) (by
    rw [Shape.rowMajor_val_two, Shape.rowMajor_val_one]
    show (i 0).val * 1 + 0 = (i 0).val
    omega)

/-! ## The edge list's rows and the inverse in-degree: computed once from the edge list, before the first region -/

/-- The sources' row, as the first host operations leave it. -/
theorem W1_v1 : W1 m ρ c (Proc.devRef .tc main_v1) = srcOf (m ((c : Thread nD τ).loc main_arg1)) := by
  show StableHlo.after hostOps0 (W0 m ρ c) (Proc.devRef .tc main_v1) = _
  after_results
  rfl

/-- The targets' row. -/
theorem W1_v3 : W1 m ρ c (Proc.devRef .tc main_v3) = dstOf (m ((c : Thread nD τ).loc main_arg1)) := by
  show StableHlo.after hostOps0 (W0 m ρ c) (Proc.devRef .tc main_v3) = _
  after_results
  rfl

/-- The inverse of the in-degree clamped below by one, as a column. -/
theorem W1_v12 : W1 m ρ c (Proc.devRef .tc main_v12) = invdeg (m ((c : Thread nD τ).loc main_arg1)) := by
  show StableHlo.after hostOps0 (W0 m ρ c) (Proc.devRef .tc main_v12) = _
  after_results
  rfl

/-! ## Nothing between the first region's entry and the second aggregation writes them -/

/-- The sources' row is still there when the second gather reads it. -/
theorem W7_v1_W1 : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := by host_keeps hostOps2
    _ = W4 m ρ c (Proc.devRef .tc main_v1) := W5_of_ne m ρ c main_v1 (by decide)
    _ = W3 m ρ c (Proc.devRef .tc main_v1) := by host_keeps hostOps1_1
    _ = W2 m ρ c (Proc.devRef .tc main_v1) := by host_keeps hostOps1
    _ = W1 m ρ c (Proc.devRef .tc main_v1) := W2_of_ne m ρ c main_v1 (by decide)

/-- The targets' row is still there when the second scatter reads it. -/
theorem W8_v3_W1 : W8 m ρ c (Proc.devRef .tc main_v3) = W1 m ρ c (Proc.devRef .tc main_v3) :=
  calc W8 m ρ c (Proc.devRef .tc main_v3)
    _ = W7 m ρ c (Proc.devRef .tc main_v3) := by host_keeps hostOps3
    _ = W6 m ρ c (Proc.devRef .tc main_v3) := W7_of_ne m ρ c main_v3 (by decide)
    _ = W5 m ρ c (Proc.devRef .tc main_v3) := by host_keeps hostOps2
    _ = W4 m ρ c (Proc.devRef .tc main_v3) := W5_of_ne m ρ c main_v3 (by decide)
    _ = W3 m ρ c (Proc.devRef .tc main_v3) := by host_keeps hostOps1_1
    _ = W2 m ρ c (Proc.devRef .tc main_v3) := by host_keeps hostOps1
    _ = W1 m ρ c (Proc.devRef .tc main_v3) := W2_of_ne m ρ c main_v3 (by decide)

/-- The inverse in-degree column is still there when the second aggregation scales by it. -/
theorem W8_v12_W1 : W8 m ρ c (Proc.devRef .tc main_v12) = W1 m ρ c (Proc.devRef .tc main_v12) :=
  calc W8 m ρ c (Proc.devRef .tc main_v12)
    _ = W7 m ρ c (Proc.devRef .tc main_v12) := by host_keeps hostOps3
    _ = W6 m ρ c (Proc.devRef .tc main_v12) := W7_of_ne m ρ c main_v12 (by decide)
    _ = W5 m ρ c (Proc.devRef .tc main_v12) := by host_keeps hostOps2
    _ = W4 m ρ c (Proc.devRef .tc main_v12) := W5_of_ne m ρ c main_v12 (by decide)
    _ = W3 m ρ c (Proc.devRef .tc main_v12) := by host_keeps hostOps1_1
    _ = W2 m ρ c (Proc.devRef .tc main_v12) := by host_keeps hostOps1
    _ = W1 m ρ c (Proc.devRef .tc main_v12) := W2_of_ne m ρ c main_v12 (by decide)

/-- The gather of the second aggregation leaves the first layer's features as they were. -/
theorem W8_v41 : W8 m ρ c (Proc.devRef .tc main_v41) = W7 m ρ c (Proc.devRef .tc main_v41) := by host_keeps hostOps3

/-! ## The second gather, in three steps: the wrapped sources as an index column, the column's range test, the filled
    gather by the column -/

section Take

variable {F : FTy → Type} [FloatOps F]

/-- The operations that wrap the sources (a negative index counted from the end) and make them an index column. -/
abbrev take2a : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S640000, .i32⟩) (broadcastInDim S640000 ![] bcast_S_S640000),
    StableHlo.TRef.binary (.of main_v1 : StableHlo.TRef sig ⟨S640000, .i32⟩) (.of main_call1_v0 : StableHlo.TRef sig ⟨S640000, .i32⟩) (.of main_call1_v1 : StableHlo.TRef sig ⟨S640000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S640000, .i32⟩) (broadcastInDim S640000 ![] bcast_S_S640000),
    StableHlo.TRef.binary (.of main_v1 : StableHlo.TRef sig ⟨S640000, .i32⟩) (.of main_call1_v2 : StableHlo.TRef sig ⟨S640000, .i32⟩) (.of main_call1_v3 : StableHlo.TRef sig ⟨S640000, .i32⟩) addi,
    StableHlo.TRef.ternary (.of main_call1_v1 : StableHlo.TRef sig ⟨S640000, .i1⟩) (.of main_call1_v3 : StableHlo.TRef sig ⟨S640000, .i32⟩) (.of main_v1 : StableHlo.TRef sig ⟨S640000, .i32⟩) (.of main_call1_v4 : StableHlo.TRef sig ⟨S640000, .i32⟩) select,
    StableHlo.TRef.unary main_call1_call0.v0 (.of main_call1_v5 : StableHlo.TRef sig ⟨S640000x1, .i32⟩) (broadcastInDim S640000x1 ![0] bcast_S640000_S640000x1_0) ]
/-- The operations that test which entries of the column lie among the rows. -/
abbrev take2b : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S640000x1, .i32⟩) (broadcastInDim S640000x1 ![] bcast_S_S640000x1),
    StableHlo.TRef.binary (.of main_call1_v5 : StableHlo.TRef sig ⟨S640000x1, .i32⟩) (.of main_call1_v6 : StableHlo.TRef sig ⟨S640000x1, .i32⟩) (.of main_call1_v7 : StableHlo.TRef sig ⟨S640000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S640000x1, .i32⟩) (broadcastInDim S640000x1 ![0, 1] bcast_S1x1_S640000x1_0_1),
    StableHlo.TRef.binary (.of main_call1_v5 : StableHlo.TRef sig ⟨S640000x1, .i32⟩) (.of main_call1_v9 : StableHlo.TRef sig ⟨S640000x1, .i32⟩) (.of main_call1_v10 : StableHlo.TRef sig ⟨S640000x1, .i1⟩) (cmpi .sle),
    StableHlo.TRef.binary (.of main_call1_v7 : StableHlo.TRef sig ⟨S640000x1, .i1⟩) (.of main_call1_v10 : StableHlo.TRef sig ⟨S640000x1, .i1⟩) (.of main_call1_v11 : StableHlo.TRef sig ⟨S640000x1, .i1⟩) andi,
    StableHlo.TRef.nullary (.of main_call1_c_3 : StableHlo.TRef sig ⟨S_, .i1⟩) (constantI S_ 1 1#1),
    StableHlo.TRef.binary (.of main_call1_v11 : StableHlo.TRef sig ⟨S640000x1, .i1⟩) (.of main_call1_c_3 : StableHlo.TRef sig ⟨S_, .i1⟩) (.of main_call1_v12 : StableHlo.TRef sig ⟨S640000, .i1⟩) (fun x v => Host.reduce IntOp.andi x v reducesTo_S640000x1_S640000_d1 h_S_) ]
/-- The operations that gather the rows by the column and fill the rows out of range. -/
abbrev take2c : List (HloOp τ sig (Elt F)) :=
  [ StableHlo.TRef.binary (.of main_v41 : StableHlo.TRef sig ⟨S100000x128, .f32⟩) (.of main_call1_v5 : StableHlo.TRef sig ⟨S640000x1, .i32⟩) (.of main_call1_v13 : StableHlo.TRef sig ⟨S640000x128, .f32⟩) (fun x i => Host.gather gather_S100000x128_S640000x1_S640000x128_1_0_n_n_0_1_1128 x i),
    StableHlo.TRef.unary (.of main_call1_v12 : StableHlo.TRef sig ⟨S640000, .i1⟩) (.of main_call1_v14 : StableHlo.TRef sig ⟨S640000x128, .i1⟩) (broadcastInDim S640000x128 ![0] bcast_S640000_S640000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S640000x128, .f32⟩) (broadcastInDim S640000x128 ![] bcast_S_S640000x128),
    StableHlo.TRef.ternary (.of main_call1_v14 : StableHlo.TRef sig ⟨S640000x128, .i1⟩) (.of main_call1_v13 : StableHlo.TRef sig ⟨S640000x128, .f32⟩) (.of main_call1_v15 : StableHlo.TRef sig ⟨S640000x128, .f32⟩) (.of main_v42 : StableHlo.TRef sig ⟨S640000x128, .f32⟩) select ]
/-- The second gather's operations are these three lists, in order. -/
theorem hostOps3_split : (hostOps3 : List (HloOp τ sig (Elt F))) = take2a ++ (take2b ++ take2c) := rfl

end Take

/-- The index column: the wrapped sources. -/
theorem take2a_v5 (V : Valuation τ sig (Elt Ideal)) (e : IVec AggDef.S2xE 32) (h1 : V (Proc.devRef .tc main_v1) = srcOf e) :
    StableHlo.after take2a V (Proc.devRef .tc main_call1_v5) = srcCol e := by
  after_results_simp
  simp only [StableHlo.TRef.ofBuf, StableHlo.TRef.toBuf, cast_eq]
  rw [h1]
  rfl

/-- Making the index column leaves the features alone. -/
theorem take2a_v41 (V : Valuation τ sig (Elt Ideal)) :
    StableHlo.after take2a V (Proc.devRef .tc main_v41) = V (Proc.devRef .tc main_v41) := by host_keeps take2a

/-- The range test of a given index column. -/
theorem take2b_v12 (V : Valuation τ sig (Elt Ideal)) (e : IVec AggDef.S2xE 32)
    (h5 : V (Proc.devRef .tc main_call1_v5) = srcCol e) :
    StableHlo.after take2b V (Proc.devRef .tc main_call1_v12) = inRange e := by
  after_results_simp
  simp only [StableHlo.TRef.ofBuf, StableHlo.TRef.toBuf, cast_eq]
  rw [h5]
  rfl

/-- The range test leaves the index column alone. -/
theorem take2b_v5 (V : Valuation τ sig (Elt Ideal)) :
    StableHlo.after take2b V (Proc.devRef .tc main_call1_v5) = V (Proc.devRef .tc main_call1_v5) := by host_keeps take2b

/-- The range test leaves the features alone. -/
theorem take2b_v41 (V : Valuation τ sig (Elt Ideal)) :
    StableHlo.after take2b V (Proc.devRef .tc main_v41) = V (Proc.devRef .tc main_v41) := by host_keeps take2b

/-- The filled gather by a given index column and its range test. -/
theorem take2c_v42 (V : Valuation τ sig (Elt Ideal)) (e : IVec AggDef.S2xE 32) (h : FVec Ideal AggDef.SNx128 .f32)
    (h12 : V (Proc.devRef .tc main_call1_v12) = inRange e) (h5 : V (Proc.devRef .tc main_call1_v5) = srcCol e)
    (h41 : V (Proc.devRef .tc main_v41) = h) :
    StableHlo.after take2c V (Proc.devRef .tc main_v42) = rowsK e h := by
  after_results_simp
  simp only [StableHlo.TRef.ofBuf, StableHlo.TRef.toBuf, cast_eq]
  rw [h12, h5, h41]
  rfl

/-! ## Region 3's entry -/

/-- The gathered rows of the second aggregation: the filled gather of the first layer's features by the wrapped sources. -/
theorem W8_v42 : W8 m ρ c (Proc.devRef .tc main_v42) = rowsK (m ((c : Thread nD τ).loc main_arg1)) (V7 m ρ c main_v41) := by
  show StableHlo.after hostOps3 (W7 m ρ c) (Proc.devRef .tc main_v42) = _
  rw [hostOps3_split, StableHlo.after_append, StableHlo.after_append]
  have h5 := take2a_v5 (W7 m ρ c) _ ((W7_v1_W1 m ρ c).trans (W1_v1 m ρ c))
  exact take2c_v42 _ _ _ (take2b_v12 _ _ h5) ((take2b_v5 _).trans h5) ((take2b_v41 _).trans (take2a_v41 _))

/-- The second aggregation: the rows summed into the targets and scaled by the inverse in-degree. -/
theorem e3_agg : V9 m ρ c main_v47 = aggK (m ((c : Thread nD τ).loc main_arg1)) (V7 m ρ c main_v41) := by
  have h42 := W8_v42 m ρ c
  have h3 := (W8_v3_W1 m ρ c).trans (W1_v3 m ρ c)
  have h12 := (W8_v12_W1 m ρ c).trans (W1_v12 m ρ c)
  show StableHlo.after hostOps3_1 (W8 m ρ c) (Proc.devRef .tc main_v47) = _
  generalize W8 m ρ c = V8 at h42 h3 h12 ⊢
  after_results
  rw [h42, h3, h12]
  rfl

/-- The first layer's features, as region 2 left them. -/
theorem e3_h : V9 m ρ c main_v41 = V7 m ρ c main_v41 :=
  calc W9 m ρ c (Proc.devRef .tc main_v41)
    _ = W8 m ρ c (Proc.devRef .tc main_v41) := by host_keeps hostOps3_1
    _ = W7 m ρ c (Proc.devRef .tc main_v41) := W8_v41 m ρ c

/-! ## The second layer's weights and bias: slice 1 of the stacked arguments -/

/-- The stacked neighbour weights are as launched. -/
theorem W8_arg4 : W8 m ρ c (Proc.devRef .tc main_arg4) = m ((c : Thread nD τ).loc main_arg4) :=
  calc W8 m ρ c (Proc.devRef .tc main_arg4)
    _ = W7 m ρ c (Proc.devRef .tc main_arg4) := by host_keeps hostOps3
    _ = W6 m ρ c (Proc.devRef .tc main_arg4) := W7_of_ne m ρ c main_arg4 (by decide)
    _ = W5 m ρ c (Proc.devRef .tc main_arg4) := by host_keeps hostOps2
    _ = W4 m ρ c (Proc.devRef .tc main_arg4) := W5_of_ne m ρ c main_arg4 (by decide)
    _ = W3 m ρ c (Proc.devRef .tc main_arg4) := by host_keeps hostOps1_1
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

/-- The stacked biases are as launched. -/
theorem W8_arg5 : W8 m ρ c (Proc.devRef .tc main_arg5) = m ((c : Thread nD τ).loc main_arg5) :=
  calc W8 m ρ c (Proc.devRef .tc main_arg5)
    _ = W7 m ρ c (Proc.devRef .tc main_arg5) := by host_keeps hostOps3
    _ = W6 m ρ c (Proc.devRef .tc main_arg5) := W7_of_ne m ρ c main_arg5 (by decide)
    _ = W5 m ρ c (Proc.devRef .tc main_arg5) := by host_keeps hostOps2
    _ = W4 m ρ c (Proc.devRef .tc main_arg5) := W5_of_ne m ρ c main_arg5 (by decide)
    _ = W3 m ρ c (Proc.devRef .tc main_arg5) := by host_keeps hostOps1_1
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

/-- The stacked self weights are as launched. -/
theorem W8_arg6 : W8 m ρ c (Proc.devRef .tc main_arg6) = m ((c : Thread nD τ).loc main_arg6) :=
  calc W8 m ρ c (Proc.devRef .tc main_arg6)
    _ = W7 m ρ c (Proc.devRef .tc main_arg6) := by host_keeps hostOps3
    _ = W6 m ρ c (Proc.devRef .tc main_arg6) := W7_of_ne m ρ c main_arg6 (by decide)
    _ = W5 m ρ c (Proc.devRef .tc main_arg6) := by host_keeps hostOps2
    _ = W4 m ρ c (Proc.devRef .tc main_arg6) := W5_of_ne m ρ c main_arg6 (by decide)
    _ = W3 m ρ c (Proc.devRef .tc main_arg6) := by host_keeps hostOps1_1
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

/-- The second layer's neighbour weights. -/
theorem e3_wl : mat (V9 m ρ c main_v49 : FVec Ideal S128x128 .f32) = fun k j => (m ((c : Thread nD τ).loc main_arg4)) (ix3 1 k j) := by
  have hA := W8_arg4 m ρ c
  have e : (V9 m ρ c main_v49 : FVec Ideal S128x128 .f32)
      = shapeCast S128x128 (extractStridedSlice S1x128x128 ![1, 0, 0] ((m ((c : Thread nD τ).loc main_arg4)) : FVec Ideal S2x128x128 .f32) slices_S2x128x128_S1x128x128_1_0_0) shapeCasts_S1x128x128_S128x128 := by
    show StableHlo.after hostOps3_1 (W8 m ρ c) (Proc.devRef .tc main_v49) = _
    generalize W8 m ρ c = V8 at hA ⊢
    after_results
    rw [hA] <;> rfl
  funext k j
  show (V9 m ρ c main_v49 : FVec Ideal S128x128 .f32) (ix2 k j) = _
  rw [e]
  exact stack_mat _ _ _ k j

/-- The second layer's bias. -/
theorem e3_bl : (fun j : Fin 128 => (V9 m ρ c main_v52 : FVec Ideal S1x128 .f32) (ix2 0 j)) = fun j => (m ((c : Thread nD τ).loc main_arg5)) (ix2 1 j) := by
  have hA := W8_arg5 m ρ c
  have e : (V9 m ρ c main_v52 : FVec Ideal S1x128 .f32)
      = shapeCast S1x128 (shapeCast S128 (extractStridedSlice S1x128 ![1, 0] ((m ((c : Thread nD τ).loc main_arg5)) : FVec Ideal S2x128 .f32) slices_S2x128_S1x128_1_0) shapeCasts_S1x128_S128) shapeCasts_S128_S1x128 := by
    show StableHlo.after hostOps3_1 (W8 m ρ c) (Proc.devRef .tc main_v52) = _
    generalize W8 m ρ c = V8 at hA ⊢
    after_results
    rw [hA] <;> rfl
  funext j
  rw [e]
  exact stack_row _ _ _ _ j

/-- The second layer's self weights. -/
theorem e3_wr : mat (V9 m ρ c main_v54 : FVec Ideal S128x128 .f32) = fun k j => (m ((c : Thread nD τ).loc main_arg6)) (ix3 1 k j) := by
  have hA := W8_arg6 m ρ c
  have e : (V9 m ρ c main_v54 : FVec Ideal S128x128 .f32)
      = shapeCast S128x128 (extractStridedSlice S1x128x128 ![1, 0, 0] ((m ((c : Thread nD τ).loc main_arg6)) : FVec Ideal S2x128x128 .f32) slices_S2x128x128_S1x128x128_1_0_0) shapeCasts_S1x128x128_S128x128 := by
    show StableHlo.after hostOps3_1 (W8 m ρ c) (Proc.devRef .tc main_v54) = _
    generalize W8 m ρ c = V8 at hA ⊢
    after_results
    rw [hA] <;> rfl
  funext k j
  show (V9 m ρ c main_v54 : FVec Ideal S128x128 .f32) (ix2 k j) = _
  rw [e]
  exact stack_mat _ _ _ k j

/-! ## Region 4's entry: the column mean and variance of the second layer, its scale and shift -/

/-- The second layer's combination, as region 3 left it. -/
theorem e4_x : V11 m ρ c main_v55_0 = V10 m ρ c main_v55_0 := by
  show W11 m ρ c (Proc.devRef .tc main_v55_0) = W10 m ρ c (Proc.devRef .tc main_v55_0)
  host_keeps hostOps4

/-- The column mean: the column sums divided by the node count. -/
theorem e4_mu : (fun j : Fin 128 => (V11 m ρ c main_v57 : FVec Ideal S1x128 .f32) (ix2 0 j))
    = fun j => Ideal.div ((V10 m ρ c main_v55_1 : FVec Ideal S1x128 .f32) (ix2 0 j)) cN := by
  have e : (V11 m ρ c main_v57 : FVec Ideal S1x128 .f32)
      = Host.divf (V10 m ρ c main_v55_1 : FVec Ideal S1x128 .f32)
          (broadcastInDim S1x128 ![] bcast_S_S1x128 (constant (F := Ideal) S_ .f32 0x47C35000#32)) := by
    show StableHlo.after hostOps4 (W10 m ρ c) (Proc.devRef .tc main_v57) = _
    after_results <;> rfl
  funext j
  rw [e]
  rfl

/-- The column variance: the mean of the squares minus the square of the mean. -/
theorem e4_var : (fun j : Fin 128 => (V11 m ρ c main_v61 : FVec Ideal S1x128 .f32) (ix2 0 j))
    = fun j => Ideal.div ((V10 m ρ c main_v55_2 : FVec Ideal S1x128 .f32) (ix2 0 j)) cN
        - Ideal.div ((V10 m ρ c main_v55_1 : FVec Ideal S1x128 .f32) (ix2 0 j)) cN
          * Ideal.div ((V10 m ρ c main_v55_1 : FVec Ideal S1x128 .f32) (ix2 0 j)) cN := by
  have e : (V11 m ρ c main_v61 : FVec Ideal S1x128 .f32)
      = subf (Host.divf (V10 m ρ c main_v55_2 : FVec Ideal S1x128 .f32)
                (broadcastInDim S1x128 ![] bcast_S_S1x128 (constant (F := Ideal) S_ .f32 0x47C35000#32)))
          (mulf (Host.divf (V10 m ρ c main_v55_1 : FVec Ideal S1x128 .f32)
                  (broadcastInDim S1x128 ![] bcast_S_S1x128 (constant (F := Ideal) S_ .f32 0x47C35000#32)))
                (Host.divf (V10 m ρ c main_v55_1 : FVec Ideal S1x128 .f32)
                  (broadcastInDim S1x128 ![] bcast_S_S1x128 (constant (F := Ideal) S_ .f32 0x47C35000#32)))) := by
    show StableHlo.after hostOps4 (W10 m ρ c) (Proc.devRef .tc main_v61) = _
    after_results <;> rfl
  funext j
  rw [e]
  rfl

/-- The stacked scales are as launched. -/
theorem W10_arg7 : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by host_keeps hostOps3_1
    _ = W7 m ρ c (Proc.devRef .tc main_arg7) := by host_keeps hostOps3
    _ = W6 m ρ c (Proc.devRef .tc main_arg7) := W7_of_ne m ρ c main_arg7 (by decide)
    _ = W5 m ρ c (Proc.devRef .tc main_arg7) := by host_keeps hostOps2
    _ = W4 m ρ c (Proc.devRef .tc main_arg7) := W5_of_ne m ρ c main_arg7 (by decide)
    _ = W3 m ρ c (Proc.devRef .tc main_arg7) := by host_keeps hostOps1_1
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

/-- The stacked shifts are as launched. -/
theorem W10_arg8 : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := by host_keeps hostOps3_1
    _ = W7 m ρ c (Proc.devRef .tc main_arg8) := by host_keeps hostOps3
    _ = W6 m ρ c (Proc.devRef .tc main_arg8) := W7_of_ne m ρ c main_arg8 (by decide)
    _ = W5 m ρ c (Proc.devRef .tc main_arg8) := by host_keeps hostOps2
    _ = W4 m ρ c (Proc.devRef .tc main_arg8) := W5_of_ne m ρ c main_arg8 (by decide)
    _ = W3 m ρ c (Proc.devRef .tc main_arg8) := by host_keeps hostOps1_1
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- The second layer's scale. -/
theorem e4_g : (fun j : Fin 128 => (V11 m ρ c main_v64 : FVec Ideal S1x128 .f32) (ix2 0 j)) = fun j => (m ((c : Thread nD τ).loc main_arg7)) (ix2 1 j) := by
  have e : (V11 m ρ c main_v64 : FVec Ideal S1x128 .f32)
      = shapeCast S1x128 (shapeCast S128 (extractStridedSlice S1x128 ![1, 0] ((m ((c : Thread nD τ).loc main_arg7)) : FVec Ideal S2x128 .f32) slices_S2x128_S1x128_1_0) shapeCasts_S1x128_S128) shapeCasts_S128_S1x128 := by
    show StableHlo.after hostOps4 (W10 m ρ c) (Proc.devRef .tc main_v64) = _
    after_results
    rw [W10_arg7 m ρ c] <;> rfl
  funext j
  rw [e]
  exact stack_row _ _ _ _ j

/-- The second layer's shift. -/
theorem e4_be : (fun j : Fin 128 => (V11 m ρ c main_v67 : FVec Ideal S1x128 .f32) (ix2 0 j)) = fun j => (m ((c : Thread nD τ).loc main_arg8)) (ix2 1 j) := by
  have e : (V11 m ρ c main_v67 : FVec Ideal S1x128 .f32)
      = shapeCast S1x128 (shapeCast S128 (extractStridedSlice S1x128 ![1, 0] ((m ((c : Thread nD τ).loc main_arg8)) : FVec Ideal S2x128 .f32) slices_S2x128_S1x128_1_0) shapeCasts_S1x128_S128) shapeCasts_S128_S1x128 := by
    show StableHlo.after hostOps4 (W10 m ρ c) (Proc.devRef .tc main_v67) = _
    after_results
    rw [W10_arg8 m ρ c] <;> rfl
  funext j
  rw [e]
  exact stack_row _ _ _ _ j

/-! ## Region 5's entry: the normalised features, the head's weight and bias -/

/-- The second layer's output, as region 4 left it. -/
theorem e5_h : V13 m ρ c main_v68 = V12 m ρ c main_v68 := by
  show W13 m ρ c (Proc.devRef .tc main_v68) = W12 m ρ c (Proc.devRef .tc main_v68)
  host_keeps hostOps5

/-- The head's weight is as launched. -/
theorem W13_arg9 : W13 m ρ c (Proc.devRef .tc main_arg9) = m ((c : Thread nD τ).loc main_arg9) :=
  calc W13 m ρ c (Proc.devRef .tc main_arg9)
    _ = W12 m ρ c (Proc.devRef .tc main_arg9) := by host_keeps hostOps5
    _ = W11 m ρ c (Proc.devRef .tc main_arg9) := W12_of_ne m ρ c main_arg9 (by decide)
    _ = W10 m ρ c (Proc.devRef .tc main_arg9) := by host_keeps hostOps4
    _ = W9 m ρ c (Proc.devRef .tc main_arg9) := W10_of_ne m ρ c main_arg9 (by decide)
    _ = W8 m ρ c (Proc.devRef .tc main_arg9) := by host_keeps hostOps3_1
    _ = W7 m ρ c (Proc.devRef .tc main_arg9) := by host_keeps hostOps3
    _ = W6 m ρ c (Proc.devRef .tc main_arg9) := W7_of_ne m ρ c main_arg9 (by decide)
    _ = W5 m ρ c (Proc.devRef .tc main_arg9) := by host_keeps hostOps2
    _ = W4 m ρ c (Proc.devRef .tc main_arg9) := W5_of_ne m ρ c main_arg9 (by decide)
    _ = W3 m ρ c (Proc.devRef .tc main_arg9) := by host_keeps hostOps1_1
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- The head's weight. -/
theorem e5_wh : V13 m ρ c main_arg9 = (m ((c : Thread nD τ).loc main_arg9)) := W13_arg9 m ρ c

/-- The head's bias is as launched. -/
theorem W12_arg10 : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := by host_keeps hostOps4
    _ = W9 m ρ c (Proc.devRef .tc main_arg10) := W10_of_ne m ρ c main_arg10 (by decide)
    _ = W8 m ρ c (Proc.devRef .tc main_arg10) := by host_keeps hostOps3_1
    _ = W7 m ρ c (Proc.devRef .tc main_arg10) := by host_keeps hostOps3
    _ = W6 m ρ c (Proc.devRef .tc main_arg10) := W7_of_ne m ρ c main_arg10 (by decide)
    _ = W5 m ρ c (Proc.devRef .tc main_arg10) := by host_keeps hostOps2
    _ = W4 m ρ c (Proc.devRef .tc main_arg10) := W5_of_ne m ρ c main_arg10 (by decide)
    _ = W3 m ρ c (Proc.devRef .tc main_arg10) := by host_keeps hostOps1_1
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- The head's bias. -/
theorem e5_bh : (fun j : Fin 1 => (V13 m ρ c main_v69 : FVec Ideal S1x1 .f32) (ix2 0 j)) = fun j => (m ((c : Thread nD τ).loc main_arg10)) (ix1 j) := by
  have e : (V13 m ρ c main_v69 : FVec Ideal S1x1 .f32)
      = shapeCast S1x1 ((m ((c : Thread nD τ).loc main_arg10)) : FVec Ideal S1 .f32) shapeCasts_S1_S1x1 := by
    show StableHlo.after hostOps5 (W12 m ρ c) (Proc.devRef .tc main_v69) = _
    after_results
    rw [W12_arg10 m ρ c] <;> rfl
  funext j
  rw [e]
  exact unit_row _ _ j

/-! ## The end: the head's column as a vector -/

/-- The result is the head's one column, flattened. -/
theorem end_y : (W15 m ρ c (Proc.devRef .tc main_v71) : FVec Ideal S100000 .f32)
    = unvec (fun n => (V14 m ρ c main_v70 : FVec Ideal S100000x1 .f32) (ix2 n 0)) := by
  have e : (W15 m ρ c (Proc.devRef .tc main_v71) : FVec Ideal S100000 .f32)
      = shapeCast S100000 (V14 m ρ c main_v70 : FVec Ideal S100000x1 .f32) shapeCasts_S100000x1_S100000 := by
    show StableHlo.after hostOps6 (W14 m ρ c) (Proc.devRef .tc main_v71) = _
    after_results <;> rfl
  funext i
  rw [e]
  exact col_vec _ _ i

/-- The second layer's output is still what region 4 left: region 5 only reads it and no later operation writes it. -/
theorem end_h : W15 m ρ c (Proc.devRef .tc main_v68) = V12 m ρ c main_v68 :=
  calc W15 m ρ c (Proc.devRef .tc main_v68)
    _ = W14 m ρ c (Proc.devRef .tc main_v68) := by host_keeps hostOps6
    _ = W13 m ρ c (Proc.devRef .tc main_v68) :=
        (W14_arr m ρ c 0).trans (((dat5 (V13 m ρ) c).arrAt_in 0 rfl _).trans (A_eq5 (V13 m ρ) c 0))
    _ = W12 m ρ c (Proc.devRef .tc main_v68) := by host_keeps hostOps5

end Cert.KernelIdeal.Hand.HB

end
-- ==== Proof.KValue.lean ====
/-
  The kernel program's two results as the specification's network of the launch contents of its eleven arguments:
  region by region, each region's output arrays are the specification's stage functions of its input arrays (the dense
  layers, the linear combination with its two column sums, the normalisation), each host stretch between two regions
  hands the next region the arrays it reads (the aggregation of the features the region before left; the column mean
  and the variance as mean of squares minus squared mean, from the two column sums; the slices of the weight tables),
  and the chain closes on the launch contents.
-/
import proofs.«431466_j18562848654083_1_alg».proof.Proof.Gen.KernelIdeal.Frame
import proofs.«431466_j18562848654083_1_alg».proof.Proof.Spec
import proofs.«431466_j18562848654083_1_alg».proof.Proof.AggDef
import proofs.«431466_j18562848654083_1_alg».proof.Proof.KRegion0
import proofs.«431466_j18562848654083_1_alg».proof.Proof.KRegion1
import proofs.«431466_j18562848654083_1_alg».proof.Proof.KRegion2
import proofs.«431466_j18562848654083_1_alg».proof.Proof.KRegion3
import proofs.«431466_j18562848654083_1_alg».proof.Proof.KRegion4
import proofs.«431466_j18562848654083_1_alg».proof.Proof.KRegion5
import proofs.«431466_j18562848654083_1_alg».proof.Proof.KHostA
import proofs.«431466_j18562848654083_1_alg».proof.Proof.KHostB
import Idealize.ShloMosaic.Lib.ValueIdx

set_option maxRecDepth 16384

noncomputable section

namespace Cert.KernelIdeal.Hand

open Cert.KernelIdeal Cert.KernelIdeal.Gen Cert.Spec Cert.AggDef Idealize.ShloMosaic Idealize.ShloMosaic.ValueIdx Idealize.SL.Sem Idealize.ShloMosaic.TcCoe
open R0 R1 R2 R3 R4 R5 HA HB

variable (m : (ℓ : Loc nD τ sig) → Buf (Elt Ideal) ℓ) (ρ : Dev nD → PrngReg) (c : Dev nD)

/-! ## The kernel's two results as the specification's functions of the launch contents

Region by region: each region's output arrays are the specification's stage functions of its input arrays, the
input arrays are what the host stretch before the region computed from the arrays the regions before it left, and
the chain closes on the launch contents of the eleven arguments. -/

/-- The arguments' launch contents in the specification's index types. -/
abbrev xM : Mat 100000 256 := mat (m ((c : Thread nD τ).loc main_arg0))
abbrev eL : IVec S2xE 32 := (m ((c : Thread nD τ).loc main_arg1))
abbrev WpM : Mat 256 128 := mat (m ((c : Thread nD τ).loc main_arg2))
abbrev bpV : Fin 128 → EReal := vec (m ((c : Thread nD τ).loc main_arg3))
abbrev WlM (l : Fin 2) : Mat 128 128 := fun k j => (m ((c : Thread nD τ).loc main_arg4)) (ix3 l k j)
abbrev blV (l : Fin 2) : Fin 128 → EReal := fun j => (m ((c : Thread nD τ).loc main_arg5)) (ix2 l j)
abbrev WrM (l : Fin 2) : Mat 128 128 := fun k j => (m ((c : Thread nD τ).loc main_arg6)) (ix3 l k j)
abbrev gV (l : Fin 2) : Fin 128 → EReal := fun j => (m ((c : Thread nD τ).loc main_arg7)) (ix2 l j)
abbrev beV (l : Fin 2) : Fin 128 → EReal := fun j => (m ((c : Thread nD τ).loc main_arg8)) (ix2 l j)
abbrev WhM : Mat 128 1 := mat (m ((c : Thread nD τ).loc main_arg9))
abbrev bhV : Fin 1 → EReal := vec (m ((c : Thread nD τ).loc main_arg10))

/-- The features after the first dense layer. -/
def F0 : Mat 100000 128 := relu (dense (xM m c) (WpM m c) (bpV m c))
/-- The combined features of layer one, before normalisation. -/
def L1 : Mat 100000 128 := lin (AggK (eL m c) (F0 m c)) (F0 m c) (WlM m c 0) (blV m c 0) (WrM m c 0)
/-- The features after layer one. -/
def F1 : Mat 100000 128 := layer varK (AggK (eL m c)) (F0 m c) (WlM m c 0) (blV m c 0) (WrM m c 0) (gV m c 0) (beV m c 0)
/-- The combined features of layer two, before normalisation. -/
def L2 : Mat 100000 128 := lin (AggK (eL m c) (F1 m c)) (F1 m c) (WlM m c 1) (blV m c 1) (WrM m c 1)
/-- The features after layer two. -/
def F2 : Mat 100000 128 := layer varK (AggK (eL m c)) (F1 m c) (WlM m c 1) (blV m c 1) (WrM m c 1) (gV m c 1) (beV m c 1)

theorem v14_eq : (V2 m ρ c main_v14 : FVec Ideal S100000x128 .f32) = unmat (F0 m c) := by
  have h := region0_value (V1 m ρ) c _ _ _ (e0_x m ρ c) (e0_w m ρ c) rfl
  rw [e0_b m ρ c] at h
  exact (hF0 m ρ c 3).symm.trans h

theorem region1_at : (V5 m ρ c main_v28_0 : FVec Ideal S100000x128 .f32) = unmat (L1 m c)
    ∧ (V5 m ρ c main_v28_1 : FVec Ideal S1x128 .f32) = (fun i => colSum (L1 m c) (i 1))
    ∧ (V5 m ρ c main_v28_2 : FVec Ideal S1x128 .f32) = (fun i => colSumSq (L1 m c) (i 1)) := by
  have h := region1_value (V4 m ρ) c _ _ _ _ _ (e1_agg m ρ c) (e1_h m ρ c) rfl rfl rfl
  rw [e1_wl m ρ c, e1_bl m ρ c, e1_wr m ρ c, v14_eq m ρ c, mat_unmat] at h
  rw [show mat (aggK (eL m c) (unmat (F0 m c))) = AggK (eL m c) (F0 m c) from rfl] at h
  unfold L1
  obtain ⟨k5, k6, k7⟩ := h
  have g5 := (hF1 m ρ c 5).symm
  have g6 := (hF1 m ρ c 6).symm
  have g7 := (hF1 m ρ c 7).symm
  exact ⟨g5.trans k5, g6.trans k6, g7.trans k7⟩

theorem v41_eq : (V7 m ρ c main_v41 : FVec Ideal S100000x128 .f32) = unmat (F1 m c) := by
  have h := region2_value (V6 m ρ) c _ _ _ _ _ (e2_x m ρ c) rfl rfl rfl rfl
  obtain ⟨h5, h6, h7⟩ := region1_at m ρ c
  rw [e2_mu m ρ c, e2_var m ρ c, e2_g m ρ c, e2_be m ρ c, h5, h6, h7, mat_unmat] at h
  refine ((hF2 m ρ c 5).symm.trans h).trans ?_
  unfold F1 layer L1 mean varK
  rfl

-- the terms of the second layer nest the first layer's: the unifier's budget is raised for the bookkeeping steps
set_option maxHeartbeats 4000000 in
theorem region3_at : (V10 m ρ c main_v55_0 : FVec Ideal S100000x128 .f32) = unmat (L2 m c)
    ∧ (V10 m ρ c main_v55_1 : FVec Ideal S1x128 .f32) = (fun i => colSum (L2 m c) (i 1))
    ∧ (V10 m ρ c main_v55_2 : FVec Ideal S1x128 .f32) = (fun i => colSumSq (L2 m c) (i 1)) := by
  have h := region3_value (V9 m ρ) c _ _ _ _ _ (e3_agg m ρ c) (e3_h m ρ c) rfl rfl rfl
  rw [e3_wl m ρ c, e3_bl m ρ c, e3_wr m ρ c, v41_eq m ρ c, mat_unmat] at h
  rw [show mat (aggK (eL m c) (unmat (F1 m c))) = AggK (eL m c) (F1 m c) from rfl] at h
  unfold L2
  obtain ⟨k5, k6, k7⟩ := h
  have g5 := (hF3 m ρ c 5).symm
  have g6 := (hF3 m ρ c 6).symm
  have g7 := (hF3 m ρ c 7).symm
  exact ⟨g5.trans k5, g6.trans k6, g7.trans k7⟩

-- the terms of the second layer nest the first layer's: the unifier's budget is raised for the bookkeeping steps
set_option maxHeartbeats 4000000 in
theorem v68_eq : (V12 m ρ c main_v68 : FVec Ideal S100000x128 .f32) = unmat (F2 m c) := by
  have h := region4_value (V11 m ρ) c _ _ _ _ _ (e4_x m ρ c) rfl rfl rfl rfl
  obtain ⟨h5, h6, h7⟩ := region3_at m ρ c
  rw [e4_mu m ρ c, e4_var m ρ c, e4_g m ρ c, e4_be m ρ c, h5, h6, h7, mat_unmat] at h
  refine ((hF4 m ρ c 5).symm.trans h).trans ?_
  unfold F2 layer L2 mean varK
  rfl

-- the terms of the second layer nest the first layer's: the unifier's budget is raised for the bookkeeping steps
set_option maxHeartbeats 4000000 in
theorem v70_eq : (V14 m ρ c main_v70 : FVec Ideal S100000x1 .f32) = unmat (dense (F2 m c) (WhM m c) (bhV m c)) := by
  have h := region5_value (V13 m ρ) c _ _ _ (e5_h m ρ c) (e5_wh m ρ c) rfl
  rw [e5_bh m ρ c, v68_eq m ρ c, mat_unmat] at h
  exact (hF5 m ρ c 3).symm.trans h

-- the terms of the second layer nest the first layer's: the unifier's budget is raised for the bookkeeping steps
set_option maxHeartbeats 4000000 in
/-- The kernel's second result: the node features after both layers. -/
theorem result_h : (W15 m ρ c (Proc.devRef .tc main_v68) : FVec Ideal S100000x128 .f32)
    = unmat (feat varK (AggK (eL m c)) (xM m c) (WpM m c) (bpV m c) (WlM m c 0) (blV m c 0) (WrM m c 0) (gV m c 0) (beV m c 0)
        (WlM m c 1) (blV m c 1) (WrM m c 1) (gV m c 1) (beV m c 1)) :=
  ((end_h m ρ c).trans (v68_eq m ρ c)).trans (by unfold F2 F1 F0 feat; rfl)

-- the terms of the second layer nest the first layer's: the unifier's budget is raised for the bookkeeping steps
set_option maxHeartbeats 4000000 in
/-- The kernel's first result: the head's one column over the node features. -/
theorem result_y : (W15 m ρ c (Proc.devRef .tc main_v71) : FVec Ideal S100000 .f32)
    = unvec (fun n => dense (feat varK (AggK (eL m c)) (xM m c) (WpM m c) (bpV m c) (WlM m c 0) (blV m c 0) (WrM m c 0) (gV m c 0) (beV m c 0)
        (WlM m c 1) (blV m c 1) (WrM m c 1) (gV m c 1) (beV m c 1)) (WhM m c) (bhV m c) n 0) := by
  rw [end_y m ρ c, v70_eq m ρ c]
  unfold F2 F1 F0 feat
  rfl

end Cert.KernelIdeal.Hand

end
-- ==== Proof.RefStages.lean ====
/-
  The reference program's operations grouped into the stages of the network, each stage one whole-array function
  of the arrays it reads, spelt with the program's own operations: the first dense layer with its rectifier, the
  neighbour aggregation, a layer's linear combination, the column mean, the column variance (the mean of the squared
  deviations, guarded by a comparison of the divisor with zero), the normalisation with its rectifier, and the head.
  `resH` and `resY` compose them into the program's two results.
-/
import proofs.«431466_j18562848654083_1_alg».proof.ReferenceIdeal
import proofs.«431466_j18562848654083_1_alg».proof.Proof.Gen.ReferenceIdeal
import Idealize.ShloMosaic.PureOps.Ideal

noncomputable section

namespace Cert.ReferenceIdeal.Hand

open Idealize.ShloMosaic Cert.ReferenceIdeal
open Facts₀ Facts

variable [Facts]

abbrev AV (s : Shape) := FVec Ideal s .f32

/-- The rectifier: the maximum with a broadcast zero. -/
def stRelu (x : AV S100000x128) : AV S100000x128 :=
  maximumf x (broadcastInDim S100000x128 ![] bcast_S_S100000x128 (constant (F := Ideal) S_ .f32 0x00000000#32))

/-- `relu (x · W + b)`. -/
def stH0 (a0 : AV S100000x256) (a2 : AV S256x128) (a3 : AV S128) : AV S100000x128 :=
  stRelu (addf (Host.dotGeneral dot_S100000x256_S256x128_S100000x128_1_0_0_1_n_n none a0 a2)
    (broadcastInDim S100000x128 ![0, 1] bcast_S1x128_S100000x128_0_1 (broadcastInDim S1x128 ![1] bcast_S128_S1x128_1 a3)))

/-- The edges' sources (row 0) and targets (row 1). -/
def stSrc (a1 : IVec S2x640000 32) : IVec S640000 32 :=
  shapeCast S640000 (extractStridedSlice S1x640000 ![0, 0] a1 slices_S2x640000_S1x640000_0_0) shapeCasts_S1x640000_S640000
def stDst (a1 : IVec S2x640000 32) : IVec S640000 32 :=
  shapeCast S640000 (extractStridedSlice S1x640000 ![1, 0] a1 slices_S2x640000_S1x640000_1_0) shapeCasts_S1x640000_S640000

/-- One over the in-degree clamped below by one, as a column. -/
def stInvDeg (a1 : IVec S2x640000 32) : AV S100000x1 :=
  broadcastInDim S100000x1 ![0] bcast_S100000_S100000x1_0
    (Host.divf (broadcastInDim S100000 ![] bcast_S_S100000 (constant (F := Ideal) S_ .f32 0x3F800000#32))
      (maximumf
        (Host.scatterAdd scatter_S100000_S640000x1_S640000_n_0_0_1
          (broadcastInDim S100000 ![] bcast_S_S100000 (constant (F := Ideal) S_ .f32 0x00000000#32))
          (broadcastInDim S640000x1 ![0] bcast_S640000_S640000x1_0 (stDst a1))
          (broadcastInDim S640000 ![] bcast_S_S640000 (constant (F := Ideal) S_ .f32 0x3F800000#32)))
        (broadcastInDim S100000 ![] bcast_S_S100000 (constant (F := Ideal) S_ .f32 0x3F800000#32))))

/-- The aggregation: rows gathered by the wrapped sources, summed into the targets, scaled by the inverse in-degree. -/
def stAgg (a1 : IVec S2x640000 32) (h : AV S100000x128) : AV S100000x128 :=
  mulf
    (Host.scatterAdd scatter_S100000x128_S640000x1_S640000x128_1_0_0_1
      (broadcastInDim S100000x128 ![] bcast_S_S100000x128 (constant (F := Ideal) S_ .f32 0x00000000#32))
      (broadcastInDim S640000x1 ![0] bcast_S640000_S640000x1_0 (stDst a1))
      (Host.gather gather_S100000x128_S640000x1_S640000x128_1_0_n_n_0_1_1128 h
        (broadcastInDim S640000x1 ![0] bcast_S640000_S640000x1_0
          (select (cmpi .slt (stSrc a1) (broadcastInDim S640000 ![] bcast_S_S640000 (constantI S_ 32 0#32)))
            (addi (stSrc a1) (broadcastInDim S640000 ![] bcast_S_S640000 (constantI S_ 32 100000#32))) (stSrc a1)))))
    (broadcastInDim S100000x128 ![0, 1] bcast_S100000x1_S100000x128_0_1 (stInvDeg a1))

/-- A row of a two-row table as a vector, and a slab of a two-slab table as a matrix (layer 0). -/
def stRow0 (a : AV S2x128) : AV S128 :=
  shapeCast S128 (extractStridedSlice S1x128 ![0, 0] a slices_S2x128_S1x128_0_0) shapeCasts_S1x128_S128
def stRow1 (a : AV S2x128) : AV S128 :=
  shapeCast S128 (extractStridedSlice S1x128 ![1, 0] a slices_S2x128_S1x128_1_0) shapeCasts_S1x128_S128
def stSlab0 (a : AV S2x128x128) : AV S128x128 :=
  shapeCast S128x128 (extractStridedSlice S1x128x128 ![0, 0, 0] a slices_S2x128x128_S1x128x128_0_0_0) shapeCasts_S1x128x128_S128x128
def stSlab1 (a : AV S2x128x128) : AV S128x128 :=
  shapeCast S128x128 (extractStridedSlice S1x128x128 ![1, 0, 0] a slices_S2x128x128_S1x128x128_1_0_0) shapeCasts_S1x128x128_S128x128

/-- A vector over the columns broadcast over the rows. -/
def stCols (v : AV S128) : AV S100000x128 :=
  broadcastInDim S100000x128 ![0, 1] bcast_S1x128_S100000x128_0_1 (broadcastInDim S1x128 ![1] bcast_S128_S1x128_1 v)

/-- `agg · Wl + bl + h · Wr`. -/
def stLin (agg h : AV S100000x128) (wl : AV S128x128) (bl : AV S128) (wr : AV S128x128) : AV S100000x128 :=
  addf (addf (Host.dotGeneral dot_S100000x128_S128x128_S100000x128_1_0_0_1_n_n none agg wl) (stCols bl))
    (Host.dotGeneral dot_S100000x128_S128x128_S100000x128_1_0_0_1_n_n none h wr)

/-- The column mean: the column sum from zero, over the node count. -/
def stMean (x : AV S100000x128) : AV S128 :=
  Host.divf (Host.reduceAdd x (constant (F := Ideal) S_ .f32 0x00000000#32) reducesTo_S100000x128_S128_d0 h_S_)
    (broadcastInDim S128 ![] bcast_S_S128 (constant (F := Ideal) S_ .f32 0x47C35000#32))

/-- The column variance as the outlined variance function computes it, with degrees-of-freedom offset `0`. -/
def stVar (x : AV S100000x128) : AV S128 :=
  let mu : AV S1x128 := Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))
  let d : AV S100000x128 := subf x (broadcastInDim S100000x128 ![0, 1] bcast_S1x128_S100000x128_0_1 mu)
  let cnt : AV S_ := subf (constant (F := Ideal) S_ .f32 0x47C35000#32) (sitofp .f32 (constantI S_ 32 0#32))
  select (broadcastInDim S128 ![] bcast_S_S128 (cmpf .ogt cnt (constant (F := Ideal) S_ .f32 0x00000000#32)))
    (Host.divf (Host.reduceAdd (mulf d d) (constant (F := Ideal) S_ .f32 0x00000000#32) reducesTo_S100000x128_S128_d0 h_S_)
      (broadcastInDim S128 ![] bcast_S_S128 cnt))
    (broadcastInDim S128 ![] bcast_S_S128 (id (constant (F := Ideal) S_ .f32 0x7FC00000#32)))

/-- The normalisation and the rectifier. -/
def stBn (x : AV S100000x128) (mu v g be : AV S128) : AV S100000x128 :=
  stRelu (addf
    (mulf (mulf (stCols g) (subf x (stCols mu)))
      (stCols (Host.rsqrt (addf v (broadcastInDim S128 ![] bcast_S_S128 (constant (F := Ideal) S_ .f32 0x3727C5AC#32))))))
    (stCols be))

/-- The head: one column. -/
def stHead (h : AV S100000x128) (a9 : AV S128x1) (a10 : AV S1) : AV S100000 :=
  shapeCast S100000
    (addf (Host.dotGeneral dot_S100000x128_S128x1_S100000x1_1_0_0_1_n_n none h a9)
      (broadcastInDim S100000x1 ![0, 1] bcast_S1x1_S100000x1_0_1 (broadcastInDim S1x1 ![1] bcast_S1_S1x1_1 a10)))
    shapeCasts_S100000x1_S100000

/-- One layer. -/
def stLayer0 (a1 : IVec S2x640000 32) (h : AV S100000x128) (a4 : AV S2x128x128) (a5 : AV S2x128) (a6 : AV S2x128x128)
    (a7 a8 : AV S2x128) : AV S100000x128 :=
  stBn (stLin (stAgg a1 h) h (stSlab0 a4) (stRow0 a5) (stSlab0 a6))
    (stMean (stLin (stAgg a1 h) h (stSlab0 a4) (stRow0 a5) (stSlab0 a6)))
    (stVar (stLin (stAgg a1 h) h (stSlab0 a4) (stRow0 a5) (stSlab0 a6))) (stRow0 a7) (stRow0 a8)
def stLayer1 (a1 : IVec S2x640000 32) (h : AV S100000x128) (a4 : AV S2x128x128) (a5 : AV S2x128) (a6 : AV S2x128x128)
    (a7 a8 : AV S2x128) : AV S100000x128 :=
  stBn (stLin (stAgg a1 h) h (stSlab1 a4) (stRow1 a5) (stSlab1 a6))
    (stMean (stLin (stAgg a1 h) h (stSlab1 a4) (stRow1 a5) (stSlab1 a6)))
    (stVar (stLin (stAgg a1 h) h (stSlab1 a4) (stRow1 a5) (stSlab1 a6))) (stRow1 a7) (stRow1 a8)

/-- The program's second result. -/
def resH (a0 : AV S100000x256) (a1 : IVec S2x640000 32) (a2 : AV S256x128) (a3 : AV S128) (a4 : AV S2x128x128)
    (a5 : AV S2x128) (a6 : AV S2x128x128) (a7 a8 : AV S2x128) : AV S100000x128 :=
  stLayer1 a1 (stLayer0 a1 (stH0 a0 a2 a3) a4 a5 a6 a7 a8) a4 a5 a6 a7 a8
/-- The program's first result. -/
def resY (a0 : AV S100000x256) (a1 : IVec S2x640000 32) (a2 : AV S256x128) (a3 : AV S128) (a4 : AV S2x128x128)
    (a5 : AV S2x128) (a6 : AV S2x128x128) (a7 a8 : AV S2x128) (a9 : AV S128x1) (a10 : AV S1) : AV S100000 :=
  stHead (resH a0 a1 a2 a3 a4 a5 a6 a7 a8) a9 a10

end Cert.ReferenceIdeal.Hand

end
-- ==== Proof.RefValue.lean ====
/-
  The reference program's two results as the composed stage functions.

  The program's 185 operations run as three windows, and the contents after the program are the third window's fold
  from the second's from the first's. Each window's fold is read at the buffers a later window uses, as stage functions
  of the contents the window started from: every operation's result at its own buffer is its function of its operands'
  contents, and at any other buffer what was there. Where a whole stage's result is read several times over — a layer's
  linear combination feeds its column mean, its column variance (twice) and its normalisation — the window is cut after
  that result, and the rest of the window is read from arbitrary contents, so that the result stands there as one array.
  The second layer's normalisation straddles the last two windows: the scaled centred array is the second window's, the
  division by the deviation, the shift and the rectifier are the third's.
-/
import proofs.«431466_j18562848654083_1_alg».proof.Proof.RefRun
import proofs.«431466_j18562848654083_1_alg».proof.Proof.RefStages
import Idealize.ShloMosaic.Lib.StableHlo.Run

noncomputable section

namespace Cert.ReferenceIdeal.Hand.RV

open Cert.ReferenceIdeal Cert.ReferenceIdeal.Hand Idealize.ShloMosaic
open Cert.ReferenceIdeal.Facts₀ Cert.ReferenceIdeal.Facts
open Idealize.ShloMosaic.TcCoe Idealize.ShloMosaic.StableHlo

variable [Facts]

/- The sums, the gather and scatter, the quotient and the reciprocal root are compared as whole functions of their
   operands: no equation below looks inside them. -/
attribute [local irreducible] Host.reduceAdd Host.scatterAdd Host.gather Host.divf Host.rsqrt

/-- The fold over a list is the fold over its last part from the fold over its first part. -/
theorem after_split (n : Nat) (l : List (HloOp τ sig (Elt Ideal))) (V : Valuation τ sig (Elt Ideal)) :
    after l V = after (l.drop n) (after (l.take n) V) := by
  rw [← after_concat, List.take_append_drop]

/-! ## The stages over given arrays -/

/-- The first layer's linear combination, from the arguments. -/
def x0 (a0 : AV S100000x256) (a1 : IVec S2x640000 32) (a2 : AV S256x128) (a3 : AV S128) (a4 : AV S2x128x128)
    (a5 : AV S2x128) (a6 : AV S2x128x128) : AV S100000x128 :=
  stLin (stAgg a1 (stH0 a0 a2 a3)) (stH0 a0 a2 a3) (stSlab0 a4) (stRow0 a5) (stSlab0 a6)

/-- The normalisation and the rectifier, the mean already spread over the rows. -/
def bnC (x muC : AV S100000x128) (v g be : AV S128) : AV S100000x128 :=
  stRelu (addf
    (mulf (mulf (stCols g) (subf x muC))
      (stCols (Host.rsqrt (addf v (broadcastInDim S128 ![] bcast_S_S128 (constant (F := Ideal) S_ .f32 0x3727C5AC#32))))))
    (stCols be))

/-- The aggregation, the edges' sources and targets and the inverse in-degree column given as arrays. -/
def aggC (src dst : IVec S640000 32) (inv : AV S100000x1) (h : AV S100000x128) : AV S100000x128 :=
  mulf
    (Host.scatterAdd scatter_S100000x128_S640000x1_S640000x128_1_0_0_1
      (broadcastInDim S100000x128 ![] bcast_S_S100000x128 (constant (F := Ideal) S_ .f32 0x00000000#32))
      (broadcastInDim S640000x1 ![0] bcast_S640000_S640000x1_0 dst)
      (Host.gather gather_S100000x128_S640000x1_S640000x128_1_0_n_n_0_1_1128 h
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S100000x128 ![0, 1] bcast_S100000x1_S100000x128_0_1 inv)

/-! ## The first window -/

section W0
variable (W : Valuation τ sig (Elt Ideal))

local notation "A0" => W (main_arg0 : DevRef τ sig)
local notation "A1" => W (main_arg1 : DevRef τ sig)
local notation "A2" => W (main_arg2 : DevRef τ sig)
local notation "A3" => W (main_arg3 : DevRef τ sig)
local notation "A4" => W (main_arg4 : DevRef τ sig)
local notation "A5" => W (main_arg5 : DevRef τ sig)
local notation "A6" => W (main_arg6 : DevRef τ sig)
local notation "A7" => W (main_arg7 : DevRef τ sig)

/-- An argument's buffer is written by no operation of the window. -/
theorem keep0 {r : Ref sig .tc} (hr : r ∈ argRefs) :
    after (ops0 (F := Ideal)) W (r : DevRef τ sig) = W (r : DevRef τ sig) :=
  after_of_forall_not_mem ops0 W (ops0_notArg hr)

set_option maxRecDepth 8192 in
theorem w0_v1 : (after (ops0 (F := Ideal)) W (main_v1 : DevRef τ sig) : IVec S640000 32) = stSrc A1 := by
  after_results_simp
  rfl

set_option maxRecDepth 8192 in
theorem w0_v3 : (after (ops0 (F := Ideal)) W (main_v3 : DevRef τ sig) : IVec S640000 32) = stDst A1 := by
  after_results_simp
  rfl

set_option maxRecDepth 8192 in
theorem w0_v12 : (after (ops0 (F := Ideal)) W (main_v12 : DevRef τ sig) : AV S100000x1) = stInvDeg A1 := by
  after_results_simp
  rfl

set_option maxRecDepth 8192 in
theorem w0_v41 : (after (ops0 (F := Ideal)) W (main_v41 : DevRef τ sig) : AV S100000x128) = x0 A0 A1 A2 A3 A4 A5 A6 := by
  after_results_simp
  rfl

set_option maxRecDepth 8192 in
theorem w0_v47 : (after (ops0 (F := Ideal)) W (main_v47 : DevRef τ sig) : AV S128) = stRow0 A7 := by
  after_results_simp
  rfl

set_option maxRecDepth 8192 in
/-- The window up to the linear combination. -/
theorem p0_v41 : (after ((ops0 (F := Ideal)).take 51) W (main_v41 : DevRef τ sig) : AV S100000x128) = x0 A0 A1 A2 A3 A4 A5 A6 := by
  simp only [ops0, List.take_succ_cons, List.take_zero]
  after_results_simp
  rfl

set_option maxRecDepth 8192 in
/-- The rest of the window, from any contents: the variance of the linear combination's array. -/
theorem q0_v45 : (after ((ops0 (F := Ideal)).drop 51) W (main_v45 : DevRef τ sig) : AV S128) = stVar (W (main_v41 : DevRef τ sig)) := by
  simp only [ops0, List.drop_succ_cons, List.drop_zero]
  after_results_simp
  rfl

set_option maxRecDepth 8192 in
/-- The rest of the window, from any contents: the mean of the linear combination's array, over the rows. -/
theorem q0_v49 : (after ((ops0 (F := Ideal)).drop 51) W (main_v49 : DevRef τ sig) : AV S100000x128)
    = stCols (stMean (W (main_v41 : DevRef τ sig))) := by
  simp only [ops0, List.drop_succ_cons, List.drop_zero]
  after_results_simp
  rfl

theorem w0_v45 : (after (ops0 (F := Ideal)) W (main_v45 : DevRef τ sig) : AV S128) = stVar (x0 A0 A1 A2 A3 A4 A5 A6) := by
  rw [after_split 51, q0_v45, p0_v41]

theorem w0_v49 : (after (ops0 (F := Ideal)) W (main_v49 : DevRef τ sig) : AV S100000x128)
    = stCols (stMean (x0 A0 A1 A2 A3 A4 A5 A6)) := by
  rw [after_split 51, q0_v49, p0_v41]

end W0

/-! ## The second window -/

section W1
variable (W : Valuation τ sig (Elt Ideal))

/-- An argument's buffer is written by no operation of the window. -/
theorem keep1 {r : Ref sig .tc} (hr : r ∈ argRefs) :
    after (ops1 (F := Ideal)) W (r : DevRef τ sig) = W (r : DevRef τ sig) :=
  after_of_forall_not_mem ops1 W (ops1_notArg hr)

/-- Nor by any of the window's first operations. -/
theorem keep1p {r : Ref sig .tc} (hr : r ∈ argRefs) (n : Nat) :
    after ((ops1 (F := Ideal)).take n) W (r : DevRef τ sig) = W (r : DevRef τ sig) :=
  after_of_forall_not_mem _ W fun op h => ops1_notArg hr op (List.mem_of_mem_take h)

/-- The first layer's output, from the arrays the window reads. -/
def h1W : AV S100000x128 :=
  bnC (W (main_v41 : DevRef τ sig)) (W (main_v49 : DevRef τ sig)) (W (main_v45 : DevRef τ sig)) (W (main_v47 : DevRef τ sig))
    (stRow0 (W (main_arg8 : DevRef τ sig)))

/-- The second layer's linear combination, from the arrays the window reads. -/
def x1W : AV S100000x128 :=
  stLin (aggC (W (main_v1 : DevRef τ sig)) (W (main_v3 : DevRef τ sig)) (W (main_v12 : DevRef τ sig)) (h1W W)) (h1W W)
    (stSlab1 (W (main_arg4 : DevRef τ sig))) (stRow1 (W (main_arg5 : DevRef τ sig))) (stSlab1 (W (main_arg6 : DevRef τ sig)))

set_option maxRecDepth 8192 in
/-- The window up to the second linear combination. -/
theorem p1_v89 : (after ((ops1 (F := Ideal)).take 46) W (main_v89 : DevRef τ sig) : AV S100000x128) = x1W W := by
  simp only [ops1, List.take_succ_cons, List.take_zero]
  after_results_simp
  rfl

set_option maxRecDepth 8192 in
/-- The rest of the window, from any contents: the variance of the linear combination's array. -/
theorem q1_v93 : (after ((ops1 (F := Ideal)).drop 46) W (main_v93 : DevRef τ sig) : AV S128) = stVar (W (main_v89 : DevRef τ sig)) := by
  simp only [ops1, List.drop_succ_cons, List.drop_zero]
  after_results_simp
  rfl

set_option maxRecDepth 8192 in
/-- The rest of the window, from any contents: the array centred on its column means, scaled column by column. -/
theorem q1_v101 : (after ((ops1 (F := Ideal)).drop 46) W (main_v101 : DevRef τ sig) : AV S100000x128)
    = mulf (stCols (stRow1 (W (main_arg7 : DevRef τ sig))))
        (subf (W (main_v89 : DevRef τ sig)) (stCols (stMean (W (main_v89 : DevRef τ sig))))) := by
  simp only [ops1, List.drop_succ_cons, List.drop_zero]
  after_results_simp
  rfl

theorem w1_v93 : (after (ops1 (F := Ideal)) W (main_v93 : DevRef τ sig) : AV S128) = stVar (x1W W) := by
  rw [after_split 46, q1_v93, p1_v89]

theorem w1_v101 : (after (ops1 (F := Ideal)) W (main_v101 : DevRef τ sig) : AV S100000x128)
    = mulf (stCols (stRow1 (W (main_arg7 : DevRef τ sig)))) (subf (x1W W) (stCols (stMean (x1W W)))) := by
  rw [after_split 46, q1_v101, p1_v89, keep1p W (r := main_arg7) (by decide)]

set_option maxRecDepth 8192 in
/-- The small constant under the root is the window's last operation. -/
theorem w1_cst15 : (after (ops1 (F := Ideal)) W (main_cst_15 : DevRef τ sig) : AV S_)
    = constant (F := Ideal) S_ .f32 0x3727C5AC#32 := by
  after_results_simp

end W1

/-! ## The third window -/

section W2
variable (W : Valuation τ sig (Elt Ideal))

/-- The second layer's output, from the arrays the window reads. -/
def h2W : AV S100000x128 :=
  stRelu (addf
    (mulf (W (main_v101 : DevRef τ sig))
      (stCols (Host.rsqrt (addf (W (main_v93 : DevRef τ sig))
        (broadcastInDim S128 ![] bcast_S_S128 (W (main_cst_15 : DevRef τ sig) : AV S_))))))
    (stCols (stRow1 (W (main_arg8 : DevRef τ sig)))))

set_option maxRecDepth 8192 in
theorem w2_v113 : (after (ops2 (F := Ideal)) W (main_v113 : DevRef τ sig) : AV S100000x128) = h2W W := by
  after_results_simp
  rfl

set_option maxRecDepth 8192 in
theorem w2_v118 : (after (ops2 (F := Ideal)) W (main_v118 : DevRef τ sig) : AV S100000)
    = stHead (h2W W) (W (main_arg9 : DevRef τ sig)) (W (main_arg10 : DevRef τ sig)) := by
  after_results_simp
  rfl

end W2

/-! ## The two results -/

section Results
variable (V : Valuation τ sig (Elt Ideal))

set_option maxRecDepth 8192 in
/-- The second layer's output after the first two windows is the composed layers of the arguments. -/
theorem h2_eq : h2W (after (ops1 (F := Ideal)) (after (ops0 (F := Ideal)) V))
    = resH (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  unfold h2W
  rw [w1_v101, w1_v93, w1_cst15, keep1 _ (r := main_arg8) (by decide), keep0 _ (r := main_arg8) (by decide)]
  unfold x1W h1W
  rw [w0_v41, w0_v49, w0_v45, w0_v47, w0_v1, w0_v3, w0_v12,
    keep0 _ (r := main_arg4) (by decide), keep0 _ (r := main_arg5) (by decide), keep0 _ (r := main_arg6) (by decide),
    keep0 _ (r := main_arg7) (by decide), keep0 _ (r := main_arg8) (by decide)]
  rfl

theorem h_eq : (StableHlo.after (ops (F := Ideal)) V (main_v113 : DevRef τ sig) : AV S100000x128)
    = resH (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [after_ops, w2_v113]
  exact h2_eq V

theorem y_eq : (StableHlo.after (ops (F := Ideal)) V (main_v118 : DevRef τ sig) : AV S100000)
    = resY (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops, w2_v118, h2_eq,
    keep1 _ (r := main_arg9) (by decide), keep0 _ (r := main_arg9) (by decide),
    keep1 _ (r := main_arg10) (by decide), keep0 _ (r := main_arg10) (by decide)]
  rfl

end Results

end Cert.ReferenceIdeal.Hand.RV

end
-- ==== Proof.RefReadA.lean ====
/-
  Three stages of the reference read entry by entry: the first dense layer with its rectifier, a layer's linear
  combination, and the head. Each is a matrix product read as a sum over the contracted coordinate, a bias vector laid
  along every row, and (for the first) the maximum with zero; the head's one column is then read as a vector.
-/
import proofs.«431466_j18562848654083_1_alg».proof.Proof.RefStages
import proofs.«431466_j18562848654083_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.ReferenceIdeal.Hand.RA

open Cert.ReferenceIdeal Cert.ReferenceIdeal.Hand Cert.Spec Idealize.ShloMosaic Idealize.ShloMosaic.ValueIdx
open Facts₀ Facts
open scoped BigOperators

variable [Facts]

/-! ## The three matrix products at an entry -/

/-- The 100000×256 by 256×128 product at entry (p, j): the sum over the 256 contracted coordinates. -/
theorem dot256_apply (x : AV S100000x256) (w : AV S256x128) (p : Fin 100000) (j : Fin 128) :
    Host.dotGeneral dot_S100000x256_S256x128_S100000x128_1_0_0_1_n_n none x w (ix2 p j)
      = ∑ q : Fin 256, x (ix2 p q) * w (ix2 q j) :=
  StackMember.dotGeneral_plain_apply (m := 100000) (n := 128) (k := 256) none x w p j

/-- The 100000×128 by 128×128 product at entry (p, j). -/
theorem dot128_apply (x : AV S100000x128) (w : AV S128x128) (p : Fin 100000) (j : Fin 128) :
    Host.dotGeneral dot_S100000x128_S128x128_S100000x128_1_0_0_1_n_n none x w (ix2 p j)
      = ∑ q : Fin 128, x (ix2 p q) * w (ix2 q j) :=
  StackMember.dotGeneral_plain_apply (m := 100000) (n := 128) (k := 128) none x w p j

/-- The 100000×128 by 128×1 product at entry (p, j). -/
theorem dot1_apply (x : AV S100000x128) (w : AV S128x1) (p : Fin 100000) (j : Fin 1) :
    Host.dotGeneral dot_S100000x128_S128x1_S100000x1_1_0_0_1_n_n none x w (ix2 p j)
      = ∑ q : Fin 128, x (ix2 p q) * w (ix2 q j) :=
  StackMember.dotGeneral_plain_apply (m := 100000) (n := 1) (k := 128) none x w p j

/-! ## A vector laid along every row, and the zero splat -/

/-- A vector of `n` entries made a one-row matrix and repeated down `m` rows reads, at (r, t), the vector at `t`. -/
theorem rows_apply {α : Type} {m n : Nat}
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (v : (⟨1, ![n]⟩ : Shape).Idx → α) (r : Fin m) (t : Fin n) :
    broadcastInDim ⟨2, ![m, n]⟩ ![0, 1] h2 (broadcastInDim ⟨2, ![1, n]⟩ ![1] h1 v) (ix2 r t) = v (ix1 t) := by
  rw [broadcastInDim_oneRow_apply]
  refine broadcastInDim_apply ![1] h1 v (ix2 (0 : Fin 1) t) (ix1 t) ?_
  intro a
  match a with
  | ⟨0, _⟩ =>
    show t.val = if n = 1 then 0 else t.val
    split_ifs with hn
    · have := t.isLt; omega
    · rfl

/-- The bias of a layer laid along every row. -/
theorem stCols_apply (v : AV S128) (p : Fin 100000) (j : Fin 128) : stCols v (ix2 p j) = v (ix1 j) :=
  rows_apply bcast_S128_S1x128_1 bcast_S1x128_S100000x128_0_1 v p j

/-- The rectifier at an entry: the maximum with zero. -/
theorem stRelu_apply (x : AV S100000x128) (i : S100000x128.Idx) : stRelu x i = max (x i) 0 := by
  show max (x i) (Ideal.ofBits .f32 0x00000000#32) = max (x i) 0
  rw [Ideal.ofBits_zero_f32]

/-! ## The stages -/

/-- The first dense layer with its rectifier. -/
theorem stH0_eq (a0 : AV S100000x256) (a2 : AV S256x128) (a3 : AV S128) :
    stH0 a0 a2 a3 = unmat (relu (dense (mat a0) (mat a2) (vec a3))) := by
  funext i
  obtain ⟨p, j, rfl⟩ : ∃ (p : Fin 100000) (j : Fin 128), i = ix2 p j := ⟨i 0, i 1, eq_ix2 i⟩
  unfold stH0
  rw [stRelu_apply, addf_apply, dot256_apply]
  show max (_ + stCols a3 (ix2 p j)) 0 = _
  rw [stCols_apply]
  rfl

/-- A layer's linear combination. -/
theorem stLin_eq (agg h : AV S100000x128) (wl : AV S128x128) (bl : AV S128) (wr : AV S128x128) :
    stLin agg h wl bl wr = unmat (lin (mat agg) (mat h) (mat wl) (vec bl) (mat wr)) := by
  funext i
  obtain ⟨p, j, rfl⟩ : ∃ (p : Fin 100000) (j : Fin 128), i = ix2 p j := ⟨i 0, i 1, eq_ix2 i⟩
  unfold stLin
  rw [addf_apply, addf_apply, dot128_apply, dot128_apply, stCols_apply]
  rfl

/-- The head: its one column read as a vector. -/
theorem stHead_eq (h : AV S100000x128) (a9 : AV S128x1) (a10 : AV S1) :
    stHead h a9 a10 = unvec (fun n => dense (mat h) (mat a9) (vec a10) n 0) := by
  funext i
  obtain ⟨n, rfl⟩ : ∃ n : Fin 100000, i = ix1 n := ⟨i 0, eq_ix1 i⟩
  unfold stHead
  rw [shapeCast_apply _ shapeCasts_S100000x1_S100000 (ix1 n) (ix2 n (0 : Fin 1)) (by
    rw [Shape.rowMajor_val_two, Shape.rowMajor_val_one]
    show n.val * 1 + 0 = n.val
    omega)]
  rw [addf_apply, dot1_apply, rows_apply bcast_S1_S1x1_1 bcast_S1x1_S100000x1_0_1 a10 n 0]
  rfl

end Cert.ReferenceIdeal.Hand.RA

end
-- ==== Proof.SpecLaws.lean ====
/-
  The algebra of the specification: the two spellings of a column's variance agree on finite entries, every
  intermediate of the two layers stays finite, and hence the node features computed with either spelling are one matrix.
-/
import Idealize.ShloMosaic.PureOps.Ideal
import Mathlib.Data.EReal.Basic
import Mathlib.Data.EReal.Operations
import Mathlib.Data.EReal.Inv
import Mathlib.Algebra.BigOperators.Ring.Finset
import Mathlib.Algebra.BigOperators.Field
import Mathlib.Algebra.Order.BigOperators.Ring.Finset
import Mathlib.Analysis.SpecialFunctions.Pow.Real
import Mathlib.Tactic.Ring
import Mathlib.Tactic.FieldSimp
import Mathlib.Tactic.Positivity
import proofs.«431466_j18562848654083_1_alg».proof.Proof.Spec

noncomputable section

namespace Cert.Spec

open Idealize.ShloMosaic
open scoped BigOperators

/-! ## The two constants -/

/-- The node-count constant is the real number 100000. -/
theorem cN_eq : cN = ((100000 : ℝ) : EReal) := by
  unfold cN
  simp [Ideal.ofBits, Ideal.ieee, -EReal.coe_mul]; norm_num

/-- The variance offset is some positive real. -/
theorem eps_pos : ∃ r : ℝ, 0 < r ∧ eps = (r : EReal) := by
  unfold eps
  simp [Ideal.ofBits, Ideal.ieee, -EReal.coe_mul]

/-! ## Finiteness is closed under the operations of the specification -/

private theorem isFin_coe (r : ℝ) : IsFin (r : EReal) := ⟨EReal.coe_ne_bot r, EReal.coe_ne_top r⟩

private theorem isFin_real {x : EReal} (h : IsFin x) : ∃ r : ℝ, x = (r : EReal) :=
  ⟨x.toReal, (EReal.coe_toReal h.2 h.1).symm⟩

private theorem isFin_add {x y : EReal} (hx : IsFin x) (hy : IsFin y) : IsFin (x + y) := by
  obtain ⟨a, rfl⟩ := isFin_real hx
  obtain ⟨b, rfl⟩ := isFin_real hy
  rw [← EReal.coe_add]; exact isFin_coe _

private theorem isFin_sub {x y : EReal} (hx : IsFin x) (hy : IsFin y) : IsFin (x - y) := by
  obtain ⟨a, rfl⟩ := isFin_real hx
  obtain ⟨b, rfl⟩ := isFin_real hy
  rw [← EReal.coe_sub]; exact isFin_coe _

private theorem isFin_mul {x y : EReal} (hx : IsFin x) (hy : IsFin y) : IsFin (x * y) := by
  obtain ⟨a, rfl⟩ := isFin_real hx
  obtain ⟨b, rfl⟩ := isFin_real hy
  rw [← EReal.coe_mul]; exact isFin_coe _

private theorem isFin_max_zero {x : EReal} (hx : IsFin x) : IsFin (max x 0) := by
  rcases max_choice x 0 with h | h <;> rw [h]
  · exact hx
  · exact isFin_coe 0

/-- The coercion of the reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem isFin_sum {ι : Type*} (s : Finset ι) (f : ι → EReal) (hf : ∀ i, IsFin (f i)) :
    IsFin (∑ i ∈ s, f i) := by
  have h : ∀ i, f i = ((f i).toReal : EReal) := fun i => (EReal.coe_toReal (hf i).2 (hf i).1).symm
  rw [Finset.sum_congr rfl (fun i _ => h i), ← coe_sum]
  exact isFin_coe _

/-- Division by the node count is multiplication by a real. -/
private theorem div_cN (x : EReal) : Ideal.div x cN = x * ((1 / 100000 : ℝ) : EReal) := by
  rw [cN_eq]; exact Ideal.div_coe (by norm_num) x

private theorem isFin_div_cN {x : EReal} (hx : IsFin x) : IsFin (Ideal.div x cN) := by
  rw [div_cN]; exact isFin_mul hx (isFin_coe _)

private theorem dense_isFin {n k m : Nat} (x : Mat n k) (W : Mat k m) (b : Fin m → EReal)
    (hx : ∀ p q, IsFin (x p q)) (hW : ∀ p q, IsFin (W p q)) (hb : ∀ j, IsFin (b j)) :
    ∀ p j, IsFin (dense x W b p j) := fun p j =>
  isFin_add (isFin_sum _ _ fun q => isFin_mul (hx p q) (hW q j)) (hb j)

private theorem relu_isFin {n m : Nat} (x : Mat n m) (hx : ∀ p j, IsFin (x p j)) :
    ∀ p j, IsFin (relu x p j) := fun p j => isFin_max_zero (hx p j)

private theorem lin_isFin {n k m : Nat} (agg h : Mat n k) (Wl : Mat k m) (bl : Fin m → EReal) (Wr : Mat k m)
    (hagg : ∀ p q, IsFin (agg p q)) (hh : ∀ p q, IsFin (h p q)) (hWl : ∀ p q, IsFin (Wl p q))
    (hbl : ∀ j, IsFin (bl j)) (hWr : ∀ p q, IsFin (Wr p q)) :
    ∀ p j, IsFin (lin agg h Wl bl Wr p j) := fun p j =>
  isFin_add (isFin_add (isFin_sum _ _ fun q => isFin_mul (hagg p q) (hWl q j)) (hbl j))
    (isFin_sum _ _ fun q => isFin_mul (hh p q) (hWr q j))

private theorem mean_isFin {n m : Nat} (x : Mat n m) (hx : ∀ p j, IsFin (x p j)) :
    ∀ j, IsFin (mean x j) := fun j => isFin_div_cN (isFin_sum _ _ fun p => hx p j)

/-! ## The variance identity -/

/-- Over the reals: the mean of the squared deviations from the mean is the mean of the squares minus the squared
    mean, for a family indexed by a finite type whose cardinality is the divisor. -/
private theorem real_var {n : Nat} (N : ℝ) (hN : (n : ℝ) = N) (hN0 : N ≠ 0) (f : Fin n → ℝ) :
    (∑ p, f p * f p) * (1 / N) - ((∑ p, f p) * (1 / N)) * ((∑ p, f p) * (1 / N))
      = (∑ p, (f p - (∑ q, f q) * (1 / N)) * (f p - (∑ q, f q) * (1 / N))) * (1 / N) := by
  set S : ℝ := ∑ p, f p with hS
  set Q : ℝ := ∑ p, f p * f p with hQ
  set μ : ℝ := S * (1 / N) with hμ
  have hsum : ∑ p, (f p - μ) * (f p - μ) = Q - 2 * μ * S + N * (μ * μ) := by
    have h : ∀ p, (f p - μ) * (f p - μ) = f p * f p - 2 * μ * f p + μ * μ := fun p => by ring
    rw [Finset.sum_congr rfl (fun p _ => h p), Finset.sum_add_distrib, Finset.sum_sub_distrib,
      ← Finset.mul_sum, Finset.sum_const, Finset.card_univ, Fintype.card_fin, nsmul_eq_mul, hN]
  rw [hsum, hμ]
  field_simp
  ring

/-- On a matrix of finite entries the two spellings of the column variance agree, and the common value is a
    nonnegative real. -/
private theorem var_eq_real {m : Nat} (x : Mat 100000 m) (hx : ∀ p j, IsFin (x p j)) (j : Fin m) :
    varK x j = varR x j ∧ ∃ v : ℝ, 0 ≤ v ∧ varR x j = (v : EReal) := by
  have hcol : ∀ p, x p j = ((x p j).toReal : EReal) := fun p => (EReal.coe_toReal (hx p j).2 (hx p j).1).symm
  set f : Fin 100000 → ℝ := fun p => (x p j).toReal with hf
  have hcol' : ∀ p, x p j = (f p : EReal) := hcol
  have hmean : mean x j = (((∑ q, f q) * (1 / 100000) : ℝ) : EReal) := by
    unfold mean colSum
    rw [div_cN, Finset.sum_congr rfl (fun p _ => hcol' p), ← coe_sum, ← EReal.coe_mul]
  have hK : varK x j = (((∑ p, f p * f p) * (1 / 100000)
      - ((∑ p, f p) * (1 / 100000)) * ((∑ p, f p) * (1 / 100000)) : ℝ) : EReal) := by
    unfold varK colSumSq
    rw [hmean, div_cN, Finset.sum_congr rfl (fun p _ => by rw [hcol' p, ← EReal.coe_mul]), ← coe_sum,
      ← EReal.coe_mul, ← EReal.coe_mul, ← EReal.coe_sub]
  have hR : varR x j = (((∑ p, (f p - (∑ q, f q) * (1 / 100000)) * (f p - (∑ q, f q) * (1 / 100000)))
      * (1 / 100000) : ℝ) : EReal) := by
    unfold varR
    rw [hmean, div_cN,
      Finset.sum_congr rfl (fun p _ => by rw [hcol' p, ← EReal.coe_sub, ← EReal.coe_mul]), ← coe_sum,
      ← EReal.coe_mul]
  refine ⟨?_, _, ?_, hR⟩
  · rw [hK, hR]
    exact congrArg _ (real_var (n := 100000) 100000 (by norm_num) (by norm_num) f)
  · exact mul_nonneg (Finset.sum_nonneg fun p _ => mul_self_nonneg _) (by norm_num)

private theorem var_eq {m : Nat} (x : Mat 100000 m) (hx : ∀ p j, IsFin (x p j)) : varK x = varR x :=
  funext fun j => (var_eq_real x hx j).1

/-! ## The normalisation keeps entries finite -/

/-- The reciprocal square root of a nonnegative real plus the offset is finite. -/
private theorem rsqrt_isFin {v : ℝ} (hv : 0 ≤ v) : IsFin (Ideal.rsqrt ((v : EReal) + eps)) := by
  obtain ⟨r, hr, he⟩ := eps_pos
  have hpos : 0 < v + r := by positivity
  rw [he, ← EReal.coe_add, Ideal.rsqrt_coe, if_neg (not_lt.mpr hpos.le), if_neg hpos.ne']
  exact isFin_coe _

private theorem bn_isFin {m : Nat} (x : Mat 100000 m) (g be : Fin m → EReal)
    (hx : ∀ p j, IsFin (x p j)) (hg : ∀ j, IsFin (g j)) (hbe : ∀ j, IsFin (be j)) :
    ∀ p j, IsFin (bn x (mean x) (varR x) g be p j) := fun p j => by
  obtain ⟨v, hv, hvR⟩ := (var_eq_real x hx j).2
  unfold bn
  refine isFin_max_zero (isFin_add (isFin_mul (isFin_mul (hg j) (isFin_sub (hx p j) (mean_isFin x hx j))) ?_) (hbe j))
  rw [hvR]; exact rsqrt_isFin hv

/-! ## One layer, then both -/

private theorem layer_eq (Agg : Mat 100000 128 → Mat 100000 128)
    (hAgg : ∀ h : Mat 100000 128, (∀ p j, IsFin (h p j)) → ∀ p j, IsFin (Agg h p j))
    (h : Mat 100000 128) (Wl : Mat 128 128) (bl : Fin 128 → EReal) (Wr : Mat 128 128) (g be : Fin 128 → EReal)
    (hh : ∀ p q, IsFin (h p q)) (hWl : ∀ p q, IsFin (Wl p q)) (hbl : ∀ j, IsFin (bl j))
    (hWr : ∀ p q, IsFin (Wr p q)) :
    layer varK Agg h Wl bl Wr g be = layer varR Agg h Wl bl Wr g be := by
  unfold layer
  rw [var_eq _ (lin_isFin (Agg h) h Wl bl Wr (hAgg h hh) hh hWl hbl hWr)]

private theorem layer_isFin (Agg : Mat 100000 128 → Mat 100000 128)
    (hAgg : ∀ h : Mat 100000 128, (∀ p j, IsFin (h p j)) → ∀ p j, IsFin (Agg h p j))
    (h : Mat 100000 128) (Wl : Mat 128 128) (bl : Fin 128 → EReal) (Wr : Mat 128 128) (g be : Fin 128 → EReal)
    (hh : ∀ p q, IsFin (h p q)) (hWl : ∀ p q, IsFin (Wl p q)) (hbl : ∀ j, IsFin (bl j))
    (hWr : ∀ p q, IsFin (Wr p q)) (hg : ∀ j, IsFin (g j)) (hbe : ∀ j, IsFin (be j)) :
    ∀ p j, IsFin (layer varR Agg h Wl bl Wr g be p j) := by
  unfold layer
  exact bn_isFin _ g be (lin_isFin (Agg h) h Wl bl Wr (hAgg h hh) hh hWl hbl hWr) hg hbe

/-- With either spelling of the variance the node features after both layers are the same matrix, given finite
    inputs and an aggregation that keeps entries finite. -/
theorem feat_eq (Agg : Mat 100000 128 → Mat 100000 128)
    (hAgg : ∀ h : Mat 100000 128, (∀ p j, IsFin (h p j)) → ∀ p j, IsFin (Agg h p j))
    (x : Mat 100000 256) (Wp : Mat 256 128) (bp : Fin 128 → EReal)
    (Wl0 : Mat 128 128) (bl0 : Fin 128 → EReal) (Wr0 : Mat 128 128) (g0 be0 : Fin 128 → EReal)
    (Wl1 : Mat 128 128) (bl1 : Fin 128 → EReal) (Wr1 : Mat 128 128) (g1 be1 : Fin 128 → EReal)
    (hx : ∀ p q, IsFin (x p q)) (hWp : ∀ p q, IsFin (Wp p q)) (hbp : ∀ j, IsFin (bp j))
    (hWl0 : ∀ p q, IsFin (Wl0 p q)) (hbl0 : ∀ j, IsFin (bl0 j)) (hWr0 : ∀ p q, IsFin (Wr0 p q)) (hg0 : ∀ j, IsFin (g0 j)) (hbe0 : ∀ j, IsFin (be0 j))
    (hWl1 : ∀ p q, IsFin (Wl1 p q)) (hbl1 : ∀ j, IsFin (bl1 j)) (hWr1 : ∀ p q, IsFin (Wr1 p q)) (hg1 : ∀ j, IsFin (g1 j)) (hbe1 : ∀ j, IsFin (be1 j)) :
    feat varK Agg x Wp bp Wl0 bl0 Wr0 g0 be0 Wl1 bl1 Wr1 g1 be1 = feat varR Agg x Wp bp Wl0 bl0 Wr0 g0 be0 Wl1 bl1 Wr1 g1 be1 := by
  have h0 : ∀ p j, IsFin (relu (dense x Wp bp) p j) := relu_isFin _ (dense_isFin x Wp bp hx hWp hbp)
  have h1 : ∀ p j, IsFin (layer varR Agg (relu (dense x Wp bp)) Wl0 bl0 Wr0 g0 be0 p j) :=
    layer_isFin Agg hAgg _ Wl0 bl0 Wr0 g0 be0 h0 hWl0 hbl0 hWr0 hg0 hbe0
  unfold feat
  rw [layer_eq Agg hAgg _ Wl0 bl0 Wr0 g0 be0 h0 hWl0 hbl0 hWr0,
    layer_eq Agg hAgg _ Wl1 bl1 Wr1 g1 be1 h1 hWl1 hbl1 hWr1]

end Cert.Spec

end
-- ==== Proof.RefReadB.lean ====
/-
  Some stages of the reference read index by index: the column mean is the column sum over the node count; the
  column variance is the mean of the squared deviations from that mean (its guard, the node count compared with
  zero, always takes the quotient branch because the node count is positive); the normalisation is, entry by entry,
  scale times deviation times the reciprocal root of the offset variance, plus the shift, rectified; and a row of a
  two-row table or a slab of a two-slab table is that table read at the fixed leading coordinate.
-/
import proofs.«431466_j18562848654083_1_alg».proof.Proof.RefStages
import proofs.«431466_j18562848654083_1_alg».proof.Proof.Spec
import proofs.«431466_j18562848654083_1_alg».proof.Proof.SpecLaws
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Hand.RB

open Cert.ReferenceIdeal Cert.ReferenceIdeal.Hand Cert.Spec Idealize.ShloMosaic Idealize.ShloMosaic.ValueIdx
open Facts₀ Facts
open scoped BigOperators

variable [Facts]

/-! ## Rows and slabs -/

/-- Row 0 of a two-row table. -/
theorem stRow0_eq (a : AV S2x128) : vec (stRow0 a) = fun j => a (ix2 0 j) := by
  funext j
  show shapeCast S128 (extractStridedSlice S1x128 ![0, 0] a slices_S2x128_S1x128_0_0) shapeCasts_S1x128_S128 (ix1 j) = _
  rw [shapeCast_1a_a_apply]
  exact slice2_axis0_apply 0 a slices_S2x128_S1x128_0_0 (0 : Fin 1) j (0 : Fin 2) rfl

/-- Row 1 of a two-row table. -/
theorem stRow1_eq (a : AV S2x128) : vec (stRow1 a) = fun j => a (ix2 1 j) := by
  funext j
  show shapeCast S128 (extractStridedSlice S1x128 ![1, 0] a slices_S2x128_S1x128_1_0) shapeCasts_S1x128_S128 (ix1 j) = _
  rw [shapeCast_1a_a_apply]
  exact slice2_axis0_apply 1 a slices_S2x128_S1x128_1_0 (0 : Fin 1) j (1 : Fin 2) rfl

/-- Slab 0 of a two-slab table. -/
theorem stSlab0_eq (a : AV S2x128x128) : mat (stSlab0 a) = fun k j => a (ix3 0 k j) := by
  funext k j
  show shapeCast S128x128 (extractStridedSlice S1x128x128 ![0, 0, 0] a slices_S2x128x128_S1x128x128_0_0_0)
    shapeCasts_S1x128x128_S128x128 (ix2 k j) = _
  rw [shapeCast_1ab_ab_apply]
  refine extractStridedSlice_apply _ a _ _ (ix3 (0 : Fin 2) k j) fun ax => ?_
  match ax with
  | ⟨0, _⟩ => rfl
  | ⟨1, _⟩ => exact (Nat.zero_add _).symm
  | ⟨2, _⟩ => exact (Nat.zero_add _).symm

/-- Slab 1 of a two-slab table. -/
theorem stSlab1_eq (a : AV S2x128x128) : mat (stSlab1 a) = fun k j => a (ix3 1 k j) := by
  funext k j
  show shapeCast S128x128 (extractStridedSlice S1x128x128 ![1, 0, 0] a slices_S2x128x128_S1x128x128_1_0_0)
    shapeCasts_S1x128x128_S128x128 (ix2 k j) = _
  rw [shapeCast_1ab_ab_apply]
  refine extractStridedSlice_apply _ a _ _ (ix3 (1 : Fin 2) k j) fun ax => ?_
  match ax with
  | ⟨0, _⟩ => rfl
  | ⟨1, _⟩ => exact (Nat.zero_add _).symm
  | ⟨2, _⟩ => exact (Nat.zero_add _).symm

/-! ## Scalars and column vectors spread over an array -/

/-- A constant scalar spread over a vector reads that constant. -/
theorem scal128 (w : BitVec 32) (j : S128.Idx) :
    broadcastInDim S128 ![] bcast_S_S128 (constant (F := Ideal) S_ .f32 w) j = Ideal.ofBits .f32 w := by
  rw [broadcastInDim_scalar_apply]; rfl

/-- The column sum from zero. -/
theorem colSum_read (x : AV S100000x128) (j : Fin 128) :
    Host.reduceAdd x (constant (F := Ideal) S_ .f32 0x00000000#32) reducesTo_S100000x128_S128_d0 h_S_ (ix1 j)
      = ∑ p : Fin 100000, x (ix2 p j) := by
  have hR : S100000x128.Reduces [0] S128 := by decide
  rw [hostReduceAdd_apply, Ideal.hostReduceAdd_single reducesTo_S100000x128_S128_d0 hR, constant_apply,
    Ideal.ofBits_zero_f32, zero_add]
  show ∑ p : Fin 100000, x (hR.lift (ix1 j) p) = _
  refine Finset.sum_congr rfl fun p _ => congrArg x ?_
  funext ax
  match ax with
  | ⟨0, _⟩ => rfl
  | ⟨1, _⟩ => rfl

/-! ## The column mean -/

theorem stMean_eq (x : AV S100000x128) : stMean x = unvec (mean (mat x)) := by
  funext i
  obtain ⟨j, rfl⟩ : ∃ j : Fin 128, i = ix1 j := ⟨i 0, eq_ix1 i⟩
  unfold stMean
  rw [hostDivf_apply, colSum_read, scal128]
  rfl

/-! ## The normalisation -/

/-- A vector over the columns spread over the rows reads the vector at the column. -/
theorem stCols_read (v : AV S128) (p : Fin 100000) (q : Fin 128) : stCols v (ix2 p q) = v (ix1 q) := by
  unfold stCols
  refine (broadcastInDim_apply _ _ _ (ix2 p q) (ix2 (0 : Fin 1) q) fun ax => ?_).trans
    (broadcastInDim_apply _ _ v (ix2 (0 : Fin 1) q) (ix1 q) fun ax => ?_)
  · match ax with
    | ⟨0, _⟩ => rfl
    | ⟨1, _⟩ => rfl
  · match ax with
    | ⟨0, _⟩ => rfl

/-- The rectifier reads as the maximum with zero. -/
theorem stRelu_read (x : AV S100000x128) (i : S100000x128.Idx) : stRelu x i = max (x i) 0 := by
  unfold stRelu
  rw [maximumf_apply, broadcastInDim_scalar_apply, constant_apply, Ideal.ofBits_zero_f32]

theorem stBn_eq (x : AV S100000x128) (mu v g be : AV S128) :
    stBn x mu v g be = unmat (bn (mat x) (vec mu) (vec v) (vec g) (vec be)) := by
  funext i
  obtain ⟨p, q, rfl⟩ : ∃ (p : Fin 100000) (q : Fin 128), i = ix2 p q := ⟨i 0, i 1, eq_ix2 i⟩
  unfold stBn
  rw [stRelu_read, addf_apply, mulf_apply, mulf_apply, subf_apply, stCols_read, stCols_read, stCols_read, stCols_read]
  show max (g (ix1 q) * (x (ix2 p q) - mu (ix1 q))
      * Ideal.rsqrt (v (ix1 q) + broadcastInDim S128 ![] bcast_S_S128 (constant (F := Ideal) S_ .f32 0x3727C5AC#32) (ix1 q))
      + be (ix1 q)) 0 = _
  rw [scal128]
  rfl

/-! ## The column variance -/

/-- The node count is positive. -/
theorem cN_pos : (0 : EReal) < cN := by
  rw [cN_eq]
  exact EReal.coe_pos.mpr (by norm_num)

/-- The mean as the variance stage spells it: the column sum laid out as one row, over the node count. -/
def muV (x : AV S100000x128) : AV S1x128 :=
  Host.divf
    (broadcastInDim S1x128 ![1] bcast_S128_S1x128_1
      (Host.reduceAdd x (constant (F := Ideal) S_ .f32 0x00000000#32) reducesTo_S100000x128_S128_d0 h_S_))
    (broadcastInDim S1x128 ![] bcast_S_S1x128 (constant (F := Ideal) S_ .f32 0x47C35000#32))

/-- The deviations from that mean. -/
def devV (x : AV S100000x128) : AV S100000x128 :=
  subf x (broadcastInDim S100000x128 ![0, 1] bcast_S1x128_S100000x128_0_1 (muV x))

/-- The divisor: the node count less the integer zero as a float. -/
def cntV : AV S_ :=
  subf (constant (F := Ideal) S_ .f32 0x47C35000#32) (sitofp .f32 (constantI S_ 32 0#32))

theorem stVar_unfold (x : AV S100000x128) : stVar x =
    select (broadcastInDim S128 ![] bcast_S_S128 (cmpf .ogt cntV (constant (F := Ideal) S_ .f32 0x00000000#32)))
      (Host.divf (Host.reduceAdd (mulf (devV x) (devV x)) (constant (F := Ideal) S_ .f32 0x00000000#32)
          reducesTo_S100000x128_S128_d0 h_S_)
        (broadcastInDim S128 ![] bcast_S_S128 cntV))
      (broadcastInDim S128 ![] bcast_S_S128 (id (constant (F := Ideal) S_ .f32 0x7FC00000#32))) := rfl

theorem muV_read (x : AV S100000x128) (j : Fin 128) : muV x (ix2 (0 : Fin 1) j) = mean (mat x) j := by
  unfold muV
  rw [hostDivf_apply, broadcastInDim_scalar_apply, constant_apply]
  have e : broadcastInDim S1x128 ![1] bcast_S128_S1x128_1
      (Host.reduceAdd x (constant (F := Ideal) S_ .f32 0x00000000#32) reducesTo_S100000x128_S128_d0 h_S_)
      (ix2 (0 : Fin 1) j) = ∑ p : Fin 100000, x (ix2 p j) := by
    refine (broadcastInDim_apply _ _ _ (ix2 (0 : Fin 1) j) (ix1 j) fun ax => ?_).trans (colSum_read x j)
    match ax with
    | ⟨0, _⟩ => rfl
  rw [e]
  rfl

theorem devV_read (x : AV S100000x128) (p : Fin 100000) (j : Fin 128) :
    devV x (ix2 p j) = x (ix2 p j) - mean (mat x) j := by
  unfold devV
  rw [subf_apply, ← muV_read]
  refine congrArg (fun t => x (ix2 p j) - t) ?_
  refine broadcastInDim_apply _ _ _ (ix2 p j) (ix2 (0 : Fin 1) j) fun ax => ?_
  match ax with
  | ⟨0, _⟩ => rfl
  | ⟨1, _⟩ => rfl

theorem cntV_read (i : S_.Idx) : cntV i = cN := by
  unfold cntV
  rw [subf_apply, constant_apply, sitofp_apply, constantI_apply]
  show cN - (((0#32 : BitVec 32).toInt : ℝ) : EReal) = cN
  rw [show (0#32 : BitVec 32).toInt = 0 from rfl, Int.cast_zero, EReal.coe_zero, sub_zero]

theorem stVar_eq (x : AV S100000x128) : stVar x = unvec (varR (mat x)) := by
  funext i
  obtain ⟨j, rfl⟩ : ∃ j : Fin 128, i = ix1 j := ⟨i 0, eq_ix1 i⟩
  rw [stVar_unfold, select_apply, broadcastInDim_scalar_apply, cmpf_apply, cntV_read, constant_apply,
    Ideal.ofBits_zero_f32, Ideal.cmpf_def]
  have hc : Ideal.cmp .ogt cN 0 = 1#1 := by
    show BitVec.ofBool (decide ((0 : EReal) < cN)) = 1#1
    rw [decide_eq_true cN_pos]; rfl
  rw [hc, select_one, hostDivf_apply, colSum_read, broadcastInDim_scalar_apply, cntV_read]
  show Ideal.div (∑ p : Fin 100000, devV x (ix2 p j) * devV x (ix2 p j)) cN = _
  rw [Finset.sum_congr rfl fun p _ => by rw [devV_read]]
  rfl

end Cert.ReferenceIdeal.Hand.RB

end
-- ==== Proof.RefSpec.lean ====
/-
  The reference's two results in the specification's vocabulary: each stage of the reference is the specification's
  stage function of the same arrays (the dense layers and the linear combination as row-by-column sums, the column
  mean and the variance as the mean of the squared deviations, the normalisation with its rectifier), and the
  reference's aggregation is the shared aggregation with the plain gather; composing the stages gives the
  specification's network.
-/
import proofs.«431466_j18562848654083_1_alg».proof.Proof.RefStages
import proofs.«431466_j18562848654083_1_alg».proof.Proof.Spec
import proofs.«431466_j18562848654083_1_alg».proof.Proof.AggDef
import proofs.«431466_j18562848654083_1_alg».proof.Proof.RefReadA
import proofs.«431466_j18562848654083_1_alg».proof.Proof.RefReadB

noncomputable section

namespace Cert.ReferenceIdeal.Hand

open Cert.ReferenceIdeal Cert.Spec Cert.AggDef Idealize.ShloMosaic Idealize.ShloMosaic.ValueIdx
open Facts₀ Facts

variable [Facts]

/-! ## The reference's two results as the specification's functions of its arguments

Stage by stage: every stage of the reference is the specification's stage function of the same arrays, so the
composed results are the specification's network with the plain gather and the variance as the mean of the squared
deviations. -/

/-- The reference's aggregation is the shared aggregation with the plain gather: the same operations over the same
    dimension numbers. -/
theorem stAgg_eq (a1 : IVec S2x640000 32) (h : AV S100000x128) : stAgg a1 h = aggR a1 h := rfl

theorem layer0_spec (a1 : IVec S2x640000 32) (H : Mat 100000 128) (a4 : AV S2x128x128) (a5 : AV S2x128) (a6 : AV S2x128x128)
    (a7 a8 : AV S2x128) :
    stLayer0 a1 (unmat H) a4 a5 a6 a7 a8 = unmat (layer varR (AggR a1) H (fun k j => a4 (ix3 0 k j)) (fun j => a5 (ix2 0 j))
      (fun k j => a6 (ix3 0 k j)) (fun j => a7 (ix2 0 j)) (fun j => a8 (ix2 0 j))) := by
  unfold stLayer0
  rw [stAgg_eq, RA.stLin_eq, RB.stMean_eq, RB.stVar_eq, RB.stBn_eq, RB.stSlab0_eq, RB.stSlab0_eq, RB.stRow0_eq, RB.stRow0_eq, RB.stRow0_eq]
  rfl

theorem layer1_spec (a1 : IVec S2x640000 32) (H : Mat 100000 128) (a4 : AV S2x128x128) (a5 : AV S2x128) (a6 : AV S2x128x128)
    (a7 a8 : AV S2x128) :
    stLayer1 a1 (unmat H) a4 a5 a6 a7 a8 = unmat (layer varR (AggR a1) H (fun k j => a4 (ix3 1 k j)) (fun j => a5 (ix2 1 j))
      (fun k j => a6 (ix3 1 k j)) (fun j => a7 (ix2 1 j)) (fun j => a8 (ix2 1 j))) := by
  unfold stLayer1
  rw [stAgg_eq, RA.stLin_eq, RB.stMean_eq, RB.stVar_eq, RB.stBn_eq, RB.stSlab1_eq, RB.stSlab1_eq, RB.stRow1_eq, RB.stRow1_eq, RB.stRow1_eq]
  rfl

/-- The reference's second result. -/
theorem resH_spec (a0 : AV S100000x256) (a1 : IVec S2x640000 32) (a2 : AV S256x128) (a3 : AV S128) (a4 : AV S2x128x128)
    (a5 : AV S2x128) (a6 : AV S2x128x128) (a7 a8 : AV S2x128) :
    resH a0 a1 a2 a3 a4 a5 a6 a7 a8 = unmat (feat varR (AggR a1) (mat a0) (mat a2) (vec a3)
      (fun k j => a4 (ix3 0 k j)) (fun j => a5 (ix2 0 j)) (fun k j => a6 (ix3 0 k j)) (fun j => a7 (ix2 0 j)) (fun j => a8 (ix2 0 j))
      (fun k j => a4 (ix3 1 k j)) (fun j => a5 (ix2 1 j)) (fun k j => a6 (ix3 1 k j)) (fun j => a7 (ix2 1 j)) (fun j => a8 (ix2 1 j))) := by
  unfold resH feat
  rw [RA.stH0_eq, layer0_spec, layer1_spec]

/-- The reference's first result. -/
theorem resY_spec (a0 : AV S100000x256) (a1 : IVec S2x640000 32) (a2 : AV S256x128) (a3 : AV S128) (a4 : AV S2x128x128)
    (a5 : AV S2x128) (a6 : AV S2x128x128) (a7 a8 : AV S2x128) (a9 : AV S128x1) (a10 : AV S1) :
    resY a0 a1 a2 a3 a4 a5 a6 a7 a8 a9 a10 = unvec (fun n => dense (feat varR (AggR a1) (mat a0) (mat a2) (vec a3)
      (fun k j => a4 (ix3 0 k j)) (fun j => a5 (ix2 0 j)) (fun k j => a6 (ix3 0 k j)) (fun j => a7 (ix2 0 j)) (fun j => a8 (ix2 0 j))
      (fun k j => a4 (ix3 1 k j)) (fun j => a5 (ix2 1 j)) (fun k j => a6 (ix3 1 k j)) (fun j => a7 (ix2 1 j)) (fun j => a8 (ix2 1 j)))
      (mat a9) (vec a10) n 0) := by
  unfold resY
  rw [resH_spec, RA.stHead_eq, mat_unmat]

end Cert.ReferenceIdeal.Hand

end
-- ==== Proof.AggLaws.lean ====
/-
  Facts about the neighbour aggregation. Where every source index is a valid row (between 0 and 99999 as a signed
  word) the wrap of a negative index changes nothing, both range compares hold, so the filled gather never fills: the
  two spellings of the row gather are one array, and so are the two aggregations. The plain aggregation keeps every
  entry finite: a gathered row is a row of the features, a node's sum is zero plus a finite sum of finite entries,
  the in-degree is a finite sum of ones, its clamp below by one is a finite real at least one, so the inverse is a
  finite real, and a product of two finite values is finite.
-/
import Idealize.ShloMosaic.PureOps.Ideal
import Idealize.ShloMosaic.PureOps.ShapeOps
import Idealize.ShloMosaic.PureOps.Contract
import Idealize.ShloMosaic.PureOps.Reduce
import Idealize.ShloMosaic.Lib.ValueIdx
import proofs.«431466_j18562848654083_1_alg».proof.Proof.Spec
import proofs.«431466_j18562848654083_1_alg».proof.Proof.AggDef

noncomputable section

namespace Cert.AggDef

open Idealize.ShloMosaic Idealize.ShloMosaic.ValueIdx Cert.Spec
open scoped BigOperators

/-! ## Valid sources: the filled gather is the plain gather -/

/-- A word in [0, 100000) is not negative, so the wrap (add 100000 to a negative word) leaves it. -/
theorem wrapW (w : BitVec 32) (h0 : 0 ≤ w.toInt) :
    Scalar.select (IntOp.cmpi .slt w 0#32) (IntOp.addi w 100000#32) w = w := by
  have hz : (0#32 : BitVec 32).toInt = 0 := by decide
  have a : w.slt 0#32 = false := by
    simp only [BitVec.slt, hz]; exact decide_eq_false (by omega)
  show Scalar.select (BitVec.ofBool (w.slt 0#32)) _ _ = _
  rw [a]; exact select_zero _ _

/-- A word in [0, 100000) passes both range compares: their conjunction is the bit 1. -/
theorem inRangeW (w : BitVec 32) (h0 : 0 ≤ w.toInt) (h1 : w.toInt < 100000) :
    IntOp.andi (IntOp.cmpi .sge w 0#32) (IntOp.cmpi .sle w 99999#32) = 1#1 := by
  have hz : (0#32 : BitVec 32).toInt = 0 := by decide
  have hn : (99999#32 : BitVec 32).toInt = 99999 := by decide
  have a : (0#32 : BitVec 32).sle w = true := by
    simp only [BitVec.sle, hz]; exact decide_eq_true h0
  have b : w.sle 99999#32 = true := by
    simp only [BitVec.sle, hn]; exact decide_eq_true (by omega)
  show IntOp.andi (BitVec.ofBool ((0#32 : BitVec 32).sle w)) (BitVec.ofBool (w.sle 99999#32)) = 1#1
  rw [a, b]; rfl

/-- A conjunction, from the bit 1, over a set all of whose bits are 1 is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, ih (fun i hi => hf i (Finset.mem_cons_of_mem hi)), hf a (Finset.mem_cons_self a S)]
    rfl

/-- The wrapped source of an edge whose source is valid is that source. -/
theorem wrap_eq (s : IVec SE 32) (k : SE.Idx) (h0 : 0 ≤ (s k).toInt) : wrap s k = s k := wrapW _ h0

/-- Every entry of the index column is a valid row. -/
theorem srcCol_range (e : IVec S2xE 32)
    (hsrc : ∀ k : SE.Idx, 0 ≤ (srcOf e k).toInt ∧ (srcOf e k).toInt < 100000) (i : SEx1.Idx) :
    0 ≤ (srcCol e i).toInt ∧ (srcCol e i).toInt < 100000 := by
  obtain ⟨k, hk⟩ : ∃ k : SE.Idx, srcCol e i = wrap (srcOf e) k := ⟨_, rfl⟩
  rw [hk, wrap_eq _ _ (hsrc k).1]; exact hsrc k

/-- Every edge is in range. -/
theorem inRange_one (e : IVec S2xE 32)
    (hsrc : ∀ k : SE.Idx, 0 ≤ (srcOf e k).toInt ∧ (srcOf e k).toInt < 100000) (k : SE.Idx) :
    inRange e k = 1#1 := by
  unfold inRange
  rw [Host.reduce_eq_fold]
  refine fold_andi_one _ _ (fun i _ => ?_)
  exact inRangeW _ (srcCol_range e hsrc i).1 (srcCol_range e hsrc i).2

theorem rowsK_eq_rowsR (e : IVec S2xE 32)
    (hsrc : ∀ k : SE.Idx, 0 ≤ (srcOf e k).toInt ∧ (srcOf e k).toInt < 100000) (h : FVec Ideal SNx128 .f32) :
    rowsK e h = rowsR e h := by
  funext i
  have hc : broadcastInDim SEx128 ![0] (by decide) (inRange e) i = 1#1 := inRange_one e hsrc _
  unfold rowsK rowsR
  rw [select_apply, hc, select_one]

theorem AggK_eq_AggR (e : IVec S2xE 32)
    (hsrc : ∀ k : SE.Idx, 0 ≤ (srcOf e k).toInt ∧ (srcOf e k).toInt < 100000) : AggK e = AggR e := by
  funext h
  unfold AggK AggR aggK aggR
  rw [rowsK_eq_rowsR e hsrc]

/-! ## The plain aggregation keeps finiteness -/

/-- A finite extended real is a real. -/
theorem isFin_iff (x : EReal) : IsFin x ↔ ∃ r : ℝ, x = (r : EReal) := by
  constructor
  · rintro ⟨hb, ht⟩; exact ⟨x.toReal, (EReal.coe_toReal ht hb).symm⟩
  · rintro ⟨r, rfl⟩; exact ⟨EReal.coe_ne_bot r, EReal.coe_ne_top r⟩

theorem isFin_coe (r : ℝ) : IsFin (r : EReal) := ⟨EReal.coe_ne_bot r, EReal.coe_ne_top r⟩
theorem isFin_zero : IsFin (0 : EReal) := isFin_coe 0
theorem isFin_one : IsFin (1 : EReal) := isFin_coe 1

theorem isFin_add {x y : EReal} (hx : IsFin x) (hy : IsFin y) : IsFin (x + y) := by
  obtain ⟨r, rfl⟩ := (isFin_iff x).1 hx
  obtain ⟨s, rfl⟩ := (isFin_iff y).1 hy
  rw [← EReal.coe_add]; exact isFin_coe _

theorem isFin_mul {x y : EReal} (hx : IsFin x) (hy : IsFin y) : IsFin (x * y) := by
  obtain ⟨r, rfl⟩ := (isFin_iff x).1 hx
  obtain ⟨s, rfl⟩ := (isFin_iff y).1 hy
  rw [← EReal.coe_mul]; exact isFin_coe _

/-- A finite sum of finite terms is finite. -/
theorem isFin_sum {ι : Type} (S : Finset ι) (f : ι → EReal) (hf : ∀ i ∈ S, IsFin (f i)) : IsFin (∑ i ∈ S, f i) :=
  Finset.sum_induction f IsFin (fun _ _ => isFin_add) isFin_zero hf

/-- The word 0x00000000 denotes 0. -/
theorem ofBits_zero : Ideal.ofBits .f32 0x00000000#32 = 0 := by
  simp [Ideal.ofBits, Ideal.ieee]

/-- The word 0x3F800000 denotes 1. -/
theorem ofBits_one : Ideal.ofBits .f32 0x3F800000#32 = 1 := by
  simp [Ideal.ofBits, Ideal.ieee, -EReal.coe_mul]; norm_num

/-- One over a finite value clamped below by one: the clamp is a real at least one, so not zero, and the quotient
    is the real reciprocal. -/
theorem invW_fin (d : EReal) (hd : IsFin d) :
    IsFin (Ideal.div (Ideal.ofBits .f32 0x3F800000#32) (max d (Ideal.ofBits .f32 0x3F800000#32))) := by
  rw [ofBits_one]
  have hm : IsFin (max d 1) := by
    rcases max_choice d 1 with h | h <;> rw [h]
    · exact hd
    · exact isFin_one
  obtain ⟨r, hr⟩ := (isFin_iff _).1 hm
  have h1 : (1 : EReal) ≤ (r : EReal) := hr ▸ le_max_right d 1
  have hr1 : (1 : ℝ) ≤ r := by exact_mod_cast h1
  rw [hr, Ideal.div_coe (by linarith : r ≠ 0)]
  exact isFin_mul isFin_one (isFin_coe _)

/-- A broadcast constant reads the value of its word everywhere. -/
theorem bcast_const_apply {t : Shape} (h : S0.BroadcastsInDim t ![]) (b : BitVec 32) (j : t.Idx) :
    broadcastInDim t ![] h (constant (F := Ideal) S0 .f32 b) j = Ideal.ofBits .f32 b := rfl

/-- The accumulating scatter at an index: the operand's entry plus the sum of the updates that land there. -/
theorem scatterAdd_apply {s si u : Shape} {w : Nat} {φ : FTy} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-- The in-degree is finite: zero plus a finite sum of ones. -/
theorem deg_fin (e : IVec S2xE 32) (k : SN.Idx) : IsFin (deg e k) := by
  unfold deg
  rw [scatterAdd_apply, bcast_const_apply, ofBits_zero]
  refine isFin_add isFin_zero (isFin_sum _ _ (fun j _ => ?_))
  rw [bcast_const_apply, ofBits_one]; exact isFin_one

/-- A property of every entry of an array holds of every entry of a broadcast of it. -/
theorem bcast_pred {α : Type} {s t : Shape} (dims : Fin s.rank → Fin t.rank) (h : s.BroadcastsInDim t dims)
    (v : s.Idx → α) (P : α → Prop) (hv : ∀ k, P (v k)) (j : t.Idx) : P (broadcastInDim t dims h v j) := hv _

/-- The host quotient at an index is the quotient of the entries. -/
theorem hostDivf_apply {s : Shape} {φ : FTy} (a b : FVec Ideal s φ) (i : s.Idx) :
    Host.divf a b i = Ideal.div (a i) (b i) := rfl

/-- The inverse clamped in-degree is finite. -/
theorem invdeg_fin (e : IVec S2xE 32) (k : SNx1.Idx) : IsFin (invdeg e k) := by
  unfold invdeg
  refine bcast_pred _ _ _ IsFin (fun k' => ?_) k
  rw [hostDivf_apply, maximumf_apply, bcast_const_apply]
  exact invW_fin _ (deg_fin e k')

/-- Finite rows aggregate to finite entries. -/
theorem aggOf_fin (rows : FVec Ideal SEx128 .f32) (e : IVec S2xE 32) (hrows : ∀ i, IsFin (rows i)) (i : SNx128.Idx) :
    IsFin (aggOf rows e i) := by
  unfold aggOf
  rw [mulf_apply]
  refine isFin_mul ?_ (bcast_pred _ _ _ IsFin (invdeg_fin e) i)
  rw [scatterAdd_apply, bcast_const_apply, ofBits_zero]
  exact isFin_add isFin_zero (isFin_sum _ _ (fun j _ => hrows j))

theorem AggR_fin (e : IVec S2xE 32) (h : Cert.Spec.Mat 100000 128) (hh : ∀ p j, Cert.Spec.IsFin (h p j)) :
    ∀ p j, Cert.Spec.IsFin (AggR e h p j) := by
  intro p j
  exact aggOf_fin (rowsR e (unmat h)) e (fun i => hh _ _) (ix2 p j)

end Cert.AggDef

end
-- ==== Proof.PreFacts.lean ====
/-
  What the printed precondition says of the eleven argument arrays. The precondition is a conjunction of twelve
  "all entries" tests reduced to one bit: for each of the ten float arrays, every entry's absolute value is below
  plus infinity; and for row 0 of the edge list, every entry is at least 0 and below 100000 as a signed word.
  Read back entry by entry: an extended real whose absolute value is below plus infinity is neither infinity, so
  every float entry is finite; and a signed word that tests at least 0 and below 100000 has its integer value in
  that range, so every edge's source names one of the 100000 nodes.
-/
import proofs.«431466_j18562848654083_1_alg».proof.Pre_finite_inputs
import proofs.«431466_j18562848654083_1_alg».proof.Proof.Gen.Pre_finite_inputs
import Idealize.ShloMosaic.Lib.ReduceAll
import Idealize.ShloMosaic.Lib.StableHlo.Predicate
import proofs.«431466_j18562848654083_1_alg».proof.Proof.Spec
import proofs.«431466_j18562848654083_1_alg».proof.Proof.AggDef

noncomputable section

namespace Cert.PreFacts

open Idealize.ShloMosaic Idealize.ShloMosaic.ValueIdx Cert.Spec

/-- The rank-0 shape has one index. -/
instance : Subsingleton Cert.Pre_finite_inputs.S_.Idx := ⟨fun a b => funext fun d => d.elim0⟩

/-- The word 0x7F800000 denotes plus infinity. -/
theorem inf_eq_top : Ideal.ofBits .f32 0x7F800000#32 = (⊤ : EReal) := by simp [Ideal.ofBits, Ideal.ieee]

/-- An extended real whose absolute value, the larger of x and -x, tests below plus infinity is neither infinity. -/
theorem isFin_of_abs_lt_inf (x : EReal)
    (h : Ideal.cmp .olt (max x (-x)) (Ideal.ofBits .f32 0x7F800000#32) = 1#1) : IsFin x := by
  rw [inf_eq_top] at h
  unfold Ideal.cmp at h
  rw [StableHlo.Predicate.ofBool_eq_one_iff, decide_eq_true_eq, max_lt_iff] at h
  refine ⟨?_, ?_⟩
  · intro hx; subst hx; exact absurd h.2 (by simp)
  · intro hx; subst hx; exact absurd h.1 (by simp)

/-- One "all entries finite" test, read back: if the reduction by "and" of the entrywise test |x| < +inf over all
    axes is 1, every entry of x is finite. -/
theorem all_isFin {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1) :
    ∀ i, IsFin (x i) := fun i =>
  isFin_of_abs_lt_inf (x i) (Host.reduce_andi_all _ _ hr hu ix0 e i)

/-- One signed "at least" test against a splat constant, read back at an entry. -/
theorem all_sge {s : Shape} {axes : List (Fin s.rank)} (x : IVec s 32) (c : BitVec 32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpi .sge x (broadcastInDim s ![] hb (constantI Cert.Pre_finite_inputs.S_ 32 c)))
          (constantI Cert.Pre_finite_inputs.S_ 1 1#1) hr hu ix0 = 1#1) :
    ∀ i, c.toInt ≤ (x i).toInt := fun i =>
  IntOp.cmpi_sge.1 (Host.reduce_andi_all _ _ hr hu ix0 e i)

/-- One signed "below" test against a splat constant, read back at an entry. -/
theorem all_slt {s : Shape} {axes : List (Fin s.rank)} (x : IVec s 32) (c : BitVec 32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpi .slt x (broadcastInDim s ![] hb (constantI Cert.Pre_finite_inputs.S_ 32 c)))
          (constantI Cert.Pre_finite_inputs.S_ 1 1#1) hr hu ix0 = 1#1) :
    ∀ i, (x i).toInt < c.toInt := fun i =>
  IntOp.cmpi_slt.1 (Host.reduce_andi_all _ _ hr hu ix0 e i)

/-- The precondition, read back: every float argument is finite at every entry, and every edge's source, as a signed
    word, lies in [0, 100000). -/
theorem of_pre [Cert.Pre_finite_inputs.Facts]
    (a0 : FVec Ideal Cert.Pre_finite_inputs.S100000x256 .f32) (a1 : IVec Cert.Pre_finite_inputs.S2x640000 32)
    (a2 : FVec Ideal Cert.Pre_finite_inputs.S256x128 .f32) (a3 : FVec Ideal Cert.Pre_finite_inputs.S128 .f32)
    (a4 : FVec Ideal Cert.Pre_finite_inputs.S2x128x128 .f32) (a5 : FVec Ideal Cert.Pre_finite_inputs.S2x128 .f32)
    (a6 : FVec Ideal Cert.Pre_finite_inputs.S2x128x128 .f32) (a7 : FVec Ideal Cert.Pre_finite_inputs.S2x128 .f32)
    (a8 : FVec Ideal Cert.Pre_finite_inputs.S2x128 .f32) (a9 : FVec Ideal Cert.Pre_finite_inputs.S128x1 .f32)
    (a10 : FVec Ideal Cert.Pre_finite_inputs.S1 .f32)
    (h : Cert.Pre_finite_inputs.fn (F := Ideal) a0 a1 a2 a3 a4 a5 a6 a7 a8 a9 a10 = (fun _ => 1#1)) :
    (∀ i, Cert.Spec.IsFin (a0 i)) ∧ (∀ i, Cert.Spec.IsFin (a2 i)) ∧ (∀ i, Cert.Spec.IsFin (a3 i))
      ∧ (∀ i, Cert.Spec.IsFin (a4 i)) ∧ (∀ i, Cert.Spec.IsFin (a5 i)) ∧ (∀ i, Cert.Spec.IsFin (a6 i))
      ∧ (∀ i, Cert.Spec.IsFin (a7 i)) ∧ (∀ i, Cert.Spec.IsFin (a8 i)) ∧ (∀ i, Cert.Spec.IsFin (a9 i))
      ∧ (∀ i, Cert.Spec.IsFin (a10 i))
      ∧ (∀ k : Cert.AggDef.SE.Idx, 0 ≤ (Cert.AggDef.srcOf a1 k).toInt ∧ (Cert.AggDef.srcOf a1 k).toInt < 100000) := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨⟨e0, e2⟩, e3⟩, e4⟩, e5⟩, e6⟩, e7⟩, e8⟩, e9⟩, e10⟩, eg⟩, el⟩ := e
  refine ⟨all_isFin a0 _ _ _ e0, all_isFin a2 _ _ _ e2, all_isFin a3 _ _ _ e3, all_isFin a4 _ _ _ e4,
    all_isFin a5 _ _ _ e5, all_isFin a6 _ _ _ e6, all_isFin a7 _ _ _ e7, all_isFin a8 _ _ _ e8,
    all_isFin a9 _ _ _ e9, all_isFin a10 _ _ _ e10, fun k => ⟨?_, ?_⟩⟩
  · exact all_sge _ 0#32 _ _ _ eg k
  · have := all_slt _ 100000#32 _ _ _ el k
    rw [StableHlo.Predicate.toInt_ofNat_small 100000 (by norm_num)] at this
    exact this

end Cert.PreFacts

end
-- ==== Proof.Bridge.lean ====
/-
  The one place where the two spellings of the network meet: on finite arguments whose edge sources are valid row
  indices, the network with the filled gather and the variance as mean of squares minus squared mean is the
  network with the plain gather and the variance as mean of squared deviations. The filled gather never fills
  (every source is a row), the aggregation keeps entries finite, and on finite columns the two variances are one
  number; the precondition hands over exactly the finiteness and the index range this needs.
-/
import proofs.«431466_j18562848654083_1_alg».proof.Proof.Spec
import proofs.«431466_j18562848654083_1_alg».proof.Proof.SpecLaws
import proofs.«431466_j18562848654083_1_alg».proof.Proof.AggDef
import proofs.«431466_j18562848654083_1_alg».proof.Proof.AggLaws
import proofs.«431466_j18562848654083_1_alg».proof.Proof.PreFacts

noncomputable section

namespace Cert.Bridge

open Idealize.ShloMosaic Idealize.ShloMosaic.ValueIdx Cert.Spec Cert.AggDef

/-- The node features of the two spellings agree under the precondition's facts. -/
theorem feat_eq_of_pre [Cert.Pre_finite_inputs.Facts]
    (a0 : FVec Ideal Cert.Pre_finite_inputs.S100000x256 .f32) (a1 : IVec Cert.Pre_finite_inputs.S2x640000 32)
    (a2 : FVec Ideal Cert.Pre_finite_inputs.S256x128 .f32) (a3 : FVec Ideal Cert.Pre_finite_inputs.S128 .f32)
    (a4 : FVec Ideal Cert.Pre_finite_inputs.S2x128x128 .f32) (a5 : FVec Ideal Cert.Pre_finite_inputs.S2x128 .f32)
    (a6 : FVec Ideal Cert.Pre_finite_inputs.S2x128x128 .f32) (a7 : FVec Ideal Cert.Pre_finite_inputs.S2x128 .f32)
    (a8 : FVec Ideal Cert.Pre_finite_inputs.S2x128 .f32) (a9 : FVec Ideal Cert.Pre_finite_inputs.S128x1 .f32)
    (a10 : FVec Ideal Cert.Pre_finite_inputs.S1 .f32)
    (h : Cert.Pre_finite_inputs.fn (F := Ideal) a0 a1 a2 a3 a4 a5 a6 a7 a8 a9 a10 = (fun _ => 1#1)) :
    feat varK (AggK a1) (mat a0) (mat a2) (vec a3)
        (fun k j => a4 (ix3 0 k j)) (fun j => a5 (ix2 0 j)) (fun k j => a6 (ix3 0 k j)) (fun j => a7 (ix2 0 j)) (fun j => a8 (ix2 0 j))
        (fun k j => a4 (ix3 1 k j)) (fun j => a5 (ix2 1 j)) (fun k j => a6 (ix3 1 k j)) (fun j => a7 (ix2 1 j)) (fun j => a8 (ix2 1 j))
      = feat varR (AggR a1) (mat a0) (mat a2) (vec a3)
        (fun k j => a4 (ix3 0 k j)) (fun j => a5 (ix2 0 j)) (fun k j => a6 (ix3 0 k j)) (fun j => a7 (ix2 0 j)) (fun j => a8 (ix2 0 j))
        (fun k j => a4 (ix3 1 k j)) (fun j => a5 (ix2 1 j)) (fun k j => a6 (ix3 1 k j)) (fun j => a7 (ix2 1 j)) (fun j => a8 (ix2 1 j)) := by
  obtain ⟨h0, h2, h3, h4, h5, h6, h7, h8, _, _, hsrc⟩ := Cert.PreFacts.of_pre a0 a1 a2 a3 a4 a5 a6 a7 a8 a9 a10 h
  rw [AggK_eq_AggR a1 hsrc]
  exact feat_eq (AggR a1) (AggR_fin a1) _ _ _ _ _ _ _ _ _ _ _ _ _
    (fun p q => h0 _) (fun p q => h2 _) (fun j => h3 _)
    (fun p q => h4 _) (fun j => h5 _) (fun p q => h6 _) (fun j => h7 _) (fun j => h8 _)
    (fun p q => h4 _) (fun j => h5 _) (fun p q => h6 _) (fun j => h7 _) (fun j => h8 _)

end Cert.Bridge

end
-- ==== Proof.Algebraic.lean ====
/-
  The value claim: run from memories that agree on the eleven arguments, the idealized kernel and the idealized
  reference end with the same two results. The kernel's results are the specification's network with the filled
  gather and the variance as mean of squares minus squared mean; the reference's are the network with the plain
  gather and the variance as the mean of squared deviations; under the precondition (finite float inputs, edge
  sources valid row indices) the two networks are one function.
-/
import proofs.«431466_j18562848654083_1_alg».proof.Defs
import proofs.«431466_j18562848654083_1_alg».proof.Proof.Gen.KernelIdeal
import proofs.«431466_j18562848654083_1_alg».proof.Proof.Gen.ReferenceIdeal
import proofs.«431466_j18562848654083_1_alg».proof.Proof.Gen.Pre_finite_inputs
import proofs.«431466_j18562848654083_1_alg».proof.Proof.KernelRun
import proofs.«431466_j18562848654083_1_alg».proof.Proof.KValue
import proofs.«431466_j18562848654083_1_alg».proof.Proof.RefRun
import proofs.«431466_j18562848654083_1_alg».proof.Proof.RefValue
import proofs.«431466_j18562848654083_1_alg».proof.Proof.RefSpec
import proofs.«431466_j18562848654083_1_alg».proof.Proof.Bridge

set_option maxRecDepth 16384

noncomputable section

namespace Cert.Proof

open Idealize.ShloMosaic Idealize.ShloMosaic.TcCoe Idealize.SL.Sem Idealize.ShloMosaic.ValueIdx Cert.Spec Cert.AggDef

theorem algebraic : Cert.algebraic_KernelIdeal_ReferenceIdeal := by
  intro m ρ m' ρ' hpre hagree
  refine ⟨fun c => Cert.KernelIdeal.Gen.W15 m ρ c (Proc.devRef .tc Cert.KernelIdeal.main_v71),
    fun c => Cert.KernelIdeal.Gen.W15 m ρ c (Proc.devRef .tc Cert.KernelIdeal.main_v68),
    Cert.KernelIdeal.Hand.run_results m ρ, ?_⟩
  refine (θ_run Cert.ReferenceIdeal.defs _ _).mono (fun r h c => ?_)
    (Cert.ReferenceIdeal.Hand.run_main (F := Ideal) m' ρ')
  obtain ⟨e0, e1, e2, e3, e4, e5, e6, e7, e8, e9, e10⟩ := hagree c
  have hb := Cert.Bridge.feat_eq_of_pre _ _ _ _ _ _ _ _ _ _ _ (hpre c)
  have hy : r.2.mem ((c.tc : Thread Cert.ReferenceIdeal.nD Cert.ReferenceIdeal.τ).loc Cert.ReferenceIdeal.main_v118)
      = Cert.ReferenceIdeal.Hand.resY (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)) :=
    (h c Cert.ReferenceIdeal.main_v118).trans (Cert.ReferenceIdeal.Hand.RV.y_eq _)
  have hh : r.2.mem ((c.tc : Thread Cert.ReferenceIdeal.nD Cert.ReferenceIdeal.τ).loc Cert.ReferenceIdeal.main_v113)
      = Cert.ReferenceIdeal.Hand.resH (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8)) :=
    (h c Cert.ReferenceIdeal.main_v113).trans (Cert.ReferenceIdeal.Hand.RV.h_eq _)
  refine ⟨?_, ?_,
    (h c Cert.ReferenceIdeal.main_arg0).trans (Cert.ReferenceIdeal.Hand.arg0_eq _),
    (h c Cert.ReferenceIdeal.main_arg1).trans (Cert.ReferenceIdeal.Hand.arg1_eq _),
    (h c Cert.ReferenceIdeal.main_arg2).trans (Cert.ReferenceIdeal.Hand.arg2_eq _),
    (h c Cert.ReferenceIdeal.main_arg3).trans (Cert.ReferenceIdeal.Hand.arg3_eq _),
    (h c Cert.ReferenceIdeal.main_arg4).trans (Cert.ReferenceIdeal.Hand.arg4_eq _),
    (h c Cert.ReferenceIdeal.main_arg5).trans (Cert.ReferenceIdeal.Hand.arg5_eq _),
    (h c Cert.ReferenceIdeal.main_arg6).trans (Cert.ReferenceIdeal.Hand.arg6_eq _),
    (h c Cert.ReferenceIdeal.main_arg7).trans (Cert.ReferenceIdeal.Hand.arg7_eq _),
    (h c Cert.ReferenceIdeal.main_arg8).trans (Cert.ReferenceIdeal.Hand.arg8_eq _),
    (h c Cert.ReferenceIdeal.main_arg9).trans (Cert.ReferenceIdeal.Hand.arg9_eq _),
    (h c Cert.ReferenceIdeal.main_arg10).trans (Cert.ReferenceIdeal.Hand.arg10_eq _)⟩
  · rw [hy, e0, e1, e2, e3, e4, e5, e6, e7, e8, e9, e10, Cert.ReferenceIdeal.Hand.resY_spec]
    refine Eq.trans ?_ (Cert.KernelIdeal.Hand.result_y m ρ c).symm
    rw [hb]
  · rw [hh, e0, e1, e2, e3, e4, e5, e6, e7, e8, Cert.ReferenceIdeal.Hand.resH_spec]
    refine Eq.trans ?_ (Cert.KernelIdeal.Hand.result_h m ρ c).symm
    rw [hb]

end Cert.Proof

end
-- ==== Proof.lean ====
/-
  The certificate of the two-layer mean-aggregation graph network: the kernel program (six tiled regions — a dense
  layer, twice a linear combination with running column sums and a normalisation, a dense head — among host
  operations that gather and sum neighbour rows) against the plain array program.
  Frames: the two kernel programs' frames are their generated region-by-region certificates; the reference's frame is
  its run, operation by operation. The idealization rewrote nothing, so it is preserved trivially. The value claim
  (`Algebraic`) holds under the precondition that every float input is finite and every edge source is a valid row
  index: outside that range the plain gather reads a clamped row where the kernel's gather fills, and the two
  programs differ.
-/
import proofs.«431466_j18562848654083_1_alg».proof.Defs
import proofs.«431466_j18562848654083_1_alg».proof.Proof.Gen.Kernel
import proofs.«431466_j18562848654083_1_alg».proof.Proof.Gen.Kernel.Skeleton
import proofs.«431466_j18562848654083_1_alg».proof.Proof.Gen.Kernel.Launch
import proofs.«431466_j18562848654083_1_alg».proof.Proof.Gen.Kernel.Points
import proofs.«431466_j18562848654083_1_alg».proof.Proof.Gen.Kernel.Frame
import proofs.«431466_j18562848654083_1_alg».proof.Proof.Gen.KernelIdeal
import proofs.«431466_j18562848654083_1_alg».proof.Proof.Gen.KernelIdeal.Skeleton
import proofs.«431466_j18562848654083_1_alg».proof.Proof.Gen.KernelIdeal.Launch
import proofs.«431466_j18562848654083_1_alg».proof.Proof.Gen.KernelIdeal.Points
import proofs.«431466_j18562848654083_1_alg».proof.Proof.Gen.KernelIdeal.Frame
import proofs.«431466_j18562848654083_1_alg».proof.Proof.Gen.ReferenceIdeal
import proofs.«431466_j18562848654083_1_alg».proof.Proof.Gen.Pre_finite_inputs
import proofs.«431466_j18562848654083_1_alg».proof.Proof.RefRun
import proofs.«431466_j18562848654083_1_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Hand.frame (F := Ideal) m ρ,
  trivial,
  Cert.Proof.algebraic⟩

end Cert.Proof

end
